-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536 : Shape := ⟨2, ![64, 65536]⟩
abbrev S1024x1024 : Shape := ⟨2, ![1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S64x65536 : S_.BroadcastsInDim S64x65536 (![] : Fin 0 → Fin S64x65536.rank)
  reducesTo_S64x65536_S_d0_1 : S64x65536.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S384x64 .f32) (main_arg6 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x64 .f32 := Host.absf main_arg5
  let main_cst_8 : FVec F S_ .f32 := constant S_ .f32 0x7F800000#32
  let main_v25 : FVec F S384x64 .f32 := broadcastInDim S384x64 ![] bcast_S_S384x64 main_cst_8
  let main_v26 : IVec S384x64 1 := cmpf .olt main_v24 main_v25
  let main_c_9 : IVec S_ 1 := constantI S_ 1 1#1
  let main_v27 : IVec S_ 1 := (fun x v => Host.reduce IntOp.andi x v reducesTo_S384x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S64x65536 .f32) (main_arg1 : FVec F S64x65536 .f32) (main_arg2 : FVec F S1024x1024 .f32) (main_arg3 : FVec F S384x128 .f32) (main_arg4 : FVec F S128 .f32) (main_arg5 : FVec F S384x64 .f32) (main_arg6 : FVec F S64 .f32) : IVec S_ 1 :=
  let main_v0 : FVec F S64x65536 .f32 := Host.absf main_arg0
  let main_cst : FVec F S_ .f32 := constant S_ .f32 0x7F800000#32
  let main_v1 : FVec F S64x65536 .f32 := broadcastInDim S64x65536 ![] bcast_S_S64x65536 main_cst
  let main_v2 : IVec S64x65536 1 := cmpf .olt main_v0 main_v1
  let main_c : IVec S_ 1 := constantI S_ 1 1#1
  let main_v3 : IVec S_ 1 := (fun x v => Host.reduce IntOp.andi x v reducesTo_S64x65536_S_d0_1 h_S_) main_v2 main_c
  let main_v4 : FVec F S64x65536 .f32 := Host.absf main_arg1
  let main_cst_0 : FVec F S_ .f32 := constant S_ .f32 0x7F800000#32
  let main_v5 : FVec F S64x65536 .f32 := broadcastInDim S64x65536 ![] bcast_S_S64x65536 main_cst_0
  let main_v6 : IVec S64x65536 1 := cmpf .olt main_v4 main_v5
  let main_c_1 : IVec S_ 1 := constantI S_ 1 1#1
  let main_v7 : IVec S_ 1 := (fun x v => Host.reduce IntOp.andi x v reducesTo_S64x65536_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S64x65536 : Shape := ⟨2, ![64, 65536]⟩
abbrev S1024x1024 : Shape := ⟨2, ![1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S64x1024x64 : Shape := ⟨3, ![64, 1024, 64]⟩
abbrev S1024x64x64 : Shape := ⟨3, ![1024, 64, 64]⟩
abbrev S1024x4096 : Shape := ⟨2, ![1024, 4096]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S1024 : Shape := ⟨1, ![1024]⟩
abbrev S1x1024 : Shape := ⟨2, ![1, 1024]⟩
abbrev S1024x512 : Shape := ⟨2, ![1024, 512]⟩
abbrev S65536x64 : Shape := ⟨2, ![65536, 64]⟩
abbrev S4096x64 : Shape := ⟨2, ![4096, 64]⟩
abbrev S4096x384 : Shape := ⟨2, ![4096, 384]⟩
abbrev S4096x128 : Shape := ⟨2, ![4096, 128]⟩

abbrev nBuf : Space → Nat
  | .hbm => 48
  | .vmem => 74
  | .smem => 0
  | _ => 0

abbrev bufTy : (tb : Table) → Fin (tcTables nBuf tb) → BufTy
  | .hbm, ⟨0, _⟩ => ⟨S64x65536, .f32⟩
  | .hbm, ⟨1, _⟩ => ⟨S64x65536, .f32⟩
  | .hbm, ⟨2, _⟩ => ⟨S1024x1024, .f32⟩
  | .hbm, ⟨3, _⟩ => ⟨S384x128, .f32⟩
  | .hbm, ⟨4, _⟩ => ⟨S128, .f32⟩
  | .hbm, ⟨5, _⟩ => ⟨S384x64, .f32⟩
  | .hbm, ⟨6, _⟩ => ⟨S64, .f32⟩
  | .hbm, ⟨7, _⟩ => ⟨S64x1024x64, .f32⟩
  | .hbm, ⟨8, _⟩ => ⟨S1024x64x64, .f32⟩
  | .hbm, ⟨9, _⟩ => ⟨S1024x4096, .f32⟩
  | .hbm, ⟨10, _⟩ => ⟨S64x1024x64, .f32⟩
  | .hbm, ⟨11, _⟩ => ⟨S1024x64x64, .f32⟩
  | .hbm, ⟨12, _⟩ => ⟨S1024x4096, .f32⟩
  | .hbm, ⟨13, _⟩ => ⟨S128x3x128, .f32⟩
  | .hbm, ⟨14, _⟩ => ⟨S3x128x128, .f32⟩
  | .hbm, ⟨15, _⟩ => ⟨S384x128, .f32⟩
  | .hbm, ⟨16, _⟩ => ⟨S128x3x64, .f32⟩
  | .hbm, ⟨17, _⟩ => ⟨S3x128x64, .f32⟩
  | .hbm, ⟨18, _⟩ => ⟨S384x64, .f32⟩
  | .hbm, ⟨19, _⟩ => ⟨S1x128, .f32⟩
  | .hbm, ⟨20, _⟩ => ⟨S1x64, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S65536x64, .f32⟩
  | .hbm, ⟨28, _⟩ => ⟨S65536x64, .f32⟩
  | .hbm, ⟨29, _⟩ => ⟨S65536x64, .f32⟩
  | .hbm, ⟨30, _⟩ => ⟨S65536x64, .f32⟩
  | .hbm, ⟨31, _⟩ => ⟨S65536x64, .f32⟩
  | .hbm, ⟨32, _⟩ => ⟨S65536x64, .f32⟩
  | .hbm, ⟨33, _⟩ => ⟨S65536x64, .f32⟩
  | .hbm, ⟨34, _⟩ => ⟨S65536x64, .f32⟩
  | .hbm, ⟨35, _⟩ => ⟨S1024x4096, .f32⟩
  | .hbm, ⟨36, _⟩ => ⟨S1024x4096, .f32⟩
  | .hbm, ⟨37, _⟩ => ⟨S1024x4096, .f32⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S65536x64, .f32⟩
  | .hbm, ⟨43, _⟩ => ⟨S65536x64, .f32⟩
  | .hbm, ⟨44, _⟩ => ⟨S65536x64, .f32⟩
  | .hbm, ⟨45, _⟩ => ⟨S1024x64x64, .f32⟩
  | .hbm, ⟨46, _⟩ => ⟨S64x1024x64, .f32⟩
  | .hbm, ⟨47, _⟩ => ⟨S64x65536, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x1024, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S4096x64, .f32⟩
  | .local _ .vmem, ⟨35, _⟩ => ⟨S4096x64, .f32⟩
  | .local _ .vmem, ⟨36, _⟩ => ⟨S384x128, .f32⟩
  | .local _ .vmem, ⟨37, _⟩ => ⟨S1x128, .f32⟩
  | .local _ .vmem, ⟨38, _⟩ => ⟨S4096x64, .f32⟩
  | .local _ .vmem, ⟨39, _⟩ => ⟨S4096x64, .f32⟩
  | .local _ .vmem, ⟨40, _⟩ => ⟨S4096x64, .f32⟩
  | .local _ .vmem, ⟨41, _⟩ => ⟨S4096x64, .f32⟩
  | .local _ .vmem, ⟨42, _⟩ => ⟨S1024x1024, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x512, .f32⟩
  | .local _ .vmem, ⟨47, _⟩ => ⟨S1024x1024, .f32⟩
  | .local _ .vmem, ⟨48, _⟩ => ⟨S1024x512, .f32⟩
  | .local _ .vmem, ⟨49, _⟩ => ⟨S1024x512, .f32⟩
  | .local _ .vmem, ⟨50, _⟩ => ⟨S1024x512, .f32⟩
  | .local _ .vmem, ⟨51, _⟩ => ⟨S1024x512, .f32⟩
  | .local _ .vmem, ⟨52, _⟩ => ⟨S1024x512, .f32⟩
  | .local _ .vmem, ⟨53, _⟩ => ⟨S1024x512, .f32⟩
  | .local _ .vmem, ⟨54, _⟩ => ⟨S4096x64, .f32⟩
  | .local _ .vmem, ⟨55, _⟩ => ⟨S4096x64, .f32⟩
  | .local _ .vmem, ⟨56, _⟩ => ⟨S4096x64, .f32⟩
  | .local _ .vmem, ⟨57, _⟩ => ⟨S4096x64, .f32⟩
  | .local _ .vmem, ⟨58, _⟩ => ⟨S4096x64, .f32⟩
  | .local _ .vmem, ⟨59, _⟩ => ⟨S4096x64, .f32⟩
  | .local _ .vmem, ⟨60, _⟩ => ⟨S4096x64, .f32⟩
  | .local _ .vmem, ⟨61, _⟩ => ⟨S4096x64, .f32⟩
  | .local _ .vmem, ⟨62, _⟩ => ⟨S4096x64, .f32⟩
  | .local _ .vmem, ⟨63, _⟩ => ⟨S4096x64, .f32⟩
  | .local _ .vmem, ⟨64, _⟩ => ⟨S4096x64, .f32⟩
  | .local _ .vmem, ⟨65, _⟩ => ⟨S4096x64, .f32⟩
  | .local _ .vmem, ⟨66, _⟩ => ⟨S4096x64, .f32⟩
  | .local _ .vmem, ⟨67, _⟩ => ⟨S4096x64, .f32⟩
  | .local _ .vmem, ⟨68, _⟩ => ⟨S4096x64, .f32⟩
  | .local _ .vmem, ⟨69, _⟩ => ⟨S4096x64, .f32⟩
  | .local _ .vmem, ⟨70, _⟩ => ⟨S384x64, .f32⟩
  | .local _ .vmem, ⟨71, _⟩ => ⟨S1x64, .f32⟩
  | .local _ .vmem, ⟨72, _⟩ => ⟨S4096x64, .f32⟩
  | .local _ .vmem, ⟨73, _⟩ => ⟨S4096x64, .f32⟩
  | _, _ => ⟨S64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg9_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc6_stg8_0 : Ref sig .tc := ⟨.vmem, 70, rfl⟩
abbrev cc6_stg9_0 : Ref sig .tc := ⟨.vmem, 71, rfl⟩
abbrev cc6_stg10_0 : Ref sig .tc := ⟨.vmem, 72, rfl⟩
abbrev cc6_stg10_1 : Ref sig .tc := ⟨.vmem, 73, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem7_0 : DmaSem sig := 37
abbrev cc3_sem8_0 : DmaSem sig := 38
abbrev cc3_sem8_1 : DmaSem sig := 39
abbrev cc3_sem9_0 : DmaSem sig := 40
abbrev cc3_sem9_1 : DmaSem sig := 41
abbrev cc4_sem0_0 : DmaSem sig := 42
abbrev cc4_sem1_0 : DmaSem sig := 43
abbrev cc4_sem1_1 : DmaSem sig := 44
abbrev cc4_sem2_0 : DmaSem sig := 45
abbrev cc4_sem2_1 : DmaSem sig := 46
abbrev cc5_sem0_0 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem3_1 : DmaSem sig := 61
abbrev cc6_sem4_0 : DmaSem sig := 62
abbrev cc6_sem4_1 : DmaSem sig := 63
abbrev cc6_sem5_0 : DmaSem sig := 64
abbrev cc6_sem5_1 : DmaSem sig := 65
abbrev cc6_sem6_0 : DmaSem sig := 66
abbrev cc6_sem6_1 : DmaSem sig := 67
abbrev cc6_sem7_0 : DmaSem sig := 68
abbrev cc6_sem7_1 : DmaSem sig := 69
abbrev cc6_sem8_0 : DmaSem sig := 70
abbrev cc6_sem9_0 : DmaSem sig := 71
abbrev cc6_sem10_0 : DmaSem sig := 72
abbrev cc6_sem10_1 : DmaSem sig := 73

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S384x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4096x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S4096x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1024x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4096x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4096x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S4096x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4096x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S4096x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S384x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S4096x64 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

class Facts₀ : Prop where
  shapeCasts_S64x65536_S64x1024x64 : S64x65536.ShapeCasts S64x1024x64
  transposes_S64x1024x64_S1024x64x64_1_0_2 : S64x1024x64.Transposes [1, 0, 2] S1024x64x64
  shapeCasts_S1024x64x64_S1024x4096 : S1024x64x64.ShapeCasts S1024x4096
  shapeCasts_S384x128_S128x3x128 : S384x128.ShapeCasts S128x3x128
  transposes_S128x3x128_S3x128x128_1_0_2 : S128x3x128.Transposes [1, 0, 2] S3x128x128
  shapeCasts_S3x128x128_S384x128 : S3x128x128.ShapeCasts S384x128
  shapeCasts_S384x64_S128x3x64 : S384x64.ShapeCasts S128x3x64
  transposes_S128x3x64_S3x128x64_1_0_2 : S128x3x64.Transposes [1, 0, 2] S3x128x64
  shapeCasts_S3x128x64_S384x64 : S3x128x64.ShapeCasts S384x64
  shapeCasts_S128_S1x128 : S128.ShapeCasts S1x128
  shapeCasts_S64_S1x64 : S64.ShapeCasts S1x64
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d0_w32 : S1024x1024.Iotas .tc 32 [0]
  iota_S1024x1024_d1_w32 : S1024x1024.Iotas .tc 32 [1]
  reduces_S1024x1024_S1024 : S1024x1024.Reduces [0] S1024
  shapeCasts_S1024_S1x1024 : S1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x4096_S65536x64 : S1024x4096.ShapeCasts S65536x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  concatenates_S4096x64_S4096x64_S4096x64_S4096x64_S4096x64_S4096x64_S4096x384_d1 : Shape.Concatenates [S4096x64, S4096x64, S4096x64, S4096x64, S4096x64, S4096x64] S4096x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x128_o0_0_S4096x64 : S4096x128.Slices ![0, 0] S4096x64
  slices_S4096x128_o0_64_S4096x64 : S4096x128.Slices ![0, 64] S4096x64
  shapeCasts_S65536x64_S1024x4096 : S65536x64.ShapeCasts S1024x4096
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S65536x64_S1024x64x64 : S65536x64.ShapeCasts S1024x64x64
  transposes_S1024x64x64_S64x1024x64_1_0_2 : S1024x64x64.Transposes [1, 0, 2] S64x1024x64
  shapeCasts_S64x1024x64_S64x65536 : S64x1024x64.ShapeCasts S64x65536
  dot_S1024x1024_S1024x512_S1024x512_1_0_0_1_n_n_wf : DotDims.WF S1024x1024 S1024x512 S1024x512 [1] [0] [0] [1] [] []
  dot_S4096x384_S384x128_S4096x128_1_0_0_1_n_n_wf : DotDims.WF S4096x384 S384x128 S4096x128 [1] [0] [0] [1] [] []
  dot_S4096x384_S384x64_S4096x64_1_0_0_1_n_n_wf : DotDims.WF S4096x384 S384x64 S4096x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x4096.size a
  hwx1_1 : ∀ i : grid1.Coords, EltTy.bits .f32 = 32 ∨ (Rect.block (s := S1024x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x4096.size a
  hwx1_2 : ∀ i : grid1.Coords, EltTy.bits .f32 = 32 ∨ (Rect.block (s := S1024x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x4096.size a
  hwx1_3 : ∀ i : grid1.Coords, EltTy.bits .f32 = 32 ∨ (Rect.block (s := S1024x4096) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S1024x4096.size a
  hwx1_4 : ∀ i : grid1.Coords, EltTy.bits .f32 = 32 ∨ (Rect.block (s := S1024x4096) S1024x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x1024.size a
  hwx2_0 : ∀ i : grid2.Coords, EltTy.bits .f32 = 32 ∨ (Rect.block (s := S1024x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x4096.size a
  hwx2_1 : ∀ i : grid2.Coords, EltTy.bits .f32 = 32 ∨ (Rect.block (s := S1024x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x4096.size a
  hwx2_2 : ∀ i : grid2.Coords, EltTy.bits .f32 = 32 ∨ (Rect.block (s := S1024x4096) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S1024x4096.size a
  hwx2_3 : ∀ i : grid2.Coords, EltTy.bits .f32 = 32 ∨ (Rect.block (s := S1024x4096) S1024x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S1024x4096.size a
  hwx2_4 : ∀ i : grid2.Coords, EltTy.bits .f32 = 32 ∨ (Rect.block (s := S1024x4096) S1024x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S1024x4096.size a
  hwx2_5 : ∀ i : grid2.Coords, EltTy.bits .f32 = 32 ∨ (Rect.block (s := S1024x4096) S1024x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S1024x4096.size a
  hwx2_6 : ∀ i : grid2.Coords, EltTy.bits .f32 = 32 ∨ (Rect.block (s := S1024x4096) S1024x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S65536x64.size a
  hwx3_1 : ∀ i : grid3.Coords, EltTy.bits .f32 = 32 ∨ (Rect.block (s := S65536x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S65536x64.size a
  hwx3_2 : ∀ i : grid3.Coords, EltTy.bits .f32 = 32 ∨ (Rect.block (s := S65536x64) S4096x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S65536x64.size a
  hwx3_3 : ∀ i : grid3.Coords, EltTy.bits .f32 = 32 ∨ (Rect.block (s := S65536x64) S4096x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S65536x64.size a
  hwx3_4 : ∀ i : grid3.Coords, EltTy.bits .f32 = 32 ∨ (Rect.block (s := S65536x64) S4096x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S65536x64.size a
  hwx3_5 : ∀ i : grid3.Coords, EltTy.bits .f32 = 32 ∨ (Rect.block (s := S65536x64) S4096x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S384x128.size a ≤ S384x128.size a
  hwx3_6 : ∀ i : grid3.Coords, EltTy.bits .f32 = 32 ∨ (Rect.block (s := S384x128) S384x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4096x64.size a ≤ S65536x64.size a
  hwx3_8 : ∀ i : grid3.Coords, EltTy.bits .f32 = 32 ∨ (Rect.block (s := S65536x64) S4096x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4096x64.size a ≤ S65536x64.size a
  hwx3_9 : ∀ i : grid3.Coords, EltTy.bits .f32 = 32 ∨ (Rect.block (s := S65536x64) S4096x64.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S1024x1024.size a
  hwx4_0 : ∀ i : grid4.Coords, EltTy.bits .f32 = 32 ∨ (Rect.block (s := S1024x1024) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x4096.size a
  hwx4_1 : ∀ i : grid4.Coords, EltTy.bits .f32 = 32 ∨ (Rect.block (s := S1024x4096) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S1024x4096.size a
  hwx4_2 : ∀ i : grid4.Coords, EltTy.bits .f32 = 32 ∨ (Rect.block (s := S1024x4096) S1024x512.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S1024x1024.size a
  hwx5_0 : ∀ i : grid5.Coords, EltTy.bits .f32 = 32 ∨ (Rect.block (s := S1024x1024) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S1024x4096.size a
  hwx5_1 : ∀ i : grid5.Coords, EltTy.bits .f32 = 32 ∨ (Rect.block (s := S1024x4096) S1024x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S1024x4096.size a
  hwx5_2 : ∀ i : grid5.Coords, EltTy.bits .f32 = 32 ∨ (Rect.block (s := S1024x4096) S1024x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S1024x4096.size a
  hwx5_3 : ∀ i : grid5.Coords, EltTy.bits .f32 = 32 ∨ (Rect.block (s := S1024x4096) S1024x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S65536x64.size a
  hwx6_0 : ∀ i : grid6.Coords, EltTy.bits .f32 = 32 ∨ (Rect.block (s := S65536x64) S4096x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S65536x64.size a
  hwx6_1 : ∀ i : grid6.Coords, EltTy.bits .f32 = 32 ∨ (Rect.block (s := S65536x64) S4096x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x64.size a ≤ S65536x64.size a
  hwx6_2 : ∀ i : grid6.Coords, EltTy.bits .f32 = 32 ∨ (Rect.block (s := S65536x64) S4096x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x64.size a ≤ S65536x64.size a
  hwx6_3 : ∀ i : grid6.Coords, EltTy.bits .f32 = 32 ∨ (Rect.block (s := S65536x64) S4096x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4096x64.size a ≤ S65536x64.size a
  hwx6_4 : ∀ i : grid6.Coords, EltTy.bits .f32 = 32 ∨ (Rect.block (s := S65536x64) S4096x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x64.size a ≤ S65536x64.size a
  hwx6_5 : ∀ i : grid6.Coords, EltTy.bits .f32 = 32 ∨ (Rect.block (s := S65536x64) S4096x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x64.size a ≤ S65536x64.size a
  hwx6_6 : ∀ i : grid6.Coords, EltTy.bits .f32 = 32 ∨ (Rect.block (s := S65536x64) S4096x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x64.size a ≤ S65536x64.size a
  hwx6_7 : ∀ i : grid6.Coords, EltTy.bits .f32 = 32 ∨ (Rect.block (s := S65536x64) S4096x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S384x64.size a ≤ S384x64.size a
  hwx6_8 : ∀ i : grid6.Coords, EltTy.bits .f32 = 32 ∨ (Rect.block (s := S384x64) S384x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x64.size a ≤ S1x64.size a
  hwx6_9 : ∀ i : grid6.Coords, EltTy.bits .f32 = 32 ∨ (Rect.block (s := S1x64) S1x64.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S4096x64.size a ≤ S65536x64.size a
  hwx6_10 : ∀ i : grid6.Coords, EltTy.bits .f32 = 32 ∨ (Rect.block (s := S65536x64) S4096x64.size (cc6_transform_10 i) (hinb6_10 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x384_S384x64_S4096x64_1_0_0_1_n_n : DotDims S4096x384 S384x64 S4096x64 where
  lhsContracting := [1]
  rhsContracting := [0]
  lhsNonContracting := [0]
  rhsNonContracting := [1]
  lhsBatch := []
  rhsBatch := []
  wf := dot_S4096x384_S384x64_S4096x64_1_0_0_1_n_n_wf

abbrev win0_0 : Pipeline.Window sig grid0 :=
  Pipeline.Window.ofSpec (Memref.whole main_v14) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S1024x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_0) S1024x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v17_1) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S4096x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S4096x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v23) S4096x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v8) S384x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v24_0) S4096x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v24_1) S4096x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v15) S1024x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S1024x1024.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v26) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v25) S1024x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v27) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v28) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v24_0) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S4096x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v30) S4096x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v31) S4096x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v32) S4096x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v33) S4096x64.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v24_1) S4096x64.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v11) S384x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v13) S1x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v34) S4096x64.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S64x65536 : Shape := ⟨2, ![64, 65536]⟩
abbrev S1024x1024 : Shape := ⟨2, ![1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S_ : Shape := ⟨0, ![]⟩
abbrev S1024 : Shape := ⟨1, ![1024]⟩
abbrev S1024x1 : Shape := ⟨2, ![1024, 1]⟩
abbrev S64x1024x64 : Shape := ⟨3, ![64, 1024, 64]⟩
abbrev S64x1024x128 : Shape := ⟨3, ![64, 1024, 128]⟩
abbrev S1024x128x64 : Shape := ⟨3, ![1024, 128, 64]⟩
abbrev S1024x8192 : Shape := ⟨2, ![1024, 8192]⟩
abbrev S1x1024x8192 : Shape := ⟨3, ![1, 1024, 8192]⟩
abbrev S3x1024x8192 : Shape := ⟨3, ![3, 1024, 8192]⟩
abbrev S3x1024x128x64 : Shape := ⟨4, ![3, 1024, 128, 64]⟩
abbrev S64x1024x128x3 : Shape := ⟨4, ![64, 1024, 128, 3]⟩
abbrev S65536x384 : Shape := ⟨2, ![65536, 384]⟩
abbrev S65536x128 : Shape := ⟨2, ![65536, 128]⟩
abbrev S1x128 : Shape := ⟨2, ![1, 128]⟩
abbrev S64x131072 : Shape := ⟨2, ![64, 131072]⟩
abbrev S65536x64 : Shape := ⟨2, ![65536, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S64x65536, .f32⟩
  | .hbm, ⟨1, _⟩ => ⟨S64x65536, .f32⟩
  | .hbm, ⟨2, _⟩ => ⟨S1024x1024, .f32⟩
  | .hbm, ⟨3, _⟩ => ⟨S384x128, .f32⟩
  | .hbm, ⟨4, _⟩ => ⟨S128, .f32⟩
  | .hbm, ⟨5, _⟩ => ⟨S384x64, .f32⟩
  | .hbm, ⟨6, _⟩ => ⟨S64, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .i1⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S64x1024x64, .f32⟩
  | .hbm, ⟨33, _⟩ => ⟨S64x1024x64, .f32⟩
  | .hbm, ⟨34, _⟩ => ⟨S64x1024x128, .f32⟩
  | .hbm, ⟨35, _⟩ => ⟨S1024x128x64, .f32⟩
  | .hbm, ⟨36, _⟩ => ⟨S1024x8192, .f32⟩
  | .hbm, ⟨37, _⟩ => ⟨S1024x8192, .f32⟩
  | .hbm, ⟨38, _⟩ => ⟨S1024x8192, .f32⟩
  | .hbm, ⟨39, _⟩ => ⟨S_, .f32⟩
  | .hbm, ⟨40, _⟩ => ⟨S1024x8192, .f32⟩
  | .hbm, ⟨41, _⟩ => ⟨S1024x8192, .f32⟩
  | .hbm, ⟨42, _⟩ => ⟨S1024x8192, .f32⟩
  | .hbm, ⟨43, _⟩ => ⟨S1x1024x8192, .f32⟩
  | .hbm, ⟨44, _⟩ => ⟨S1x1024x8192, .f32⟩
  | .hbm, ⟨45, _⟩ => ⟨S1x1024x8192, .f32⟩
  | .hbm, ⟨46, _⟩ => ⟨S3x1024x8192, .f32⟩
  | .hbm, ⟨47, _⟩ => ⟨S3x1024x128x64, .f32⟩
  | .hbm, ⟨48, _⟩ => ⟨S64x1024x128x3, .f32⟩
  | .hbm, ⟨49, _⟩ => ⟨S65536x384, .f32⟩
  | .hbm, ⟨50, _⟩ => ⟨S65536x128, .f32⟩
  | .hbm, ⟨51, _⟩ => ⟨S1x128, .f32⟩
  | .hbm, ⟨52, _⟩ => ⟨S65536x128, .f32⟩
  | .hbm, ⟨53, _⟩ => ⟨S65536x128, .f32⟩
  | .hbm, ⟨54, _⟩ => ⟨S64x131072, .f32⟩
  | .hbm, ⟨55, _⟩ => ⟨S64x131072, .f32⟩
  | .hbm, ⟨56, _⟩ => ⟨S64x131072, .f32⟩
  | .hbm, ⟨57, _⟩ => ⟨S_, .f32⟩
  | .hbm, ⟨58, _⟩ => ⟨S64x131072, .f32⟩
  | .hbm, ⟨59, _⟩ => ⟨S64x131072, .f32⟩
  | .hbm, ⟨60, _⟩ => ⟨S_, .f32⟩
  | .hbm, ⟨61, _⟩ => ⟨S64x131072, .f32⟩
  | .hbm, ⟨62, _⟩ => ⟨S64x131072, .f32⟩
  | .hbm, ⟨63, _⟩ => ⟨S64x1024x128, .f32⟩
  | .hbm, ⟨64, _⟩ => ⟨S64x1024x64, .f32⟩
  | .hbm, ⟨65, _⟩ => ⟨S64x65536, .f32⟩
  | .hbm, ⟨66, _⟩ => ⟨S64x1024x64, .f32⟩
  | .hbm, ⟨67, _⟩ => ⟨S64x65536, .f32⟩
  | .hbm, ⟨68, _⟩ => ⟨S64x65536, .f32⟩
  | .hbm, ⟨69, _⟩ => ⟨S64x1024x64, .f32⟩
  | .hbm, ⟨70, _⟩ => ⟨S64x1024x64, .f32⟩
  | .hbm, ⟨71, _⟩ => ⟨S64x1024x128, .f32⟩
  | .hbm, ⟨72, _⟩ => ⟨S1024x128x64, .f32⟩
  | .hbm, ⟨73, _⟩ => ⟨S1024x8192, .f32⟩
  | .hbm, ⟨74, _⟩ => ⟨S1024x8192, .f32⟩
  | .hbm, ⟨75, _⟩ => ⟨S1024x8192, .f32⟩
  | .hbm, ⟨76, _⟩ => ⟨S_, .f32⟩
  | .hbm, ⟨77, _⟩ => ⟨S1024x8192, .f32⟩
  | .hbm, ⟨78, _⟩ => ⟨S1024x8192, .f32⟩
  | .hbm, ⟨79, _⟩ => ⟨S1024x8192, .f32⟩
  | .hbm, ⟨80, _⟩ => ⟨S1x1024x8192, .f32⟩
  | .hbm, ⟨81, _⟩ => ⟨S1x1024x8192, .f32⟩
  | .hbm, ⟨82, _⟩ => ⟨S1x1024x8192, .f32⟩
  | .hbm, ⟨83, _⟩ => ⟨S3x1024x8192, .f32⟩
  | .hbm, ⟨84, _⟩ => ⟨S3x1024x128x64, .f32⟩
  | .hbm, ⟨85, _⟩ => ⟨S64x1024x128x3, .f32⟩
  | .hbm, ⟨86, _⟩ => ⟨S65536x384, .f32⟩
  | .hbm, ⟨87, _⟩ => ⟨S65536x64, .f32⟩
  | .hbm, ⟨88, _⟩ => ⟨S1x64, .f32⟩
  | .hbm, ⟨89, _⟩ => ⟨S65536x64, .f32⟩
  | .hbm, ⟨90, _⟩ => ⟨S65536x64, .f32⟩
  | .hbm, ⟨91, _⟩ => ⟨S64x65536, .f32⟩
  | .hbm, ⟨92, _⟩ => ⟨S64x65536, .f32⟩
  | .hbm, ⟨93, _⟩ => ⟨S64x65536, .f32⟩
  | .hbm, ⟨94, _⟩ => ⟨S_, .f32⟩
  | .hbm, ⟨95, _⟩ => ⟨S64x65536, .f32⟩
  | .hbm, ⟨96, _⟩ => ⟨S64x65536, .f32⟩
  | .hbm, ⟨97, _⟩ => ⟨S64x65536, .f32⟩
  | .hbm, ⟨98, _⟩ => ⟨S64x65536, .f32⟩
  | _, _ => ⟨S64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v10 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_6 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  shapeCasts_S64x65536_S64x1024x64 : S64x65536.ShapeCasts S64x1024x64
  concatenates_S64x1024x64_S64x1024x64_S64x1024x128_d2 : Shape.Concatenates [S64x1024x64, S64x1024x64] S64x1024x128 2
  transposes_S64x1024x128_S1024x128x64_1_2_0 : S64x1024x128.Transposes [1, 2, 0] S1024x128x64
  shapeCasts_S1024x128x64_S1024x8192 : S1024x128x64.ShapeCasts S1024x8192
  bcast_S_S1024x8192 : S_.BroadcastsInDim S1024x8192 (![] : Fin 0 → Fin S1024x8192.rank)
  bcast_S1024x8192_S1x1024x8192_1_2 : S1024x8192.BroadcastsInDim S1x1024x8192 (![1, 2] : Fin 2 → Fin S1x1024x8192.rank)
  concatenates_S1x1024x8192_S1x1024x8192_S1x1024x8192_S3x1024x8192_d0 : Shape.Concatenates [S1x1024x8192, S1x1024x8192, S1x1024x8192] S3x1024x8192 0
  shapeCasts_S3x1024x8192_S3x1024x128x64 : S3x1024x8192.ShapeCasts S3x1024x128x64
  transposes_S3x1024x128x64_S64x1024x128x3_3_1_2_0 : S3x1024x128x64.Transposes [3, 1, 2, 0] S64x1024x128x3
  shapeCasts_S64x1024x128x3_S65536x384 : S64x1024x128x3.ShapeCasts S65536x384
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S64x131072 : S65536x128.ShapeCasts S64x131072
  bcast_S_S64x131072 : S_.BroadcastsInDim S64x131072 (![] : Fin 0 → Fin S64x131072.rank)
  shapeCasts_S64x131072_S64x1024x128 : S64x131072.ShapeCasts S64x1024x128
  slices_S64x1024x128_S64x1024x64_0_0_0 : S64x1024x128.Slices ![0, 0, 0] S64x1024x64
  shapeCasts_S64x1024x64_S64x65536 : S64x1024x64.ShapeCasts S64x65536
  slices_S64x1024x128_S64x1024x64_0_0_64 : S64x1024x128.Slices ![0, 0, 64] S64x1024x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S64x65536 : S65536x64.ShapeCasts S64x65536
  bcast_S_S64x65536 : S_.BroadcastsInDim S64x65536 (![] : Fin 0 → Fin S64x65536.rank)
  dot_S1024x1024_S1024x8192_S1024x8192_1_0_0_1_n_n_wf : DotDims.WF S1024x1024 S1024x8192 S1024x8192 [1] [0] [0] [1] [] []
  dot_S65536x384_S384x128_S65536x128_1_0_0_1_n_n_wf : DotDims.WF S65536x384 S384x128 S65536x128 [1] [0] [0] [1] [] []
  dot_S65536x384_S384x64_S65536x64_1_0_0_1_n_n_wf : DotDims.WF S65536x384 S384x64 S65536x64 [1] [0] [0] [1] [] []

variable [Facts₀]

def dot_S1024x1024_S1024x8192_S1024x8192_1_0_0_1_n_n : DotDims S1024x1024 S1024x8192 S1024x8192 where
  lhsContracting := [1]
  rhsContracting := [0]
  lhsNonContracting := [0]
  rhsNonContracting := [1]
  lhsBatch := []
  rhsBatch := []
  wf := dot_S1024x1024_S1024x8192_S1024x8192_1_0_0_1_n_n_wf
def dot_S65536x384_S384x128_S65536x128_1_0_0_1_n_n : DotDims S65536x384 S384x128 S65536x128 where
  lhsContracting := [1]
  rhsContracting := [0]
  lhsNonContracting := [0]
  rhsNonContracting := [1]
  lhsBatch := []
  rhsBatch := []
  wf := dot_S65536x384_S384x128_S65536x128_1_0_0_1_n_n_wf
def dot_S65536x384_S384x64_S65536x64_1_0_0_1_n_n : DotDims S65536x384 S384x64 S65536x64 where
  lhsContracting := [1]
  rhsContracting := [0]
  lhsNonContracting := [0]
  rhsNonContracting := [1]
  lhsBatch := []
  rhsBatch := []
  wf := dot_S65536x384_S384x64_S65536x64_1_0_0_1_n_n_wf

class Facts : Prop extends Facts₀ where

variable [Facts]
-- ==== Proof.RefRun.lean ====
import proofs.«118218_g51479478010102_cont_8to1_c_652_2_alg».proof.Proof.ReadP
import Idealize.ShloMosaic.Lib.StableHlo.Run

/-!
  The reference's run, stage by stage.  The contents after a list of operations are a fold of the operations' results over the
  launch contents.  The list is cut into stretches; for each stretch, from contents that hold the stage values of the buffers still
  to be read, the fold over the stretch holds the stage values of the buffers read after it.  Chained from the launch contents, the
  last stretch leaves the result at the last stage of the arguments' contents and every argument as it was.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The fold over a concatenation is the fold over the second list from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Operations 0 … 7 of @main. -/
def opsC_0 : List (HloOp τ sig (Elt F)) :=
  [ nullary main_v0 (iotaInDim S1024x1024 32 0),
    nullary main_v1 (iotaInDim S1024x1024 32 1),
    nullary main_c (constantI S_ 32 0#32),
    unary main_c main_v2 (broadcastInDim S1024x1024 ![] bcast_S_S1024x1024 : (⟨S_, .i32⟩ : BufTy).Contents (Elt F) → (⟨S1024x1024, .i32⟩ : BufTy).Contents (Elt F)),
    binary main_v0 main_v2 main_v3 (addi : (⟨S1024x1024, .i32⟩ : BufTy).Contents (Elt F) → (⟨S1024x1024, .i32⟩ : BufTy).Contents (Elt F) → (⟨S1024x1024, .i32⟩ : BufTy).Contents (Elt F)),
    binary main_v3 main_v1 main_v4 (cmpi .eq : (⟨S1024x1024, .i32⟩ : BufTy).Contents (Elt F) → (⟨S1024x1024, .i32⟩ : BufTy).Contents (Elt F) → (⟨S1024x1024, .i1⟩ : BufTy).Contents (Elt F)),
    unary main_v4 main_v5 (uitofp .f32 : (⟨S1024x1024, .i1⟩ : BufTy).Contents (Elt F) → (⟨S1024x1024, .f32⟩ : BufTy).Contents (Elt F)),
    binary main_arg2 main_v5 main_v6 (addf : (⟨S1024x1024, .f32⟩ : BufTy).Contents (Elt F) → (⟨S1024x1024, .f32⟩ : BufTy).Contents (Elt F) → (⟨S1024x1024, .f32⟩ : BufTy).Contents (Elt F)) ]

set_option maxHeartbeats 2000000 in
/-- From contents W holding the stage values of the buffers read from here on, the contents after operations 0 … 7
    hold the stage values of the buffers read after them. -/
theorem chunk_0 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    after (opsC_0 (F := F)) W (Proc.devRef .tc main_arg0) = x0
      ∧ after (opsC_0 (F := F)) W (Proc.devRef .tc main_arg1) = x1
      ∧ after (opsC_0 (F := F)) W (Proc.devRef .tc main_arg2) = x2
      ∧ after (opsC_0 (F := F)) W (Proc.devRef .tc main_arg3) = x3
      ∧ after (opsC_0 (F := F)) W (Proc.devRef .tc main_arg4) = x4
      ∧ after (opsC_0 (F := F)) W (Proc.devRef .tc main_arg5) = x5
      ∧ after (opsC_0 (F := F)) W (Proc.devRef .tc main_arg6) = x6
      ∧ after (opsC_0 (F := F)) W (Proc.devRef .tc main_v6) = val_main_v6 (F := F) x2 := by
  unfold opsC_0
  refine ⟨?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> (rw [h_main_arg2] <;> rfl)

/-- Operations 8 … 15 of @main. -/
def opsC_1 : List (HloOp τ sig (Elt F)) :=
  [ nullary main_cst (constant S_ .f32 0x00000000#32),
    binary main_v6 main_cst main_v7 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    nullary main_cst_0 (constant S_ .f32 0x3F800000#32),
    unary main_cst_0 main_v8 (broadcastInDim S1024 ![] bcast_S_S1024 : (⟨S_, .f32⟩ : BufTy).Contents (Elt F) → (⟨S1024, .f32⟩ : BufTy).Contents (Elt F)),
    binary main_v8 main_v7 main_v9 (Host.divf : (⟨S1024, .f32⟩ : BufTy).Contents (Elt F) → (⟨S1024, .f32⟩ : BufTy).Contents (Elt F) → (⟨S1024, .f32⟩ : BufTy).Contents (Elt F)),
    TRef.unary (TRef.of (T := ⟨S1024, .f32⟩) main_v9) (TRef.of (T := ⟨S1024, .f32⟩) main_call0_v0) Host.absf,
    TRef.nullary (TRef.of (T := ⟨S_, .f32⟩) main_call0_cst) (constant S_ .f32 0x7F800000#32),
    TRef.unary (TRef.of (T := ⟨S_, .f32⟩) main_call0_cst) (TRef.of (T := ⟨S1024, .f32⟩) main_call0_v1) (broadcastInDim S1024 ![] bcast_S_S1024) ]

set_option maxHeartbeats 2000000 in
/-- From contents W holding the stage values of the buffers read from here on, the contents after operations 8 … 15
    hold the stage values of the buffers read after them. -/
theorem chunk_1 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v6 : W (Proc.devRef .tc main_v6) = val_main_v6 (F := F) x2) :
    after (opsC_1 (F := F)) W (Proc.devRef .tc main_arg0) = x0
      ∧ after (opsC_1 (F := F)) W (Proc.devRef .tc main_arg1) = x1
      ∧ after (opsC_1 (F := F)) W (Proc.devRef .tc main_arg2) = x2
      ∧ after (opsC_1 (F := F)) W (Proc.devRef .tc main_arg3) = x3
      ∧ after (opsC_1 (F := F)) W (Proc.devRef .tc main_arg4) = x4
      ∧ after (opsC_1 (F := F)) W (Proc.devRef .tc main_arg5) = x5
      ∧ after (opsC_1 (F := F)) W (Proc.devRef .tc main_arg6) = x6
      ∧ after (opsC_1 (F := F)) W (Proc.devRef .tc main_v6) = val_main_v6 (F := F) x2
      ∧ after (opsC_1 (F := F)) W (Proc.devRef .tc main_v9) = val_main_v9 (F := F) x2
      ∧ after (opsC_1 (F := F)) W (Proc.devRef .tc main_call0_v0) = val_main_call0_v0 (F := F) x2
      ∧ after (opsC_1 (F := F)) W (Proc.devRef .tc main_call0_v1) = val_main_call0_v1 (F := F) := by
  unfold opsC_1
  refine ⟨?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v6
  · after_results <;> (rw [h_main_v6] <;> rfl)
  · after_results <;> (rw [h_main_v6] <;> rfl)
  · after_results <;> rfl

/-- Operations 16 … 24 of @main. -/
def opsC_2 : List (HloOp τ sig (Elt F)) :=
  [ TRef.binary (TRef.of (T := ⟨S1024, .f32⟩) main_call0_v0) (TRef.of (T := ⟨S1024, .f32⟩) main_call0_v1) (TRef.of (T := ⟨S1024, .i1⟩) main_v10) (cmpf .oeq),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S1024, .f32⟩) main_call1_v1) (broadcastInDim S1024 ![] bcast_S_S1024),
    TRef.ternary (TRef.of (T := ⟨S1024, .i1⟩) main_v10) (TRef.of (T := ⟨S1024, .f32⟩) main_call1_v1) (TRef.of (T := ⟨S1024, .f32⟩) main_v9) (TRef.of (T := ⟨S1024, .f32⟩) main_v11) select,
    unary main_v11 main_v12 (broadcastInDim S1024x1 ![0] bcast_S1024_S1024x1_0 : (⟨S1024, .f32⟩ : BufTy).Contents (Elt F) → (⟨S1024x1, .f32⟩ : BufTy).Contents (Elt F)),
    unary main_v12 main_v13 (broadcastInDim S1024x1024 ![0, 1] bcast_S1024x1_S1024x1024_0_1 : (⟨S1024x1, .f32⟩ : BufTy).Contents (Elt F) → (⟨S1024x1024, .f32⟩ : BufTy).Contents (Elt F)),
    binary main_v13 main_v6 main_v14 (mulf : (⟨S1024x1024, .f32⟩ : BufTy).Contents (Elt F) → (⟨S1024x1024, .f32⟩ : BufTy).Contents (Elt F) → (⟨S1024x1024, .f32⟩ : BufTy).Contents (Elt F)),
    unary main_v14 main_v15 ((transpose S1024x1024 [1, 0] · transposes_S1024x1024_S1024x1024_1_0) : (⟨S1024x1024, .f32⟩ : BufTy).Contents (Elt F) → (⟨S1024x1024, .f32⟩ : BufTy).Contents (Elt F)) ]

set_option maxHeartbeats 2000000 in
/-- From contents W holding the stage values of the buffers read from here on, the contents after operations 16 … 24
    hold the stage values of the buffers read after them. -/
theorem chunk_2 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v6 : W (Proc.devRef .tc main_v6) = val_main_v6 (F := F) x2)
    (h_main_v9 : W (Proc.devRef .tc main_v9) = val_main_v9 (F := F) x2)
    (h_main_call0_v0 : W (Proc.devRef .tc main_call0_v0) = val_main_call0_v0 (F := F) x2)
    (h_main_call0_v1 : W (Proc.devRef .tc main_call0_v1) = val_main_call0_v1 (F := F)) :
    after (opsC_2 (F := F)) W (Proc.devRef .tc main_arg0) = x0
      ∧ after (opsC_2 (F := F)) W (Proc.devRef .tc main_arg1) = x1
      ∧ after (opsC_2 (F := F)) W (Proc.devRef .tc main_arg2) = x2
      ∧ after (opsC_2 (F := F)) W (Proc.devRef .tc main_arg3) = x3
      ∧ after (opsC_2 (F := F)) W (Proc.devRef .tc main_arg4) = x4
      ∧ after (opsC_2 (F := F)) W (Proc.devRef .tc main_arg5) = x5
      ∧ after (opsC_2 (F := F)) W (Proc.devRef .tc main_arg6) = x6
      ∧ after (opsC_2 (F := F)) W (Proc.devRef .tc main_v15) = val_main_v15 (F := F) x2 := by
  unfold opsC_2
  refine ⟨?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> (rw [h_main_call0_v0, h_main_call0_v1, h_main_v9, h_main_v6] <;> rfl)

/-- Operations 25 … 32 of @main. -/
def opsC_3 : List (HloOp τ sig (Elt F)) :=
  [ reshape main_arg0 main_v16 rfl shapeCasts_S64x65536_S64x1024x64,
    reshape main_arg1 main_v17 rfl shapeCasts_S64x65536_S64x1024x64,
    binary main_v16 main_v17 main_v18 ((fun a b => concatenate S64x1024x128 2 [⟨S64x1024x64, a⟩, ⟨S64x1024x64, b⟩] concatenates_S64x1024x64_S64x1024x64_S64x1024x128_d2) : (⟨S64x1024x64, .f32⟩ : BufTy).Contents (Elt F) → (⟨S64x1024x64, .f32⟩ : BufTy).Contents (Elt F) → (⟨S64x1024x128, .f32⟩ : BufTy).Contents (Elt F)),
    unary main_v18 main_v19 ((transpose S1024x128x64 [1, 2, 0] · transposes_S64x1024x128_S1024x128x64_1_2_0) : (⟨S64x1024x128, .f32⟩ : BufTy).Contents (Elt F) → (⟨S1024x128x64, .f32⟩ : BufTy).Contents (Elt F)),
    reshape main_v19 main_v20 rfl shapeCasts_S1024x128x64_S1024x8192,
    binary main_v15 main_v20 main_v21 ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F)),
    binary main_v15 main_v21 main_v22 ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F)),
    nullary main_cst_2 (constant S_ .f32 0x40000000#32) ]

set_option maxHeartbeats 2000000 in
/-- From contents W holding the stage values of the buffers read from here on, the contents after operations 25 … 32
    hold the stage values of the buffers read after them. -/
theorem chunk_3 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2) :
    after (opsC_3 (F := F)) W (Proc.devRef .tc main_arg0) = x0
      ∧ after (opsC_3 (F := F)) W (Proc.devRef .tc main_arg1) = x1
      ∧ after (opsC_3 (F := F)) W (Proc.devRef .tc main_arg2) = x2
      ∧ after (opsC_3 (F := F)) W (Proc.devRef .tc main_arg3) = x3
      ∧ after (opsC_3 (F := F)) W (Proc.devRef .tc main_arg4) = x4
      ∧ after (opsC_3 (F := F)) W (Proc.devRef .tc main_arg5) = x5
      ∧ after (opsC_3 (F := F)) W (Proc.devRef .tc main_arg6) = x6
      ∧ after (opsC_3 (F := F)) W (Proc.devRef .tc main_v15) = val_main_v15 (F := F) x2
      ∧ after (opsC_3 (F := F)) W (Proc.devRef .tc main_v20) = val_main_v20 (F := F) x0 x1
      ∧ after (opsC_3 (F := F)) W (Proc.devRef .tc main_v21) = val_main_v21 (F := F) x0 x1 x2
      ∧ after (opsC_3 (F := F)) W (Proc.devRef .tc main_v22) = val_main_v22 (F := F) x0 x1 x2
      ∧ after (opsC_3 (F := F)) W (Proc.devRef .tc main_cst_2) = val_main_cst_2 (F := F) := by
  unfold opsC_3
  refine ⟨?_, ?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · after_results <;> (rw [h_main_arg0, h_main_arg1] <;> rfl)
  · after_results <;> (rw [h_main_v15, h_main_arg0, h_main_arg1] <;> rfl)
  · after_results <;> (rw [h_main_v15, h_main_arg0, h_main_arg1] <;> rfl)
  · after_results <;> rfl

/-- Operations 33 … 38 of @main. -/
def opsC_4 : List (HloOp τ sig (Elt F)) :=
  [ unary main_cst_2 main_v23 (broadcastInDim S1024x8192 ![] bcast_S_S1024x8192 : (⟨S_, .f32⟩ : BufTy).Contents (Elt F) → (⟨S1024x8192, .f32⟩ : BufTy).Contents (Elt F)),
    binary main_v23 main_v22 main_v24 (mulf : (⟨S1024x8192, .f32⟩ : BufTy).Contents (Elt F) → (⟨S1024x8192, .f32⟩ : BufTy).Contents (Elt F) → (⟨S1024x8192, .f32⟩ : BufTy).Contents (Elt F)),
    binary main_v24 main_v20 main_v25 (subf : (⟨S1024x8192, .f32⟩ : BufTy).Contents (Elt F) → (⟨S1024x8192, .f32⟩ : BufTy).Contents (Elt F) → (⟨S1024x8192, .f32⟩ : BufTy).Contents (Elt F)),
    unary main_v20 main_v26 (broadcastInDim S1x1024x8192 ![1, 2] bcast_S1024x8192_S1x1024x8192_1_2 : (⟨S1024x8192, .f32⟩ : BufTy).Contents (Elt F) → (⟨S1x1024x8192, .f32⟩ : BufTy).Contents (Elt F)),
    unary main_v21 main_v27 (broadcastInDim S1x1024x8192 ![1, 2] bcast_S1024x8192_S1x1024x8192_1_2 : (⟨S1024x8192, .f32⟩ : BufTy).Contents (Elt F) → (⟨S1x1024x8192, .f32⟩ : BufTy).Contents (Elt F)),
    unary main_v25 main_v28 (broadcastInDim S1x1024x8192 ![1, 2] bcast_S1024x8192_S1x1024x8192_1_2 : (⟨S1024x8192, .f32⟩ : BufTy).Contents (Elt F) → (⟨S1x1024x8192, .f32⟩ : BufTy).Contents (Elt F)) ]

set_option maxHeartbeats 2000000 in
/-- From contents W holding the stage values of the buffers read from here on, the contents after operations 33 … 38
    hold the stage values of the buffers read after them. -/
theorem chunk_4 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v20 : W (Proc.devRef .tc main_v20) = val_main_v20 (F := F) x0 x1)
    (h_main_v21 : W (Proc.devRef .tc main_v21) = val_main_v21 (F := F) x0 x1 x2)
    (h_main_v22 : W (Proc.devRef .tc main_v22) = val_main_v22 (F := F) x0 x1 x2)
    (h_main_cst_2 : W (Proc.devRef .tc main_cst_2) = val_main_cst_2 (F := F)) :
    after (opsC_4 (F := F)) W (Proc.devRef .tc main_arg0) = x0
      ∧ after (opsC_4 (F := F)) W (Proc.devRef .tc main_arg1) = x1
      ∧ after (opsC_4 (F := F)) W (Proc.devRef .tc main_arg2) = x2
      ∧ after (opsC_4 (F := F)) W (Proc.devRef .tc main_arg3) = x3
      ∧ after (opsC_4 (F := F)) W (Proc.devRef .tc main_arg4) = x4
      ∧ after (opsC_4 (F := F)) W (Proc.devRef .tc main_arg5) = x5
      ∧ after (opsC_4 (F := F)) W (Proc.devRef .tc main_arg6) = x6
      ∧ after (opsC_4 (F := F)) W (Proc.devRef .tc main_v15) = val_main_v15 (F := F) x2
      ∧ after (opsC_4 (F := F)) W (Proc.devRef .tc main_v26) = val_main_v26 (F := F) x0 x1
      ∧ after (opsC_4 (F := F)) W (Proc.devRef .tc main_v27) = val_main_v27 (F := F) x0 x1 x2
      ∧ after (opsC_4 (F := F)) W (Proc.devRef .tc main_v28) = val_main_v28 (F := F) x0 x1 x2 := by
  unfold opsC_4
  refine ⟨?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · after_results <;> (rw [h_main_v20] <;> rfl)
  · after_results <;> (rw [h_main_v21] <;> rfl)
  · after_results <;> (rw [h_main_cst_2, h_main_v22, h_main_v20] <;> rfl)

/-- Operations 39 … 39 of @main. -/
def opsC_5 : List (HloOp τ sig (Elt F)) :=
  [ nary ![main_v26, main_v27, main_v28] main_v29 (fun u => concatenate S3x1024x8192 0 [⟨S1x1024x8192, u 0⟩, ⟨S1x1024x8192, u 1⟩, ⟨S1x1024x8192, u 2⟩] concatenates_S1x1024x8192_S1x1024x8192_S1x1024x8192_S3x1024x8192_d0) ]

set_option maxHeartbeats 2000000 in
/-- From contents W holding the stage values of the buffers read from here on, the contents after operations 39 … 39
    hold the stage values of the buffers read after them. -/
theorem chunk_5 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v26 : W (Proc.devRef .tc main_v26) = val_main_v26 (F := F) x0 x1)
    (h_main_v27 : W (Proc.devRef .tc main_v27) = val_main_v27 (F := F) x0 x1 x2)
    (h_main_v28 : W (Proc.devRef .tc main_v28) = val_main_v28 (F := F) x0 x1 x2) :
    after (opsC_5 (F := F)) W (Proc.devRef .tc main_arg0) = x0
      ∧ after (opsC_5 (F := F)) W (Proc.devRef .tc main_arg1) = x1
      ∧ after (opsC_5 (F := F)) W (Proc.devRef .tc main_arg2) = x2
      ∧ after (opsC_5 (F := F)) W (Proc.devRef .tc main_arg3) = x3
      ∧ after (opsC_5 (F := F)) W (Proc.devRef .tc main_arg4) = x4
      ∧ after (opsC_5 (F := F)) W (Proc.devRef .tc main_arg5) = x5
      ∧ after (opsC_5 (F := F)) W (Proc.devRef .tc main_arg6) = x6
      ∧ after (opsC_5 (F := F)) W (Proc.devRef .tc main_v15) = val_main_v15 (F := F) x2
      ∧ after (opsC_5 (F := F)) W (Proc.devRef .tc main_v29) = val_main_v29 (F := F) x0 x1 x2 := by
  unfold opsC_5
  refine ⟨?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · simp only [after_cons, after_nil]
    rw [nary_result]
    show concatenate S3x1024x8192 0 [⟨S1x1024x8192, W (Proc.devRef .tc main_v26)⟩, ⟨S1x1024x8192, W (Proc.devRef .tc main_v27)⟩, ⟨S1x1024x8192, W (Proc.devRef .tc main_v28)⟩] concatenates_S1x1024x8192_S1x1024x8192_S1x1024x8192_S3x1024x8192_d0 = _
    rw [h_main_v26, h_main_v27, h_main_v28]
    rfl

/-- Operations 40 … 47 of @main. -/
def opsC_6 : List (HloOp τ sig (Elt F)) :=
  [ reshape main_v29 main_v30 rfl shapeCasts_S3x1024x8192_S3x1024x128x64,
    unary main_v30 main_v31 ((transpose S64x1024x128x3 [3, 1, 2, 0] · transposes_S3x1024x128x64_S64x1024x128x3_3_1_2_0) : (⟨S3x1024x128x64, .f32⟩ : BufTy).Contents (Elt F) → (⟨S64x1024x128x3, .f32⟩ : BufTy).Contents (Elt F)),
    reshape main_v31 main_v32 rfl shapeCasts_S64x1024x128x3_S65536x384,
    binary main_v32 main_arg3 main_v33 ((fun l r => Host.dotGeneral dot_S65536x384_S384x128_S65536x128_1_0_0_1_n_n none l r) : (⟨S65536x384, .f32⟩ : BufTy).Contents (Elt F) → (⟨S384x128, .f32⟩ : BufTy).Contents (Elt F) → (⟨S65536x128, .f32⟩ : BufTy).Contents (Elt F)),
    unary main_arg4 main_v34 (broadcastInDim S1x128 ![1] bcast_S128_S1x128_1 : (⟨S128, .f32⟩ : BufTy).Contents (Elt F) → (⟨S1x128, .f32⟩ : BufTy).Contents (Elt F)),
    unary main_v34 main_v35 (broadcastInDim S65536x128 ![0, 1] bcast_S1x128_S65536x128_0_1 : (⟨S1x128, .f32⟩ : BufTy).Contents (Elt F) → (⟨S65536x128, .f32⟩ : BufTy).Contents (Elt F)),
    binary main_v33 main_v35 main_v36 (addf : (⟨S65536x128, .f32⟩ : BufTy).Contents (Elt F) → (⟨S65536x128, .f32⟩ : BufTy).Contents (Elt F) → (⟨S65536x128, .f32⟩ : BufTy).Contents (Elt F)),
    reshape main_v36 main_v37 rfl shapeCasts_S65536x128_S64x131072 ]

set_option maxHeartbeats 2000000 in
/-- From contents W holding the stage values of the buffers read from here on, the contents after operations 40 … 47
    hold the stage values of the buffers read after them. -/
theorem chunk_6 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v29 : W (Proc.devRef .tc main_v29) = val_main_v29 (F := F) x0 x1 x2) :
    after (opsC_6 (F := F)) W (Proc.devRef .tc main_arg0) = x0
      ∧ after (opsC_6 (F := F)) W (Proc.devRef .tc main_arg1) = x1
      ∧ after (opsC_6 (F := F)) W (Proc.devRef .tc main_arg2) = x2
      ∧ after (opsC_6 (F := F)) W (Proc.devRef .tc main_arg3) = x3
      ∧ after (opsC_6 (F := F)) W (Proc.devRef .tc main_arg4) = x4
      ∧ after (opsC_6 (F := F)) W (Proc.devRef .tc main_arg5) = x5
      ∧ after (opsC_6 (F := F)) W (Proc.devRef .tc main_arg6) = x6
      ∧ after (opsC_6 (F := F)) W (Proc.devRef .tc main_v15) = val_main_v15 (F := F) x2
      ∧ after (opsC_6 (F := F)) W (Proc.devRef .tc main_v37) = val_main_v37 (F := F) x0 x1 x2 x3 x4 := by
  unfold opsC_6
  refine ⟨?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · after_results <;> (rw [h_main_v29, h_main_arg3, h_main_arg4] <;> rfl)

/-- Operations 48 … 55 of @main. -/
def opsC_7 : List (HloOp τ sig (Elt F)) :=
  [ unary main_v37 main_v38 (Host.negf : (⟨S64x131072, .f32⟩ : BufTy).Contents (Elt F) → (⟨S64x131072, .f32⟩ : BufTy).Contents (Elt F)),
    unary main_v38 main_v39 (Host.exp : (⟨S64x131072, .f32⟩ : BufTy).Contents (Elt F) → (⟨S64x131072, .f32⟩ : BufTy).Contents (Elt F)),
    nullary main_cst_3 (constant S_ .f32 0x3F800000#32),
    unary main_cst_3 main_v40 (broadcastInDim S64x131072 ![] bcast_S_S64x131072 : (⟨S_, .f32⟩ : BufTy).Contents (Elt F) → (⟨S64x131072, .f32⟩ : BufTy).Contents (Elt F)),
    binary main_v40 main_v39 main_v41 (addf : (⟨S64x131072, .f32⟩ : BufTy).Contents (Elt F) → (⟨S64x131072, .f32⟩ : BufTy).Contents (Elt F) → (⟨S64x131072, .f32⟩ : BufTy).Contents (Elt F)),
    nullary main_cst_4 (constant S_ .f32 0x3F800000#32),
    unary main_cst_4 main_v42 (broadcastInDim S64x131072 ![] bcast_S_S64x131072 : (⟨S_, .f32⟩ : BufTy).Contents (Elt F) → (⟨S64x131072, .f32⟩ : BufTy).Contents (Elt F)),
    binary main_v42 main_v41 main_v43 (Host.divf : (⟨S64x131072, .f32⟩ : BufTy).Contents (Elt F) → (⟨S64x131072, .f32⟩ : BufTy).Contents (Elt F) → (⟨S64x131072, .f32⟩ : BufTy).Contents (Elt F)) ]

set_option maxHeartbeats 2000000 in
/-- From contents W holding the stage values of the buffers read from here on, the contents after operations 48 … 55
    hold the stage values of the buffers read after them. -/
theorem chunk_7 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v37 : W (Proc.devRef .tc main_v37) = val_main_v37 (F := F) x0 x1 x2 x3 x4) :
    after (opsC_7 (F := F)) W (Proc.devRef .tc main_arg0) = x0
      ∧ after (opsC_7 (F := F)) W (Proc.devRef .tc main_arg1) = x1
      ∧ after (opsC_7 (F := F)) W (Proc.devRef .tc main_arg2) = x2
      ∧ after (opsC_7 (F := F)) W (Proc.devRef .tc main_arg3) = x3
      ∧ after (opsC_7 (F := F)) W (Proc.devRef .tc main_arg4) = x4
      ∧ after (opsC_7 (F := F)) W (Proc.devRef .tc main_arg5) = x5
      ∧ after (opsC_7 (F := F)) W (Proc.devRef .tc main_arg6) = x6
      ∧ after (opsC_7 (F := F)) W (Proc.devRef .tc main_v15) = val_main_v15 (F := F) x2
      ∧ after (opsC_7 (F := F)) W (Proc.devRef .tc main_v43) = val_main_v43 (F := F) x0 x1 x2 x3 x4 := by
  unfold opsC_7
  refine ⟨?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · after_results <;> (rw [h_main_v37] <;> rfl)

/-- Operations 56 … 63 of @main. -/
def opsC_8 : List (HloOp τ sig (Elt F)) :=
  [ reshape main_v43 main_v44 rfl shapeCasts_S64x131072_S64x1024x128,
    unary main_v44 main_v45 ((extractStridedSlice S64x1024x64 ![0, 0, 0] · slices_S64x1024x128_S64x1024x64_0_0_0) : (⟨S64x1024x128, .f32⟩ : BufTy).Contents (Elt F) → (⟨S64x1024x64, .f32⟩ : BufTy).Contents (Elt F)),
    reshape main_v45 main_v46 rfl shapeCasts_S64x1024x64_S64x65536,
    unary main_v44 main_v47 ((extractStridedSlice S64x1024x64 ![0, 0, 64] · slices_S64x1024x128_S64x1024x64_0_0_64) : (⟨S64x1024x128, .f32⟩ : BufTy).Contents (Elt F) → (⟨S64x1024x64, .f32⟩ : BufTy).Contents (Elt F)),
    reshape main_v47 main_v48 rfl shapeCasts_S64x1024x64_S64x65536,
    binary main_v46 main_arg1 main_v49 (mulf : (⟨S64x65536, .f32⟩ : BufTy).Contents (Elt F) → (⟨S64x65536, .f32⟩ : BufTy).Contents (Elt F) → (⟨S64x65536, .f32⟩ : BufTy).Contents (Elt F)),
    reshape main_arg0 main_v50 rfl shapeCasts_S64x65536_S64x1024x64,
    reshape main_v49 main_v51 rfl shapeCasts_S64x65536_S64x1024x64 ]

set_option maxHeartbeats 2000000 in
/-- From contents W holding the stage values of the buffers read from here on, the contents after operations 56 … 63
    hold the stage values of the buffers read after them. -/
theorem chunk_8 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v43 : W (Proc.devRef .tc main_v43) = val_main_v43 (F := F) x0 x1 x2 x3 x4) :
    after (opsC_8 (F := F)) W (Proc.devRef .tc main_arg0) = x0
      ∧ after (opsC_8 (F := F)) W (Proc.devRef .tc main_arg1) = x1
      ∧ after (opsC_8 (F := F)) W (Proc.devRef .tc main_arg2) = x2
      ∧ after (opsC_8 (F := F)) W (Proc.devRef .tc main_arg3) = x3
      ∧ after (opsC_8 (F := F)) W (Proc.devRef .tc main_arg4) = x4
      ∧ after (opsC_8 (F := F)) W (Proc.devRef .tc main_arg5) = x5
      ∧ after (opsC_8 (F := F)) W (Proc.devRef .tc main_arg6) = x6
      ∧ after (opsC_8 (F := F)) W (Proc.devRef .tc main_v15) = val_main_v15 (F := F) x2
      ∧ after (opsC_8 (F := F)) W (Proc.devRef .tc main_v48) = val_main_v48 (F := F) x0 x1 x2 x3 x4
      ∧ after (opsC_8 (F := F)) W (Proc.devRef .tc main_v50) = val_main_v50 (F := F) x0
      ∧ after (opsC_8 (F := F)) W (Proc.devRef .tc main_v51) = val_main_v51 (F := F) x0 x1 x2 x3 x4 := by
  unfold opsC_8
  refine ⟨?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v15
  · after_results <;> (rw [h_main_v43] <;> rfl)
  · after_results <;> (rw [h_main_arg0] <;> rfl)
  · after_results <;> (rw [h_main_v43, h_main_arg1] <;> rfl)

/-- Operations 64 … 71 of @main. -/
def opsC_9 : List (HloOp τ sig (Elt F)) :=
  [ binary main_v50 main_v51 main_v52 ((fun a b => concatenate S64x1024x128 2 [⟨S64x1024x64, a⟩, ⟨S64x1024x64, b⟩] concatenates_S64x1024x64_S64x1024x64_S64x1024x128_d2) : (⟨S64x1024x64, .f32⟩ : BufTy).Contents (Elt F) → (⟨S64x1024x64, .f32⟩ : BufTy).Contents (Elt F) → (⟨S64x1024x128, .f32⟩ : BufTy).Contents (Elt F)),
    unary main_v52 main_v53 ((transpose S1024x128x64 [1, 2, 0] · transposes_S64x1024x128_S1024x128x64_1_2_0) : (⟨S64x1024x128, .f32⟩ : BufTy).Contents (Elt F) → (⟨S1024x128x64, .f32⟩ : BufTy).Contents (Elt F)),
    reshape main_v53 main_v54 rfl shapeCasts_S1024x128x64_S1024x8192,
    binary main_v15 main_v54 main_v55 ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F)),
    binary main_v15 main_v55 main_v56 ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F)),
    nullary main_cst_5 (constant S_ .f32 0x40000000#32),
    unary main_cst_5 main_v57 (broadcastInDim S1024x8192 ![] bcast_S_S1024x8192 : (⟨S_, .f32⟩ : BufTy).Contents (Elt F) → (⟨S1024x8192, .f32⟩ : BufTy).Contents (Elt F)),
    binary main_v57 main_v56 main_v58 (mulf : (⟨S1024x8192, .f32⟩ : BufTy).Contents (Elt F) → (⟨S1024x8192, .f32⟩ : BufTy).Contents (Elt F) → (⟨S1024x8192, .f32⟩ : BufTy).Contents (Elt F)) ]

set_option maxHeartbeats 2000000 in
/-- From contents W holding the stage values of the buffers read from here on, the contents after operations 64 … 71
    hold the stage values of the buffers read after them. -/
theorem chunk_9 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v15 : W (Proc.devRef .tc main_v15) = val_main_v15 (F := F) x2)
    (h_main_v48 : W (Proc.devRef .tc main_v48) = val_main_v48 (F := F) x0 x1 x2 x3 x4)
    (h_main_v50 : W (Proc.devRef .tc main_v50) = val_main_v50 (F := F) x0)
    (h_main_v51 : W (Proc.devRef .tc main_v51) = val_main_v51 (F := F) x0 x1 x2 x3 x4) :
    after (opsC_9 (F := F)) W (Proc.devRef .tc main_arg0) = x0
      ∧ after (opsC_9 (F := F)) W (Proc.devRef .tc main_arg1) = x1
      ∧ after (opsC_9 (F := F)) W (Proc.devRef .tc main_arg2) = x2
      ∧ after (opsC_9 (F := F)) W (Proc.devRef .tc main_arg3) = x3
      ∧ after (opsC_9 (F := F)) W (Proc.devRef .tc main_arg4) = x4
      ∧ after (opsC_9 (F := F)) W (Proc.devRef .tc main_arg5) = x5
      ∧ after (opsC_9 (F := F)) W (Proc.devRef .tc main_arg6) = x6
      ∧ after (opsC_9 (F := F)) W (Proc.devRef .tc main_v48) = val_main_v48 (F := F) x0 x1 x2 x3 x4
      ∧ after (opsC_9 (F := F)) W (Proc.devRef .tc main_v54) = val_main_v54 (F := F) x0 x1 x2 x3 x4
      ∧ after (opsC_9 (F := F)) W (Proc.devRef .tc main_v55) = val_main_v55 (F := F) x0 x1 x2 x3 x4
      ∧ after (opsC_9 (F := F)) W (Proc.devRef .tc main_v58) = val_main_v58 (F := F) x0 x1 x2 x3 x4 := by
  unfold opsC_9
  refine ⟨?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v48
  · after_results <;> (rw [h_main_v50, h_main_v51] <;> rfl)
  · after_results <;> (rw [h_main_v15, h_main_v50, h_main_v51] <;> rfl)
  · after_results <;> (rw [h_main_v15, h_main_v50, h_main_v51] <;> rfl)

/-- Operations 72 … 75 of @main. -/
def opsC_10 : List (HloOp τ sig (Elt F)) :=
  [ binary main_v58 main_v54 main_v59 (subf : (⟨S1024x8192, .f32⟩ : BufTy).Contents (Elt F) → (⟨S1024x8192, .f32⟩ : BufTy).Contents (Elt F) → (⟨S1024x8192, .f32⟩ : BufTy).Contents (Elt F)),
    unary main_v54 main_v60 (broadcastInDim S1x1024x8192 ![1, 2] bcast_S1024x8192_S1x1024x8192_1_2 : (⟨S1024x8192, .f32⟩ : BufTy).Contents (Elt F) → (⟨S1x1024x8192, .f32⟩ : BufTy).Contents (Elt F)),
    unary main_v55 main_v61 (broadcastInDim S1x1024x8192 ![1, 2] bcast_S1024x8192_S1x1024x8192_1_2 : (⟨S1024x8192, .f32⟩ : BufTy).Contents (Elt F) → (⟨S1x1024x8192, .f32⟩ : BufTy).Contents (Elt F)),
    unary main_v59 main_v62 (broadcastInDim S1x1024x8192 ![1, 2] bcast_S1024x8192_S1x1024x8192_1_2 : (⟨S1024x8192, .f32⟩ : BufTy).Contents (Elt F) → (⟨S1x1024x8192, .f32⟩ : BufTy).Contents (Elt F)) ]

set_option maxHeartbeats 2000000 in
/-- From contents W holding the stage values of the buffers read from here on, the contents after operations 72 … 75
    hold the stage values of the buffers read after them. -/
theorem chunk_10 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v48 : W (Proc.devRef .tc main_v48) = val_main_v48 (F := F) x0 x1 x2 x3 x4)
    (h_main_v54 : W (Proc.devRef .tc main_v54) = val_main_v54 (F := F) x0 x1 x2 x3 x4)
    (h_main_v55 : W (Proc.devRef .tc main_v55) = val_main_v55 (F := F) x0 x1 x2 x3 x4)
    (h_main_v58 : W (Proc.devRef .tc main_v58) = val_main_v58 (F := F) x0 x1 x2 x3 x4) :
    after (opsC_10 (F := F)) W (Proc.devRef .tc main_arg0) = x0
      ∧ after (opsC_10 (F := F)) W (Proc.devRef .tc main_arg1) = x1
      ∧ after (opsC_10 (F := F)) W (Proc.devRef .tc main_arg2) = x2
      ∧ after (opsC_10 (F := F)) W (Proc.devRef .tc main_arg3) = x3
      ∧ after (opsC_10 (F := F)) W (Proc.devRef .tc main_arg4) = x4
      ∧ after (opsC_10 (F := F)) W (Proc.devRef .tc main_arg5) = x5
      ∧ after (opsC_10 (F := F)) W (Proc.devRef .tc main_arg6) = x6
      ∧ after (opsC_10 (F := F)) W (Proc.devRef .tc main_v48) = val_main_v48 (F := F) x0 x1 x2 x3 x4
      ∧ after (opsC_10 (F := F)) W (Proc.devRef .tc main_v60) = val_main_v60 (F := F) x0 x1 x2 x3 x4
      ∧ after (opsC_10 (F := F)) W (Proc.devRef .tc main_v61) = val_main_v61 (F := F) x0 x1 x2 x3 x4
      ∧ after (opsC_10 (F := F)) W (Proc.devRef .tc main_v62) = val_main_v62 (F := F) x0 x1 x2 x3 x4 := by
  unfold opsC_10
  refine ⟨?_, ?_, ?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v48
  · after_results <;> (rw [h_main_v54] <;> rfl)
  · after_results <;> (rw [h_main_v55] <;> rfl)
  · after_results <;> (rw [h_main_v58, h_main_v54] <;> rfl)

/-- Operations 76 … 76 of @main. -/
def opsC_11 : List (HloOp τ sig (Elt F)) :=
  [ nary ![main_v60, main_v61, main_v62] main_v63 (fun u => concatenate S3x1024x8192 0 [⟨S1x1024x8192, u 0⟩, ⟨S1x1024x8192, u 1⟩, ⟨S1x1024x8192, u 2⟩] concatenates_S1x1024x8192_S1x1024x8192_S1x1024x8192_S3x1024x8192_d0) ]

set_option maxHeartbeats 2000000 in
/-- From contents W holding the stage values of the buffers read from here on, the contents after operations 76 … 76
    hold the stage values of the buffers read after them. -/
theorem chunk_11 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v48 : W (Proc.devRef .tc main_v48) = val_main_v48 (F := F) x0 x1 x2 x3 x4)
    (h_main_v60 : W (Proc.devRef .tc main_v60) = val_main_v60 (F := F) x0 x1 x2 x3 x4)
    (h_main_v61 : W (Proc.devRef .tc main_v61) = val_main_v61 (F := F) x0 x1 x2 x3 x4)
    (h_main_v62 : W (Proc.devRef .tc main_v62) = val_main_v62 (F := F) x0 x1 x2 x3 x4) :
    after (opsC_11 (F := F)) W (Proc.devRef .tc main_arg0) = x0
      ∧ after (opsC_11 (F := F)) W (Proc.devRef .tc main_arg1) = x1
      ∧ after (opsC_11 (F := F)) W (Proc.devRef .tc main_arg2) = x2
      ∧ after (opsC_11 (F := F)) W (Proc.devRef .tc main_arg3) = x3
      ∧ after (opsC_11 (F := F)) W (Proc.devRef .tc main_arg4) = x4
      ∧ after (opsC_11 (F := F)) W (Proc.devRef .tc main_arg5) = x5
      ∧ after (opsC_11 (F := F)) W (Proc.devRef .tc main_arg6) = x6
      ∧ after (opsC_11 (F := F)) W (Proc.devRef .tc main_v48) = val_main_v48 (F := F) x0 x1 x2 x3 x4
      ∧ after (opsC_11 (F := F)) W (Proc.devRef .tc main_v63) = val_main_v63 (F := F) x0 x1 x2 x3 x4 := by
  unfold opsC_11
  refine ⟨?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v48
  · simp only [after_cons, after_nil]
    rw [nary_result]
    show concatenate S3x1024x8192 0 [⟨S1x1024x8192, W (Proc.devRef .tc main_v60)⟩, ⟨S1x1024x8192, W (Proc.devRef .tc main_v61)⟩, ⟨S1x1024x8192, W (Proc.devRef .tc main_v62)⟩] concatenates_S1x1024x8192_S1x1024x8192_S1x1024x8192_S3x1024x8192_d0 = _
    rw [h_main_v60, h_main_v61, h_main_v62]
    rfl

/-- Operations 77 … 84 of @main. -/
def opsC_12 : List (HloOp τ sig (Elt F)) :=
  [ reshape main_v63 main_v64 rfl shapeCasts_S3x1024x8192_S3x1024x128x64,
    unary main_v64 main_v65 ((transpose S64x1024x128x3 [3, 1, 2, 0] · transposes_S3x1024x128x64_S64x1024x128x3_3_1_2_0) : (⟨S3x1024x128x64, .f32⟩ : BufTy).Contents (Elt F) → (⟨S64x1024x128x3, .f32⟩ : BufTy).Contents (Elt F)),
    reshape main_v65 main_v66 rfl shapeCasts_S64x1024x128x3_S65536x384,
    binary main_v66 main_arg5 main_v67 ((fun l r => Host.dotGeneral dot_S65536x384_S384x64_S65536x64_1_0_0_1_n_n none l r) : (⟨S65536x384, .f32⟩ : BufTy).Contents (Elt F) → (⟨S384x64, .f32⟩ : BufTy).Contents (Elt F) → (⟨S65536x64, .f32⟩ : BufTy).Contents (Elt F)),
    unary main_arg6 main_v68 (broadcastInDim S1x64 ![1] bcast_S64_S1x64_1 : (⟨S64, .f32⟩ : BufTy).Contents (Elt F) → (⟨S1x64, .f32⟩ : BufTy).Contents (Elt F)),
    unary main_v68 main_v69 (broadcastInDim S65536x64 ![0, 1] bcast_S1x64_S65536x64_0_1 : (⟨S1x64, .f32⟩ : BufTy).Contents (Elt F) → (⟨S65536x64, .f32⟩ : BufTy).Contents (Elt F)),
    binary main_v67 main_v69 main_v70 (addf : (⟨S65536x64, .f32⟩ : BufTy).Contents (Elt F) → (⟨S65536x64, .f32⟩ : BufTy).Contents (Elt F) → (⟨S65536x64, .f32⟩ : BufTy).Contents (Elt F)),
    reshape main_v70 main_v71 rfl shapeCasts_S65536x64_S64x65536 ]

set_option maxHeartbeats 2000000 in
/-- From contents W holding the stage values of the buffers read from here on, the contents after operations 77 … 84
    hold the stage values of the buffers read after them. -/
theorem chunk_12 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v48 : W (Proc.devRef .tc main_v48) = val_main_v48 (F := F) x0 x1 x2 x3 x4)
    (h_main_v63 : W (Proc.devRef .tc main_v63) = val_main_v63 (F := F) x0 x1 x2 x3 x4) :
    after (opsC_12 (F := F)) W (Proc.devRef .tc main_arg0) = x0
      ∧ after (opsC_12 (F := F)) W (Proc.devRef .tc main_arg1) = x1
      ∧ after (opsC_12 (F := F)) W (Proc.devRef .tc main_arg2) = x2
      ∧ after (opsC_12 (F := F)) W (Proc.devRef .tc main_arg3) = x3
      ∧ after (opsC_12 (F := F)) W (Proc.devRef .tc main_arg4) = x4
      ∧ after (opsC_12 (F := F)) W (Proc.devRef .tc main_arg5) = x5
      ∧ after (opsC_12 (F := F)) W (Proc.devRef .tc main_arg6) = x6
      ∧ after (opsC_12 (F := F)) W (Proc.devRef .tc main_v48) = val_main_v48 (F := F) x0 x1 x2 x3 x4
      ∧ after (opsC_12 (F := F)) W (Proc.devRef .tc main_v71) = val_main_v71 (F := F) x0 x1 x2 x3 x4 x5 x6 := by
  unfold opsC_12
  refine ⟨?_, ?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> exact h_main_v48
  · after_results <;> (rw [h_main_v63, h_main_arg5, h_main_arg6] <;> rfl)

/-- Operations 85 … 91 of @main. -/
def opsC_13 : List (HloOp τ sig (Elt F)) :=
  [ unary main_v71 main_v72 (Host.tanh : (⟨S64x65536, .f32⟩ : BufTy).Contents (Elt F) → (⟨S64x65536, .f32⟩ : BufTy).Contents (Elt F)),
    binary main_v48 main_arg1 main_v73 (mulf : (⟨S64x65536, .f32⟩ : BufTy).Contents (Elt F) → (⟨S64x65536, .f32⟩ : BufTy).Contents (Elt F) → (⟨S64x65536, .f32⟩ : BufTy).Contents (Elt F)),
    nullary main_cst_6 (constant S_ .f32 0x3F800000#32),
    unary main_cst_6 main_v74 (broadcastInDim S64x65536 ![] bcast_S_S64x65536 : (⟨S_, .f32⟩ : BufTy).Contents (Elt F) → (⟨S64x65536, .f32⟩ : BufTy).Contents (Elt F)),
    binary main_v74 main_v48 main_v75 (subf : (⟨S64x65536, .f32⟩ : BufTy).Contents (Elt F) → (⟨S64x65536, .f32⟩ : BufTy).Contents (Elt F) → (⟨S64x65536, .f32⟩ : BufTy).Contents (Elt F)),
    binary main_v75 main_v72 main_v76 (mulf : (⟨S64x65536, .f32⟩ : BufTy).Contents (Elt F) → (⟨S64x65536, .f32⟩ : BufTy).Contents (Elt F) → (⟨S64x65536, .f32⟩ : BufTy).Contents (Elt F)),
    binary main_v73 main_v76 main_v77 (addf : (⟨S64x65536, .f32⟩ : BufTy).Contents (Elt F) → (⟨S64x65536, .f32⟩ : BufTy).Contents (Elt F) → (⟨S64x65536, .f32⟩ : BufTy).Contents (Elt F)) ]

set_option maxHeartbeats 2000000 in
/-- From contents W holding the stage values of the buffers read from here on, the contents after operations 85 … 91
    hold the stage values of the buffers read after them. -/
theorem chunk_13 (x0 : (⟨S64x65536, .f32⟩ : BufTy).Contents (Elt F)) (x1 : (⟨S64x65536, .f32⟩ : BufTy).Contents (Elt F)) (x2 : (⟨S1024x1024, .f32⟩ : BufTy).Contents (Elt F)) (x3 : (⟨S384x128, .f32⟩ : BufTy).Contents (Elt F)) (x4 : (⟨S128, .f32⟩ : BufTy).Contents (Elt F)) (x5 : (⟨S384x64, .f32⟩ : BufTy).Contents (Elt F)) (x6 : (⟨S64, .f32⟩ : BufTy).Contents (Elt F)) (W : Valuation τ sig (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v48 : W (Proc.devRef .tc main_v48) = val_main_v48 (F := F) x0 x1 x2 x3 x4)
    (h_main_v71 : W (Proc.devRef .tc main_v71) = val_main_v71 (F := F) x0 x1 x2 x3 x4 x5 x6) :
    after (opsC_13 (F := F)) W (Proc.devRef .tc main_arg0) = x0
      ∧ after (opsC_13 (F := F)) W (Proc.devRef .tc main_arg1) = x1
      ∧ after (opsC_13 (F := F)) W (Proc.devRef .tc main_arg2) = x2
      ∧ after (opsC_13 (F := F)) W (Proc.devRef .tc main_arg3) = x3
      ∧ after (opsC_13 (F := F)) W (Proc.devRef .tc main_arg4) = x4
      ∧ after (opsC_13 (F := F)) W (Proc.devRef .tc main_arg5) = x5
      ∧ after (opsC_13 (F := F)) W (Proc.devRef .tc main_arg6) = x6
      ∧ after (opsC_13 (F := F)) W (Proc.devRef .tc main_v77) = val_main_v77 (F := F) x0 x1 x2 x3 x4 x5 x6 := by
  unfold opsC_13
  refine ⟨?_, ?_, ?_, ?_, ?_, ?_, ?_, ?_⟩
  · after_results <;> exact h_main_arg0
  · after_results <;> exact h_main_arg1
  · after_results <;> exact h_main_arg2
  · after_results <;> exact h_main_arg3
  · after_results <;> exact h_main_arg4
  · after_results <;> exact h_main_arg5
  · after_results <;> exact h_main_arg6
  · after_results <;> (rw [h_main_v48, h_main_arg1, h_main_v71] <;> rfl)

set_option maxRecDepth 8192 in
set_option maxHeartbeats 8000000 in
/-- @main's operations are the stretches one after the other. -/
theorem ops_split : (ops : List (HloOp τ sig (Elt F))) = opsC_0 (F := F) ++ (opsC_1 (F := F) ++ (opsC_2 (F := F) ++ (opsC_3 (F := F) ++ (opsC_4 (F := F) ++ (opsC_5 (F := F) ++ (opsC_6 (F := F) ++ (opsC_7 (F := F) ++ (opsC_8 (F := F) ++ (opsC_9 (F := F) ++ (opsC_10 (F := F) ++ (opsC_11 (F := F) ++ (opsC_12 (F := F) ++ (opsC_13 (F := F)))))))))))))) := rfl

set_option maxHeartbeats 8000000 in
/-- The contents after @main's operations: the result at the last stage of the arguments' contents, the arguments unchanged. -/
theorem stages (V : Valuation τ sig (Elt F)) :
    after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2)
      ∧ after (ops (F := F)) V (Proc.devRef .tc main_arg3) = V (Proc.devRef .tc main_arg3)
      ∧ after (ops (F := F)) V (Proc.devRef .tc main_arg4) = V (Proc.devRef .tc main_arg4)
      ∧ after (ops (F := F)) V (Proc.devRef .tc main_arg5) = V (Proc.devRef .tc main_arg5)
      ∧ after (ops (F := F)) V (Proc.devRef .tc main_arg6) = V (Proc.devRef .tc main_arg6)
      ∧ after (ops (F := F)) V (Proc.devRef .tc main_v77) = val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split]
  simp only [after_append']
  obtain ⟨a0_main_arg0, a0_main_arg1, a0_main_arg2, a0_main_arg3, a0_main_arg4, a0_main_arg5, a0_main_arg6, a0_main_v6⟩ := chunk_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V) rfl rfl rfl rfl rfl rfl rfl
  obtain ⟨a1_main_arg0, a1_main_arg1, a1_main_arg2, a1_main_arg3, a1_main_arg4, a1_main_arg5, a1_main_arg6, a1_main_v6, a1_main_v9, a1_main_call0_v0, a1_main_call0_v1⟩ := chunk_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_0 (F := F)) (V)) a0_main_arg0 a0_main_arg1 a0_main_arg2 a0_main_arg3 a0_main_arg4 a0_main_arg5 a0_main_arg6 a0_main_v6
  obtain ⟨a2_main_arg0, a2_main_arg1, a2_main_arg2, a2_main_arg3, a2_main_arg4, a2_main_arg5, a2_main_arg6, a2_main_v15⟩ := chunk_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_1 (F := F)) (after (opsC_0 (F := F)) (V))) a1_main_arg0 a1_main_arg1 a1_main_arg2 a1_main_arg3 a1_main_arg4 a1_main_arg5 a1_main_arg6 a1_main_v6 a1_main_v9 a1_main_call0_v0 a1_main_call0_v1
  obtain ⟨a3_main_arg0, a3_main_arg1, a3_main_arg2, a3_main_arg3, a3_main_arg4, a3_main_arg5, a3_main_arg6, a3_main_v15, a3_main_v20, a3_main_v21, a3_main_v22, a3_main_cst_2⟩ := chunk_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_2 (F := F)) (after (opsC_1 (F := F)) (after (opsC_0 (F := F)) (V)))) a2_main_arg0 a2_main_arg1 a2_main_arg2 a2_main_arg3 a2_main_arg4 a2_main_arg5 a2_main_arg6 a2_main_v15
  obtain ⟨a4_main_arg0, a4_main_arg1, a4_main_arg2, a4_main_arg3, a4_main_arg4, a4_main_arg5, a4_main_arg6, a4_main_v15, a4_main_v26, a4_main_v27, a4_main_v28⟩ := chunk_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_3 (F := F)) (after (opsC_2 (F := F)) (after (opsC_1 (F := F)) (after (opsC_0 (F := F)) (V))))) a3_main_arg0 a3_main_arg1 a3_main_arg2 a3_main_arg3 a3_main_arg4 a3_main_arg5 a3_main_arg6 a3_main_v15 a3_main_v20 a3_main_v21 a3_main_v22 a3_main_cst_2
  obtain ⟨a5_main_arg0, a5_main_arg1, a5_main_arg2, a5_main_arg3, a5_main_arg4, a5_main_arg5, a5_main_arg6, a5_main_v15, a5_main_v29⟩ := chunk_5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_4 (F := F)) (after (opsC_3 (F := F)) (after (opsC_2 (F := F)) (after (opsC_1 (F := F)) (after (opsC_0 (F := F)) (V)))))) a4_main_arg0 a4_main_arg1 a4_main_arg2 a4_main_arg3 a4_main_arg4 a4_main_arg5 a4_main_arg6 a4_main_v15 a4_main_v26 a4_main_v27 a4_main_v28
  obtain ⟨a6_main_arg0, a6_main_arg1, a6_main_arg2, a6_main_arg3, a6_main_arg4, a6_main_arg5, a6_main_arg6, a6_main_v15, a6_main_v37⟩ := chunk_6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_5 (F := F)) (after (opsC_4 (F := F)) (after (opsC_3 (F := F)) (after (opsC_2 (F := F)) (after (opsC_1 (F := F)) (after (opsC_0 (F := F)) (V))))))) a5_main_arg0 a5_main_arg1 a5_main_arg2 a5_main_arg3 a5_main_arg4 a5_main_arg5 a5_main_arg6 a5_main_v15 a5_main_v29
  obtain ⟨a7_main_arg0, a7_main_arg1, a7_main_arg2, a7_main_arg3, a7_main_arg4, a7_main_arg5, a7_main_arg6, a7_main_v15, a7_main_v43⟩ := chunk_7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_6 (F := F)) (after (opsC_5 (F := F)) (after (opsC_4 (F := F)) (after (opsC_3 (F := F)) (after (opsC_2 (F := F)) (after (opsC_1 (F := F)) (after (opsC_0 (F := F)) (V)))))))) a6_main_arg0 a6_main_arg1 a6_main_arg2 a6_main_arg3 a6_main_arg4 a6_main_arg5 a6_main_arg6 a6_main_v15 a6_main_v37
  obtain ⟨a8_main_arg0, a8_main_arg1, a8_main_arg2, a8_main_arg3, a8_main_arg4, a8_main_arg5, a8_main_arg6, a8_main_v15, a8_main_v48, a8_main_v50, a8_main_v51⟩ := chunk_8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_7 (F := F)) (after (opsC_6 (F := F)) (after (opsC_5 (F := F)) (after (opsC_4 (F := F)) (after (opsC_3 (F := F)) (after (opsC_2 (F := F)) (after (opsC_1 (F := F)) (after (opsC_0 (F := F)) (V))))))))) a7_main_arg0 a7_main_arg1 a7_main_arg2 a7_main_arg3 a7_main_arg4 a7_main_arg5 a7_main_arg6 a7_main_v15 a7_main_v43
  obtain ⟨a9_main_arg0, a9_main_arg1, a9_main_arg2, a9_main_arg3, a9_main_arg4, a9_main_arg5, a9_main_arg6, a9_main_v48, a9_main_v54, a9_main_v55, a9_main_v58⟩ := chunk_9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_8 (F := F)) (after (opsC_7 (F := F)) (after (opsC_6 (F := F)) (after (opsC_5 (F := F)) (after (opsC_4 (F := F)) (after (opsC_3 (F := F)) (after (opsC_2 (F := F)) (after (opsC_1 (F := F)) (after (opsC_0 (F := F)) (V)))))))))) a8_main_arg0 a8_main_arg1 a8_main_arg2 a8_main_arg3 a8_main_arg4 a8_main_arg5 a8_main_arg6 a8_main_v15 a8_main_v48 a8_main_v50 a8_main_v51
  obtain ⟨a10_main_arg0, a10_main_arg1, a10_main_arg2, a10_main_arg3, a10_main_arg4, a10_main_arg5, a10_main_arg6, a10_main_v48, a10_main_v60, a10_main_v61, a10_main_v62⟩ := chunk_10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_9 (F := F)) (after (opsC_8 (F := F)) (after (opsC_7 (F := F)) (after (opsC_6 (F := F)) (after (opsC_5 (F := F)) (after (opsC_4 (F := F)) (after (opsC_3 (F := F)) (after (opsC_2 (F := F)) (after (opsC_1 (F := F)) (after (opsC_0 (F := F)) (V))))))))))) a9_main_arg0 a9_main_arg1 a9_main_arg2 a9_main_arg3 a9_main_arg4 a9_main_arg5 a9_main_arg6 a9_main_v48 a9_main_v54 a9_main_v55 a9_main_v58
  obtain ⟨a11_main_arg0, a11_main_arg1, a11_main_arg2, a11_main_arg3, a11_main_arg4, a11_main_arg5, a11_main_arg6, a11_main_v48, a11_main_v63⟩ := chunk_11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_10 (F := F)) (after (opsC_9 (F := F)) (after (opsC_8 (F := F)) (after (opsC_7 (F := F)) (after (opsC_6 (F := F)) (after (opsC_5 (F := F)) (after (opsC_4 (F := F)) (after (opsC_3 (F := F)) (after (opsC_2 (F := F)) (after (opsC_1 (F := F)) (after (opsC_0 (F := F)) (V)))))))))))) a10_main_arg0 a10_main_arg1 a10_main_arg2 a10_main_arg3 a10_main_arg4 a10_main_arg5 a10_main_arg6 a10_main_v48 a10_main_v60 a10_main_v61 a10_main_v62
  obtain ⟨a12_main_arg0, a12_main_arg1, a12_main_arg2, a12_main_arg3, a12_main_arg4, a12_main_arg5, a12_main_arg6, a12_main_v48, a12_main_v71⟩ := chunk_12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_11 (F := F)) (after (opsC_10 (F := F)) (after (opsC_9 (F := F)) (after (opsC_8 (F := F)) (after (opsC_7 (F := F)) (after (opsC_6 (F := F)) (after (opsC_5 (F := F)) (after (opsC_4 (F := F)) (after (opsC_3 (F := F)) (after (opsC_2 (F := F)) (after (opsC_1 (F := F)) (after (opsC_0 (F := F)) (V))))))))))))) a11_main_arg0 a11_main_arg1 a11_main_arg2 a11_main_arg3 a11_main_arg4 a11_main_arg5 a11_main_arg6 a11_main_v48 a11_main_v63
  obtain ⟨a13_main_arg0, a13_main_arg1, a13_main_arg2, a13_main_arg3, a13_main_arg4, a13_main_arg5, a13_main_arg6, a13_main_v77⟩ := chunk_13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after (opsC_12 (F := F)) (after (opsC_11 (F := F)) (after (opsC_10 (F := F)) (after (opsC_9 (F := F)) (after (opsC_8 (F := F)) (after (opsC_7 (F := F)) (after (opsC_6 (F := F)) (after (opsC_5 (F := F)) (after (opsC_4 (F := F)) (after (opsC_3 (F := F)) (after (opsC_2 (F := F)) (after (opsC_1 (F := F)) (after (opsC_0 (F := F)) (V)))))))))))))) a12_main_arg0 a12_main_arg1 a12_main_arg2 a12_main_arg3 a12_main_arg4 a12_main_arg5 a12_main_arg6 a12_main_v48 a12_main_v71
  exact ⟨a13_main_arg0, a13_main_arg1, a13_main_arg2, a13_main_arg3, a13_main_arg4, a13_main_arg5, a13_main_arg6, a13_main_v77⟩

set_option maxRecDepth 8192 in
set_option maxHeartbeats 8000000 in
/-- On every device, for any float values, from any memory with zero counters: every weakly fair execution of
    @main terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = Cert.ReferenceIdeal.ReadP.val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨s_main_arg0, s_main_arg1, s_main_arg2, s_main_arg3, s_main_arg4, s_main_arg5, s_main_arg6, s_main_v77⟩ := stages (F := F) (launchContents m c)
      exact ⟨(h c main_v77).trans s_main_v77, (h c main_arg0).trans s_main_arg0, (h c main_arg1).trans s_main_arg1, (h c main_arg2).trans s_main_arg2, (h c main_arg3).trans s_main_arg3, (h c main_arg4).trans s_main_arg4, (h c main_arg5).trans s_main_arg5, (h c main_arg6).trans s_main_arg6⟩)
    (run_seq scopedRefs_eq scopedSems_eq defs main (fun _ => ops) main_eq (fun _ => ops_sub) m ρ)

end Cert.ReferenceIdeal.RefRun

end
-- ==== Proof.KSpec.lean ====
/-
  The kernel's seven launches as whole-array functions over the extended reals, in the kernel's own
  layout, and their composition through the reshapes and transposes between them.

  Activations live as [1024, 64·64] node-major matrices (row = node, column = batch·64 + feature); the
  same words read as [1024·64, 64] (row = node·64 + batch) feed the two gate launches.  A launch over
  column blocks computes a plain matrix product with the transition matrix; a gate launch contracts the
  six 64-wide pieces laid side by side (384 columns) with the re-ordered weight rows.
-/
import proofs.«118218_g51479478010102_cont_8to1_c_652_2_alg».proof.KernelIdeal
import proofs.«118218_g51479478010102_cont_8to1_c_652_2_alg».proof.Proof.Gen.KernelIdeal.Skeleton
import Idealize.ShloMosaic.Lib.ValueIdx

noncomputable section

open scoped BigOperators

namespace Cert.KernelIdeal.KSpec

open Idealize.ShloMosaic Idealize.ShloMosaic.ValueIdx Cert.KernelIdeal Cert.KernelIdeal.Facts₀ Cert.KernelIdeal.Facts

/-- An f32 array at the ideal instance. -/
abbrev A2 (S : Shape) : Type := Vec Ideal S .f32

/-- The literal 2.0 as its word. -/
def two : EReal := Ideal.ofBits .f32 0x40000000#32

/-! ## The launches -/

/-- Launch 0: the normalisation, the body's own term of the whole transposed adjacency. -/
def Gnorm (AT : A2 S1024x1024) : A2 S1024x1024 := Cert.KernelIdeal.Gen.k0_pay1 (F := Ideal) AT

/-- Launches 1 and 4: the product A · X, entry by entry. -/
def Gmm (A : A2 S1024x1024) (X : A2 S1024x4096) : A2 S1024x4096 :=
  fun i => ∑ k : Fin 1024, A (ix2 (⟨(i 0).val, idx2_lt0 i⟩ : Fin 1024) k) * X (ix2 k (⟨(i 1).val, idx2_lt1 i⟩ : Fin 4096))

/-- Launches 2 and 5: 2 · (A · X1) − X0, entry by entry. -/
def Gcheb (A : A2 S1024x1024) (X1 X0 : A2 S1024x4096) : A2 S1024x4096 :=
  fun i => two * (∑ k : Fin 1024, A (ix2 (⟨(i 0).val, idx2_lt0 i⟩ : Fin 1024) k) * X1 (ix2 k (⟨(i 1).val, idx2_lt1 i⟩ : Fin 4096))) - X0 i

/-- Six 64-wide pieces side by side: column j of row r is piece j / 64 at column j % 64. -/
def cat6 (a : Fin 6 → A2 S65536x64) (r : Fin 65536) (j : Fin 384) : EReal :=
  a ⟨j.val / 64, by have := j.isLt; omega⟩ (ix2 r (⟨j.val % 64, Nat.mod_lt _ (by decide)⟩ : Fin 64))

/-- The gate launch's pre-activation: row r of the six pieces against column o of the weights, plus the bias. -/
def Gpre128 (a : Fin 6 → A2 S65536x64) (W : A2 S384x128) (bias : A2 S1x128) (r : Fin 65536) (o : Fin 128) : EReal :=
  (∑ j : Fin 384, cat6 a r j * W (ix2 j o)) + bias (ix2 (0 : Fin 1) o)

/-- The final launch's pre-activation. -/
def Gpre64 (a : Fin 6 → A2 S65536x64) (W : A2 S384x64) (bias : A2 S1x64) (r : Fin 65536) (o : Fin 64) : EReal :=
  (∑ j : Fin 384, cat6 a r j * W (ix2 j o)) + bias (ix2 (0 : Fin 1) o)

/-- Launch 3, first output: logistic of the first 64 gate columns, times the state. -/
def GS0 (x h p1 h1 p2 h2 : A2 S65536x64) (W : A2 S384x128) (bias : A2 S1x128) : A2 S65536x64 :=
  fun i => Ideal.logistic (Gpre128 ![x, h, p1, h1, p2, h2] W bias ⟨(i 0).val, idx2_lt0 i⟩
      ⟨(i 1).val, by have := idx2_lt1 i; omega⟩) * h i

/-- Launch 3, second output: logistic of the last 64 gate columns. -/
def GU (x h p1 h1 p2 h2 : A2 S65536x64) (W : A2 S384x128) (bias : A2 S1x128) : A2 S65536x64 :=
  fun i => Ideal.logistic (Gpre128 ![x, h, p1, h1, p2, h2] W bias ⟨(i 0).val, idx2_lt0 i⟩
      ⟨64 + (i 1).val, by have := idx2_lt1 i; omega⟩)

/-- Launch 6: u·h + (1 − u)·tanh(pre-activation). -/
def Gfin (x s0 p1 s1 p2 s2 h u : A2 S65536x64) (W : A2 S384x64) (bias : A2 S1x64) : A2 S65536x64 :=
  fun i => u i * h i + (1 - u i) * Ideal.tanh (Gpre64 ![x, s0, p1, s1, p2, s2] W bias ⟨(i 0).val, idx2_lt0 i⟩
      ⟨(i 1).val, idx2_lt1 i⟩)

/-! ## The host operations between the launches -/

/-- [64, 1024·64] to node-major [1024, 64·64]. -/
def hX (a : A2 S64x65536) : A2 S1024x4096 :=
  shapeCast S1024x4096 (transpose S1024x64x64 [1, 0, 2] (shapeCast S64x1024x64 a shapeCasts_S64x65536_S64x1024x64)
    transposes_S64x1024x64_S1024x64x64_1_0_2) shapeCasts_S1024x64x64_S1024x4096
/-- Weight rows from feature-major to order-major (128 outputs). -/
def hW128 (w : A2 S384x128) : A2 S384x128 :=
  shapeCast S384x128 (transpose S3x128x128 [1, 0, 2] (shapeCast S128x3x128 w shapeCasts_S384x128_S128x3x128)
    transposes_S128x3x128_S3x128x128_1_0_2) shapeCasts_S3x128x128_S384x128
/-- Weight rows from feature-major to order-major (64 outputs). -/
def hW64 (w : A2 S384x64) : A2 S384x64 :=
  shapeCast S384x64 (transpose S3x128x64 [1, 0, 2] (shapeCast S128x3x64 w shapeCasts_S384x64_S128x3x64)
    transposes_S128x3x64_S3x128x64_1_0_2) shapeCasts_S3x128x64_S384x64
/-- A bias as one row. -/
def hB128 (b : A2 S128) : A2 S1x128 := shapeCast S1x128 b shapeCasts_S128_S1x128
/-- A bias as one row. -/
def hB64 (b : A2 S64) : A2 S1x64 := shapeCast S1x64 b shapeCasts_S64_S1x64
/-- The adjacency transposed. -/
def hT (a : A2 S1024x1024) : A2 S1024x1024 := transpose S1024x1024 [1, 0] a transposes_S1024x1024_S1024x1024_1_0
/-- Node-major [1024, 4096] read as [65536, 64]. -/
def rs (a : A2 S1024x4096) : A2 S65536x64 := shapeCast S65536x64 a shapeCasts_S1024x4096_S65536x64
/-- [65536, 64] read as node-major [1024, 4096]. -/
def rsInv (a : A2 S65536x64) : A2 S1024x4096 := shapeCast S1024x4096 a shapeCasts_S65536x64_S1024x4096
/-- [65536, 64] back to [64, 1024·64]. -/
def hOut (a : A2 S65536x64) : A2 S64x65536 :=
  shapeCast S64x65536 (transpose S64x1024x64 [1, 0, 2] (shapeCast S1024x64x64 a shapeCasts_S65536x64_S1024x64x64)
    transposes_S1024x64x64_S64x1024x64_1_0_2) shapeCasts_S64x1024x64_S64x65536

/-! ## The composition -/

section
variable (inp hx : A2 S64x65536) (adj : A2 S1024x1024) (wfn : A2 S384x128) (bfn : A2 S128) (wg : A2 S384x64) (bg : A2 S64)

def kA : A2 S1024x1024 := Gnorm (hT adj)
def kP1 : A2 S1024x4096 := Gmm (kA adj) (hX inp)
def kH1 : A2 S1024x4096 := Gmm (kA adj) (hX hx)
def kP2 : A2 S1024x4096 := Gcheb (kA adj) (kP1 inp adj) (hX inp)
def kH2 : A2 S1024x4096 := Gcheb (kA adj) (kH1 hx adj) (hX hx)
def kS0 : A2 S65536x64 :=
  GS0 (rs (hX inp)) (rs (hX hx)) (rs (kP1 inp adj)) (rs (kH1 hx adj)) (rs (kP2 inp adj)) (rs (kH2 hx adj)) (hW128 wfn) (hB128 bfn)
def kU : A2 S65536x64 :=
  GU (rs (hX inp)) (rs (hX hx)) (rs (kP1 inp adj)) (rs (kH1 hx adj)) (rs (kP2 inp adj)) (rs (kH2 hx adj)) (hW128 wfn) (hB128 bfn)
def kS1 : A2 S1024x4096 := Gmm (kA adj) (rsInv (kS0 inp hx adj wfn bfn))
def kS2 : A2 S1024x4096 := Gcheb (kA adj) (kS1 inp hx adj wfn bfn) (rsInv (kS0 inp hx adj wfn bfn))
def kNew : A2 S65536x64 :=
  Gfin (rs (hX inp)) (kS0 inp hx adj wfn bfn) (rs (kP1 inp adj)) (rs (kS1 inp hx adj wfn bfn)) (rs (kP2 inp adj))
    (rs (kS2 inp hx adj wfn bfn)) (rs (hX hx)) (kU inp hx adj wfn bfn) (hW64 wg) (hB64 bg)
/-- What the kernel's program returns. -/
def kRes : A2 S64x65536 := hOut (kNew inp hx adj wfn bfn wg bg)

end

end Cert.KernelIdeal.KSpec

end
-- ==== Proof.KReg0.lean ====
import proofs.«118218_g51479478010102_cont_8to1_c_652_2_alg».proof.Proof.Gen.KernelIdeal.Frame
import proofs.«118218_g51479478010102_cont_8to1_c_652_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The store's origin is the zero offset. -/
private theorem origin_zero : (![0, 0] : Fin 2 → Nat) = fun _ => 0 := funext fun a => by fin_cases a <;> rfl

/-- Both windows sit at block (0, 0) at every point of the one-point grid. -/
private theorem block_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole array: an index inside the block is the same index of the array. -/
private theorem emb_in (t : Fin cfg0.N) (j : S1024x1024.Idx) : ((cfg0.win 0).blk t).view.emb j = j := by
  obtain ⟨e0, e1, e2, e3⟩ := block_index t
  funext a; apply Fin.ext
  match a with
  | ⟨0, _⟩ => show win0_0.index t (0 : Fin 2) * 1024 + 1 * (j 0).val = (j 0).val; omega
  | ⟨1, _⟩ => show win0_0.index t (1 : Fin 2) * 1024 + 1 * (j 1).val = (j 1).val; omega

/-- The output window's block is the whole array as well. -/
private theorem emb_out (t : Fin cfg0.N) (j : S1024x1024.Idx) : ((cfg0.win 1).blk t).view.emb j = j := by
  obtain ⟨e0, e1, e2, e3⟩ := block_index t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The input block at the one point is the whole transposed adjacency. -/
private theorem block_in (c : Dev nD) (t : Fin cfg0.N) :
    (iblk0 V c 0 t : S1024x1024.Idx → Elt Ideal .f32) = V c main_v14 := by
  funext j
  show V c main_v14 (((cfg0.win 0).blk t).view.emb j) = V c main_v14 j
  exact congrArg _ (emb_in t j)

/-- What the one point writes back is the whole normalised array, read through the (whole) block. -/
private theorem written_back (c : Dev nD) (t : Fin cfg0.N) :
    (dat0 V c).flushed 1 t = ((cfg0.win 1).blk t).view.read (Elt Ideal) (KSpec.Gnorm (V c main_v14)) := by
  show (cfg0.win 1).cut (grid0.coords t) ((dat0 V c).after 1 t) = _
  rw [after0_1]
  unfold out0_1
  rw [View.canon_unit_zero origin_zero]
  simp only [View.ld_unit_zero (S := S1024x1024) origin_zero]
  rw [block_in V c t]
  funext j
  show Gen.k0_pay1 (V c main_v14) j = KSpec.Gnorm (V c main_v14) (((cfg0.win 1).blk t).view.emb j)
  rw [emb_out t j]
  rfl

/-- An index of the array is in the point's block iff each coordinate is in the block's range on its axis. -/
private theorem mem_block (t : Fin cfg0.N) (i : S1024x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v15).slice (win0_1.rect t)).set ↔ _
  rw [View.set_slice_whole, Rect.mem_set_unit]
  exact Iff.rfl

/-- The one block is everything. -/
private theorem covered (i : S1024x1024.Idx) :
    ∃ t : Fin cfg0.N, (cfg0.win 1).flush t = true ∧ i ∈ ((cfg0.win 1).blk t).view.set := by
  refine ⟨t0_0, flush0_1 t0_0, ?_⟩
  rw [mem_block]
  obtain ⟨e0, e1, e2, e3⟩ := block_index t0_0
  have hi0 : (i 0).val < 1024 := (i 0).isLt
  have hi1 : (i 1).val < 1024 := (i 1).isLt
  intro a
  match a with
  | ⟨0, _⟩ => show win0_1.index t0_0 (0 : Fin 2) * 1024 ≤ (i 0).val ∧ (i 0).val < win0_1.index t0_0 (0 : Fin 2) * 1024 + 1024; omega
  | ⟨1, _⟩ => show win0_1.index t0_0 (1 : Fin 2) * 1024 ≤ (i 1).val ∧ (i 1).val < win0_1.index t0_0 (1 : Fin 2) * 1024 + 1024; omega

theorem final0 (c : Dev nD) : (dat0 (F := Ideal) V c).arrAt 1 cfg0.N = KSpec.Gnorm (V c main_v14) :=
  (dat0 V c).arrAt_eq_of_cover 1 (KSpec.Gnorm (V c main_v14)) (fun t _ => written_back V c t) covered

end Cert.KernelIdeal.KReg0

end
-- ==== Proof.KMat512.lean ====
import proofs.«118218_g51479478010102_cont_8to1_c_652_2_alg».proof.Proof.Gen.KernelIdeal.Skeleton
import Idealize.ShloMosaic.Lib.ValueIdx
import Idealize.ShloMosaic.PureOps.Ideal.Laws

noncomputable section

open scoped BigOperators

namespace Cert.KernelIdeal.KMat512

open Idealize.ShloMosaic Idealize.ShloMosaic.ValueIdx Cert.KernelIdeal Cert.KernelIdeal.Facts₀ Cert.KernelIdeal.Facts

/-- The dimension numbers of the one product the four launches compute: a [1024, 1024] matrix against a
    [1024, 512] column block, contracting the matrix's columns with the block's rows. -/
abbrev dd : DotDims S1024x1024 S1024x512 S1024x512 := dot_S1024x1024_S1024x512_S1024x512_1_0_0_1_n_n

theorem lhs_0 (i : S1024x512.Idx) (q : dd.contr.Idx) : (dd.lhsIdx i q 0).val = (i 0).val := by
  unfold DotDims.lhsIdx
  rw [dif_neg (show ¬(0 : Fin S1024x1024.rank) ∈ dd.lhsBatch by decide), dif_pos (show (0 : Fin S1024x1024.rank) ∈ dd.lhsNonContracting by decide)]
  rfl
theorem lhs_1 (i : S1024x512.Idx) (q : dd.contr.Idx) : (dd.lhsIdx i q 1).val = (q ⟨0, by decide⟩).val :=
  dd.lhsIdx_val_of_single rfl i q
theorem rhs_0 (i : S1024x512.Idx) (q : dd.contr.Idx) : (dd.rhsIdx i q 0).val = (q ⟨0, by decide⟩).val :=
  dd.rhsIdx_val_of_single rfl i q
theorem rhs_1 (i : S1024x512.Idx) (q : dd.contr.Idx) : (dd.rhsIdx i q 1).val = (i 1).val := by
  unfold DotDims.rhsIdx
  rw [dif_neg (show ¬(1 : Fin S1024x512.rank) ∈ dd.rhsBatch by decide), dif_pos (show (1 : Fin S1024x512.rank) ∈ dd.rhsNonContracting by decide)]
  rfl

/-- The product into the zero accumulator, entry (p, q): row p of the matrix against column q of the block. -/
theorem matmul_ix2 (a : Vec Ideal S1024x1024 .f32) (x : Vec Ideal S1024x512 .f32) (p : Fin 1024) (q : Fin 512) :
    matmul (F := Ideal) (φ₁ := .f32) (φ₂ := .f32) dd none a x (constant S1024x512 .f32 0x00000000#32) (ix2 p q) = ∑ k : Fin 1024, a (ix2 p k) * x (ix2 k q) := by
  refine (Ideal.matmul_constant_zero_apply dd none a x (ix2 p q)).trans ?_
  rw [← Equiv.sum_comp (contrEquiv1 dd 1024 rfl rfl).symm]
  refine Finset.sum_congr rfl fun k _ => ?_
  have hk := contrEquiv1_symm_val dd 1024 rfl rfl k
  have el : dd.lhsIdx (ix2 p q) ((contrEquiv1 dd 1024 rfl rfl).symm k) = ix2 p k := funext fun a => Fin.ext (by
    match a with
    | ⟨0, _⟩ => exact lhs_0 _ _
    | ⟨1, _⟩ => exact (lhs_1 _ _).trans hk)
  have er : dd.rhsIdx (ix2 p q) ((contrEquiv1 dd 1024 rfl rfl).symm k) = ix2 k q := funext fun a => Fin.ext (by
    match a with
    | ⟨0, _⟩ => exact (rhs_0 _ _).trans hk
    | ⟨1, _⟩ => exact rhs_1 _ _)
  rw [el, er]

end Cert.KernelIdeal.KMat512

end
-- ==== Proof.KReg1.lean ====
import proofs.«118218_g51479478010102_cont_8to1_c_652_2_alg».proof.Proof.Gen.KernelIdeal.Frame
import proofs.«118218_g51479478010102_cont_8to1_c_652_2_alg».proof.Proof.KSpec
import proofs.«118218_g51479478010102_cont_8to1_c_652_2_alg».proof.Proof.KMat512
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The body's loads and stores are at offset zero of their staging buffers. -/
private theorem hz : (![0, 0] : Fin 2 → Nat) = fun _ => 0 := funext fun a => by fin_cases a <;> rfl

/-- The payload, entry (p, q): row p of the matrix against column q of the block. -/
private theorem pay2_ix2 (x0 : Vec Ideal S1024x1024 .f32) (x1 : Vec Ideal S1024x512 .f32) (p : Fin 1024) (q : Fin 512) :
    k1_pay2 (F := Ideal) x0 x1 (ix2 p q) = ∑ k : Fin 1024, x0 (ix2 p k) * x1 (ix2 k q) := by
  unfold k1_pay2 k1_pay1
  show matmul (F := Ideal) (φ₁ := .f32) (φ₂ := .f32) KMat512.dd none (shapeCast S1024x1024 x0 _)
    (shapeCast S1024x512 x1 _) (constant S1024x512 .f32 0x00000000#32) (ix2 p q) = _
  rw [shapeCast_self, shapeCast_self]
  exact KMat512.matmul_ix2 x0 x1 p q

/-- The payload, entry (p, q): row p of the matrix against column q of the block. -/
private theorem pay3_ix2 (x0 : Vec Ideal S1024x1024 .f32) (x1 : Vec Ideal S1024x512 .f32) (p : Fin 1024) (q : Fin 512) :
    k1_pay3 (F := Ideal) x0 x1 (ix2 p q) = ∑ k : Fin 1024, x0 (ix2 p k) * x1 (ix2 k q) := by
  unfold k1_pay3 k1_pay1
  show matmul (F := Ideal) (φ₁ := .f32) (φ₂ := .f32) KMat512.dd none (shapeCast S1024x1024 x0 _)
    (shapeCast S1024x512 x1 _) (constant S1024x512 .f32 0x00000000#32) (ix2 p q) = _
  rw [shapeCast_self, shapeCast_self]
  exact KMat512.matmul_ix2 x0 x1 p q

/-- The index maps over the grid: the matrix window stays at block (0, 0); each column-blocked window is at
    block (0, t) at point t. -/
private theorem idx_facts : ∀ t : Fin cfg1.N, win1_0.index t (0 : Fin 2) = 0
    ∧ win1_0.index t (1 : Fin 2) = 0
    ∧ win1_1.index t (0 : Fin 2) = 0
    ∧ win1_1.index t (1 : Fin 2) = t.val
    ∧ win1_2.index t (0 : Fin 2) = 0
    ∧ win1_2.index t (1 : Fin 2) = t.val
    ∧ win1_3.index t (0 : Fin 2) = 0
    ∧ win1_3.index t (1 : Fin 2) = t.val
    ∧ win1_4.index t (0 : Fin 2) = 0
    ∧ win1_4.index t (1 : Fin 2) = t.val :=
  (by decide +kernel : ∀ t : Fin grid1.N, _)

set_option maxHeartbeats 400000 in
/-- What point t writes back to output window 3 is block t of the whole-array function. -/
private theorem flushed3_eq (c : Dev nD) (t : Fin cfg1.N) :
    (dat1 (F := Ideal) V c).flushed 3 t = ((cfg1.win 3).blk t).view.read (Elt Ideal) (KSpec.Gmm (V c main_v15) (V c main_v2)) := by
  show (cfg1.win 3).cut (grid1.coords t) ((dat1 (F := Ideal) V c).after 3 t) = _
  rw [after1_3]
  unfold out1_3
  rw [View.canon_unit_zero hz]
  simp only [View.ld_unit_zero (S := S1024x1024) hz, View.ld_unit_zero (S := S1024x512) hz]
  obtain ⟨e00, e01, e10, e11, e20, e21, e30, e31, e40, e41⟩ := idx_facts t
  funext j
  obtain ⟨p, q, rfl⟩ : ∃ (p : Fin 1024) (q : Fin 512), j = ix2 p q := ⟨j 0, j 1, eq_ix2 j⟩
  show k1_pay2 (F := Ideal) (iblk1 V c 0 t) (iblk1 V c 1 t) (ix2 p q) = KSpec.Gmm (V c main_v15) (V c main_v2) (((cfg1.win 3).blk t).view.emb (ix2 p q))
  refine (pay2_ix2 _ _ p q).trans ?_
  unfold KSpec.Gmm
  refine Finset.sum_congr rfl fun k _ => ?_
  have h0 : ((cfg1.win 0).blk t).view.emb (ix2 p k) = ix2 (⟨((((cfg1.win 3).blk t).view.emb (ix2 p q)) 0).val, idx2_lt0 _⟩ : Fin 1024) k := by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * k.val = k.val; omega
  have h1 : ((cfg1.win 1).blk t).view.emb (ix2 k q) = ix2 k (⟨((((cfg1.win 3).blk t).view.emb (ix2 p q)) 1).val, idx2_lt1 _⟩ : Fin 4096) := by
    funext a; apply Fin.ext
    match a with
    | ⟨0, _⟩ => show win1_1.index t (0 : Fin 2) * 1024 + 1 * k.val = k.val; omega
    | ⟨1, _⟩ => show win1_1.index t (1 : Fin 2) * 512 + 1 * q.val = win1_3.index t (1 : Fin 2) * 512 + 1 * q.val; omega
  exact congrArg₂ (fun a b : EReal => a * b) (congrArg (V c main_v15) h0) (congrArg (V c main_v2) h1)

/-- An index of the array is in point t's block of output window 3 iff each coordinate is in the block's range
    on its axis. -/
private theorem mem_blk3 (t : Fin cfg1.N) (i : S1024x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v16_0).slice (win1_3.rect t)).set ↔ _
  rw [View.set_slice_whole, Rect.mem_set_unit]
  exact Iff.rfl

/-- Every index of the array lies in the block of the point its column falls in. -/
private theorem cover3 (i : S1024x4096.Idx) : ∃ t : Fin cfg1.N, (cfg1.win 3).flush t = true ∧ i ∈ ((cfg1.win 3).blk t).view.set := by
  have hi0 : (i 0).val < 1024 := idx2_lt0 i
  have hi1 : (i 1).val < 4096 := idx2_lt1 i
  have hN : cfg1.N = 8 := N_1
  obtain ⟨t, ht⟩ : ∃ t : Fin cfg1.N, t.val = (i 1).val / 512 := ⟨⟨(i 1).val / 512, by rw [hN]; omega⟩, rfl⟩
  obtain ⟨e00, e01, e10, e11, e20, e21, e30, e31, e40, e41⟩ := idx_facts t
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

theorem final1_3 (c : Dev nD) : (dat1 (F := Ideal) V c).arrAt 3 cfg1.N = KSpec.Gmm (V c main_v15) (V c main_v2) :=
  (dat1 (F := Ideal) V c).arrAt_eq_of_cover 3 (KSpec.Gmm (V c main_v15) (V c main_v2)) (fun t _ => flushed3_eq V c t) cover3

set_option maxHeartbeats 400000 in
/-- What point t writes back to output window 4 is block t of the whole-array function. -/
private theorem flushed4_eq (c : Dev nD) (t : Fin cfg1.N) :
    (dat1 (F := Ideal) V c).flushed 4 t = ((cfg1.win 4).blk t).view.read (Elt Ideal) (KSpec.Gmm (V c main_v15) (V c main_v5)) := by
  show (cfg1.win 4).cut (grid1.coords t) ((dat1 (F := Ideal) V c).after 4 t) = _
  rw [after1_4]
  unfold out1_4
  rw [View.canon_unit_zero hz]
  simp only [View.ld_unit_zero (S := S1024x1024) hz, View.ld_unit_zero (S := S1024x512) hz]
  obtain ⟨e00, e01, e10, e11, e20, e21, e30, e31, e40, e41⟩ := idx_facts t
  funext j
  obtain ⟨p, q, rfl⟩ : ∃ (p : Fin 1024) (q : Fin 512), j = ix2 p q := ⟨j 0, j 1, eq_ix2 j⟩
  show k1_pay3 (F := Ideal) (iblk1 V c 0 t) (iblk1 V c 2 t) (ix2 p q) = KSpec.Gmm (V c main_v15) (V c main_v5) (((cfg1.win 4).blk t).view.emb (ix2 p q))
  refine (pay3_ix2 _ _ p q).trans ?_
  unfold KSpec.Gmm
  refine Finset.sum_congr rfl fun k _ => ?_
  have h0 : ((cfg1.win 0).blk t).view.emb (ix2 p k) = ix2 (⟨((((cfg1.win 4).blk t).view.emb (ix2 p q)) 0).val, idx2_lt0 _⟩ : Fin 1024) k := by
    funext a; apply Fin.ext
    match a with
    | ⟨0, _⟩ => show win1_0.index t (0 : Fin 2) * 1024 + 1 * p.val = win1_4.index t (0 : Fin 2) * 1024 + 1 * p.val; omega
    | ⟨1, _⟩ => show win1_0.index t (1 : Fin 2) * 1024 + 1 * k.val = k.val; omega
  have h1 : ((cfg1.win 2).blk t).view.emb (ix2 k q) = ix2 k (⟨((((cfg1.win 4).blk t).view.emb (ix2 p q)) 1).val, idx2_lt1 _⟩ : Fin 4096) := by
    funext a; apply Fin.ext
    match a with
    | ⟨0, _⟩ => show win1_2.index t (0 : Fin 2) * 1024 + 1 * k.val = k.val; omega
    | ⟨1, _⟩ => show win1_2.index t (1 : Fin 2) * 512 + 1 * q.val = win1_4.index t (1 : Fin 2) * 512 + 1 * q.val; omega
  exact congrArg₂ (fun a b : EReal => a * b) (congrArg (V c main_v15) h0) (congrArg (V c main_v5) h1)

/-- An index of the array is in point t's block of output window 4 iff each coordinate is in the block's range
    on its axis. -/
private theorem mem_blk4 (t : Fin cfg1.N) (i : S1024x4096.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v16_1).slice (win1_4.rect t)).set ↔ _
  rw [View.set_slice_whole, Rect.mem_set_unit]
  exact Iff.rfl

/-- Every index of the array lies in the block of the point its column falls in. -/
private theorem cover4 (i : S1024x4096.Idx) : ∃ t : Fin cfg1.N, (cfg1.win 4).flush t = true ∧ i ∈ ((cfg1.win 4).blk t).view.set := by
  have hi0 : (i 0).val < 1024 := idx2_lt0 i
  have hi1 : (i 1).val < 4096 := idx2_lt1 i
  have hN : cfg1.N = 8 := N_1
  obtain ⟨t, ht⟩ : ∃ t : Fin cfg1.N, t.val = (i 1).val / 512 := ⟨⟨(i 1).val / 512, by rw [hN]; omega⟩, rfl⟩
  obtain ⟨e00, e01, e10, e11, e20, e21, e30, e31, e40, e41⟩ := idx_facts t
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

theorem final1_4 (c : Dev nD) : (dat1 (F := Ideal) V c).arrAt 4 cfg1.N = KSpec.Gmm (V c main_v15) (V c main_v5) :=
  (dat1 (F := Ideal) V c).arrAt_eq_of_cover 4 (KSpec.Gmm (V c main_v15) (V c main_v5)) (fun t _ => flushed4_eq V c t) cover4

end Cert.KernelIdeal.KReg1

end
-- ==== Proof.KReg2.lean ====
import proofs.«118218_g51479478010102_cont_8to1_c_652_2_alg».proof.Proof.Gen.KernelIdeal.Frame
import proofs.«118218_g51479478010102_cont_8to1_c_652_2_alg».proof.Proof.KSpec
import proofs.«118218_g51479478010102_cont_8to1_c_652_2_alg».proof.Proof.KMat512
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The body's loads and stores are at offset zero of their staging buffers. -/
private theorem hz : (![0, 0] : Fin 2 → Nat) = fun _ => 0 := funext fun a => by fin_cases a <;> rfl

/-- The payload, entry (p, q): twice row p of the matrix against column q of the first block, minus the second
    block's entry. -/
private theorem pay2_ix2 (x0 : Vec Ideal S1024x1024 .f32) (x1 x2 : Vec Ideal S1024x512 .f32) (p : Fin 1024) (q : Fin 512) :
    k2_pay2 (F := Ideal) x0 x1 x2 (ix2 p q) = KSpec.two * (∑ k : Fin 1024, x0 (ix2 p k) * x1 (ix2 k q)) - x2 (ix2 p q) := by
  unfold k2_pay2 k2_pay1
  show KSpec.two * (matmul (F := Ideal) (φ₁ := .f32) (φ₂ := .f32) KMat512.dd none (shapeCast S1024x1024 x0 _)
    (shapeCast S1024x512 x1 _) (constant S1024x512 .f32 0x00000000#32) (ix2 p q)) - (shapeCast S1024x512 x2 _) (ix2 p q) = _
  rw [shapeCast_self, shapeCast_self, shapeCast_self, KMat512.matmul_ix2]

/-- The payload, entry (p, q): twice row p of the matrix against column q of the first block, minus the second
    block's entry. -/
private theorem pay3_ix2 (x0 : Vec Ideal S1024x1024 .f32) (x1 x2 : Vec Ideal S1024x512 .f32) (p : Fin 1024) (q : Fin 512) :
    k2_pay3 (F := Ideal) x0 x1 x2 (ix2 p q) = KSpec.two * (∑ k : Fin 1024, x0 (ix2 p k) * x1 (ix2 k q)) - x2 (ix2 p q) := by
  unfold k2_pay3 k2_pay1
  show KSpec.two * (matmul (F := Ideal) (φ₁ := .f32) (φ₂ := .f32) KMat512.dd none (shapeCast S1024x1024 x0 _)
    (shapeCast S1024x512 x1 _) (constant S1024x512 .f32 0x00000000#32) (ix2 p q)) - (shapeCast S1024x512 x2 _) (ix2 p q) = _
  rw [shapeCast_self, shapeCast_self, shapeCast_self, KMat512.matmul_ix2]

/-- The index maps over the grid: the matrix window stays at block (0, 0); each column-blocked window is at
    block (0, t) at point t. -/
private theorem idx_facts : ∀ t : Fin cfg2.N, win2_0.index t (0 : Fin 2) = 0
    ∧ win2_0.index t (1 : Fin 2) = 0
    ∧ win2_1.index t (0 : Fin 2) = 0
    ∧ win2_1.index t (1 : Fin 2) = t.val
    ∧ win2_2.index t (0 : Fin 2) = 0
    ∧ win2_2.index t (1 : Fin 2) = t.val
    ∧ win2_3.index t (0 : Fin 2) = 0
    ∧ win2_3.index t (1 : Fin 2) = t.val
    ∧ win2_4.index t (0 : Fin 2) = 0
    ∧ win2_4.index t (1 : Fin 2) = t.val
    ∧ win2_5.index t (0 : Fin 2) = 0
    ∧ win2_5.index t (1 : Fin 2) = t.val
    ∧ win2_6.index t (0 : Fin 2) = 0
    ∧ win2_6.index t (1 : Fin 2) = t.val :=
  (by decide +kernel : ∀ t : Fin grid2.N, _)

set_option maxHeartbeats 400000 in
/-- What point t writes back to output window 5 is block t of the whole-array function. -/
private theorem flushed5_eq (c : Dev nD) (t : Fin cfg2.N) :
    (dat2 (F := Ideal) V c).flushed 5 t = ((cfg2.win 5).blk t).view.read (Elt Ideal) (KSpec.Gcheb (V c main_v15) (V c main_v16_0) (V c main_v2)) := by
  show (cfg2.win 5).cut (grid2.coords t) ((dat2 (F := Ideal) V c).after 5 t) = _
  rw [after2_5]
  unfold out2_5
  rw [View.canon_unit_zero hz]
  simp only [View.ld_unit_zero (S := S1024x1024) hz, View.ld_unit_zero (S := S1024x512) hz]
  obtain ⟨e00, e01, e10, e11, e20, e21, e30, e31, e40, e41, e50, e51, e60, e61⟩ := idx_facts t
  funext j
  obtain ⟨p, q, rfl⟩ : ∃ (p : Fin 1024) (q : Fin 512), j = ix2 p q := ⟨j 0, j 1, eq_ix2 j⟩
  show k2_pay2 (F := Ideal) (iblk2 V c 0 t) (iblk2 V c 1 t) (iblk2 V c 3 t) (ix2 p q) = KSpec.Gcheb (V c main_v15) (V c main_v16_0) (V c main_v2) (((cfg2.win 5).blk t).view.emb (ix2 p q))
  refine (pay2_ix2 _ _ _ p q).trans ?_
  unfold KSpec.Gcheb
  refine congrArg₂ (fun a b : EReal => KSpec.two * a - b) (Finset.sum_congr rfl fun k _ => ?_) ?_
  · have h0 : ((cfg2.win 0).blk t).view.emb (ix2 p k) = ix2 (⟨((((cfg2.win 5).blk t).view.emb (ix2 p q)) 0).val, idx2_lt0 _⟩ : Fin 1024) k := by
      funext a; apply Fin.ext
      match a with
      | ⟨0, _⟩ => show win2_0.index t (0 : Fin 2) * 1024 + 1 * p.val = win2_5.index t (0 : Fin 2) * 1024 + 1 * p.val; omega
      | ⟨1, _⟩ => show win2_0.index t (1 : Fin 2) * 1024 + 1 * k.val = k.val; omega
    have h1 : ((cfg2.win 1).blk t).view.emb (ix2 k q) = ix2 k (⟨((((cfg2.win 5).blk t).view.emb (ix2 p q)) 1).val, idx2_lt1 _⟩ : Fin 4096) := by
      funext a; apply Fin.ext
      match a with
      | ⟨0, _⟩ => show win2_1.index t (0 : Fin 2) * 1024 + 1 * k.val = k.val; omega
      | ⟨1, _⟩ => show win2_1.index t (1 : Fin 2) * 512 + 1 * q.val = win2_5.index t (1 : Fin 2) * 512 + 1 * q.val; omega
    exact congrArg₂ (fun a b : EReal => a * b) (congrArg (V c main_v15) h0) (congrArg (V c main_v16_0) h1)
  · have h2 : ((cfg2.win 3).blk t).view.emb (ix2 p q) = ((cfg2.win 5).blk t).view.emb (ix2 p q) := by
      funext a; apply Fin.ext
      match a with
      | ⟨0, _⟩ => show win2_3.index t (0 : Fin 2) * 1024 + 1 * p.val = win2_5.index t (0 : Fin 2) * 1024 + 1 * p.val; omega
      | ⟨1, _⟩ => show win2_3.index t (1 : Fin 2) * 512 + 1 * q.val = win2_5.index t (1 : Fin 2) * 512 + 1 * q.val; omega
    exact congrArg (V c main_v2) h2

/-- An index of the array is in point t's block of output window 5 iff each coordinate is in the block's range
    on its axis. -/
private theorem mem_blk5 (t : Fin cfg2.N) (i : S1024x4096.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v17_0).slice (win2_5.rect t)).set ↔ _
  rw [View.set_slice_whole, Rect.mem_set_unit]
  exact Iff.rfl

/-- Every index of the array lies in the block of the point its column falls in. -/
private theorem cover5 (i : S1024x4096.Idx) : ∃ t : Fin cfg2.N, (cfg2.win 5).flush t = true ∧ i ∈ ((cfg2.win 5).blk t).view.set := by
  have hi0 : (i 0).val < 1024 := idx2_lt0 i
  have hi1 : (i 1).val < 4096 := idx2_lt1 i
  have hN : cfg2.N = 8 := N_2
  obtain ⟨t, ht⟩ : ∃ t : Fin cfg2.N, t.val = (i 1).val / 512 := ⟨⟨(i 1).val / 512, by rw [hN]; omega⟩, rfl⟩
  obtain ⟨e00, e01, e10, e11, e20, e21, e30, e31, e40, e41, e50, e51, e60, e61⟩ := idx_facts t
  refine ⟨t, flush2_5 t, ?_⟩
  rw [mem_blk5]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 512 ≤ (i 1).val ∧ (i 1).val < win2_5.index t (1 : Fin 2) * 512 + 512; omega

theorem final2_5 (c : Dev nD) : (dat2 (F := Ideal) V c).arrAt 5 cfg2.N = KSpec.Gcheb (V c main_v15) (V c main_v16_0) (V c main_v2) :=
  (dat2 (F := Ideal) V c).arrAt_eq_of_cover 5 (KSpec.Gcheb (V c main_v15) (V c main_v16_0) (V c main_v2)) (fun t _ => flushed5_eq V c t) cover5

set_option maxHeartbeats 400000 in
/-- What point t writes back to output window 6 is block t of the whole-array function. -/
private theorem flushed6_eq (c : Dev nD) (t : Fin cfg2.N) :
    (dat2 (F := Ideal) V c).flushed 6 t = ((cfg2.win 6).blk t).view.read (Elt Ideal) (KSpec.Gcheb (V c main_v15) (V c main_v16_1) (V c main_v5)) := by
  show (cfg2.win 6).cut (grid2.coords t) ((dat2 (F := Ideal) V c).after 6 t) = _
  rw [after2_6]
  unfold out2_6
  rw [View.canon_unit_zero hz]
  simp only [View.ld_unit_zero (S := S1024x1024) hz, View.ld_unit_zero (S := S1024x512) hz]
  obtain ⟨e00, e01, e10, e11, e20, e21, e30, e31, e40, e41, e50, e51, e60, e61⟩ := idx_facts t
  funext j
  obtain ⟨p, q, rfl⟩ : ∃ (p : Fin 1024) (q : Fin 512), j = ix2 p q := ⟨j 0, j 1, eq_ix2 j⟩
  show k2_pay3 (F := Ideal) (iblk2 V c 0 t) (iblk2 V c 2 t) (iblk2 V c 4 t) (ix2 p q) = KSpec.Gcheb (V c main_v15) (V c main_v16_1) (V c main_v5) (((cfg2.win 6).blk t).view.emb (ix2 p q))
  refine (pay3_ix2 _ _ _ p q).trans ?_
  unfold KSpec.Gcheb
  refine congrArg₂ (fun a b : EReal => KSpec.two * a - b) (Finset.sum_congr rfl fun k _ => ?_) ?_
  · have h0 : ((cfg2.win 0).blk t).view.emb (ix2 p k) = ix2 (⟨((((cfg2.win 6).blk t).view.emb (ix2 p q)) 0).val, idx2_lt0 _⟩ : Fin 1024) k := by
      funext a; apply Fin.ext
      match a with
      | ⟨0, _⟩ => show win2_0.index t (0 : Fin 2) * 1024 + 1 * p.val = win2_6.index t (0 : Fin 2) * 1024 + 1 * p.val; omega
      | ⟨1, _⟩ => show win2_0.index t (1 : Fin 2) * 1024 + 1 * k.val = k.val; omega
    have h1 : ((cfg2.win 2).blk t).view.emb (ix2 k q) = ix2 k (⟨((((cfg2.win 6).blk t).view.emb (ix2 p q)) 1).val, idx2_lt1 _⟩ : Fin 4096) := by
      funext a; apply Fin.ext
      match a with
      | ⟨0, _⟩ => show win2_2.index t (0 : Fin 2) * 1024 + 1 * k.val = k.val; omega
      | ⟨1, _⟩ => show win2_2.index t (1 : Fin 2) * 512 + 1 * q.val = win2_6.index t (1 : Fin 2) * 512 + 1 * q.val; omega
    exact congrArg₂ (fun a b : EReal => a * b) (congrArg (V c main_v15) h0) (congrArg (V c main_v16_1) h1)
  · have h2 : ((cfg2.win 4).blk t).view.emb (ix2 p q) = ((cfg2.win 6).blk t).view.emb (ix2 p q) := by
      funext a; apply Fin.ext
      match a with
      | ⟨0, _⟩ => show win2_4.index t (0 : Fin 2) * 1024 + 1 * p.val = win2_6.index t (0 : Fin 2) * 1024 + 1 * p.val; omega
      | ⟨1, _⟩ => show win2_4.index t (1 : Fin 2) * 512 + 1 * q.val = win2_6.index t (1 : Fin 2) * 512 + 1 * q.val; omega
    exact congrArg (V c main_v5) h2

/-- An index of the array is in point t's block of output window 6 iff each coordinate is in the block's range
    on its axis. -/
private theorem mem_blk6 (t : Fin cfg2.N) (i : S1024x4096.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v17_1).slice (win2_6.rect t)).set ↔ _
  rw [View.set_slice_whole, Rect.mem_set_unit]
  exact Iff.rfl

/-- Every index of the array lies in the block of the point its column falls in. -/
private theorem cover6 (i : S1024x4096.Idx) : ∃ t : Fin cfg2.N, (cfg2.win 6).flush t = true ∧ i ∈ ((cfg2.win 6).blk t).view.set := by
  have hi0 : (i 0).val < 1024 := idx2_lt0 i
  have hi1 : (i 1).val < 4096 := idx2_lt1 i
  have hN : cfg2.N = 8 := N_2
  obtain ⟨t, ht⟩ : ∃ t : Fin cfg2.N, t.val = (i 1).val / 512 := ⟨⟨(i 1).val / 512, by rw [hN]; omega⟩, rfl⟩
  obtain ⟨e00, e01, e10, e11, e20, e21, e30, e31, e40, e41, e50, e51, e60, e61⟩ := idx_facts t
  refine ⟨t, flush2_6 t, ?_⟩
  rw [mem_blk6]
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 512 ≤ (i 1).val ∧ (i 1).val < win2_6.index t (1 : Fin 2) * 512 + 512; omega

theorem final2_6 (c : Dev nD) : (dat2 (F := Ideal) V c).arrAt 6 cfg2.N = KSpec.Gcheb (V c main_v15) (V c main_v16_1) (V c main_v5) :=
  (dat2 (F := Ideal) V c).arrAt_eq_of_cover 6 (KSpec.Gcheb (V c main_v15) (V c main_v16_1) (V c main_v5)) (fun t _ => flushed6_eq V c t) cover6

end Cert.KernelIdeal.KReg2

end
-- ==== Proof.KReg3.lean ====
/-
  The gate launch, read whole.  Grid point t holds rows t·4096 … t·4096 + 4095 of the six [65536, 64] inputs; the
  body lays the six blocks side by side in the order x, h, p1, h1, p2, h2 (384 columns), multiplies by the weights,
  adds the bias row and takes the logistic.  The first output is the first 64 gate columns times the state block, the
  second the last 64 gate columns.  Each block a point writes back is the corresponding rows of one function of the
  whole arrays, and the sixteen blocks cover the array.
-/
import proofs.«118218_g51479478010102_cont_8to1_c_652_2_alg».proof.Proof.Gen.KernelIdeal.Frame
import proofs.«118218_g51479478010102_cont_8to1_c_652_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-! ## Small facts about the body's operations, at one index -/

/-- Six 64-wide pieces joined along the columns: column j of row p is piece j / 64 at column j % 64. -/
theorem cat_apply (a0 a1 a2 a3 a4 a5 : Vec Ideal S4096x64 .f32)
    (h : Shape.Concatenates (([⟨S4096x64, a0⟩, ⟨S4096x64, a1⟩, ⟨S4096x64, a2⟩, ⟨S4096x64, a3⟩, ⟨S4096x64, a4⟩, ⟨S4096x64, a5⟩] :
      List ((s : Shape) × (s.Idx → Elt Ideal .f32))).map (·.1)) S4096x384 1) (p : Fin 4096) (j : Fin 384) :
    concatenate S4096x384 1 [⟨S4096x64, a0⟩, ⟨S4096x64, a1⟩, ⟨S4096x64, a2⟩, ⟨S4096x64, a3⟩, ⟨S4096x64, a4⟩, ⟨S4096x64, a5⟩] h (ix2 p j)
      = (![a0, a1, a2, a3, a4, a5] : Fin 6 → Vec Ideal S4096x64 .f32) ⟨j.val / 64, by have := j.isLt; omega⟩
          (ix2 p (⟨j.val % 64, Nat.mod_lt _ (by decide)⟩ : Fin 64)) := by
  exact concatenate_ofFn_apply (t := S4096x384) (s₁ := S4096x64) 1
    (![a0, a1, a2, a3, a4, a5] : Fin 6 → Vec Ideal S4096x64 .f32)
    h rfl 64 rfl (ix2 p j)
    ⟨j.val / 64, by have := j.isLt; omega⟩ rfl (ix2 p (⟨j.val % 64, Nat.mod_lt _ (by decide)⟩ : Fin 64)) rfl
    (fun b hb => by
      match b with
      | ⟨0, _⟩ => rfl
      | ⟨1, _⟩ => exact absurd rfl hb)

/-! The matrix product read at one entry: the contraction over the single shared axis. -/

theorem lhs_mm128_0 (i : S4096x128.Idx) (q : dot_S4096x384_S384x128_S4096x128_1_0_0_1_n_n.contr.Idx) :
    (dot_S4096x384_S384x128_S4096x128_1_0_0_1_n_n.lhsIdx i q 0).val = (i 0).val := by
  unfold DotDims.lhsIdx
  rw [dif_neg (show ¬(0 : Fin S4096x384.rank) ∈ dot_S4096x384_S384x128_S4096x128_1_0_0_1_n_n.lhsBatch by decide), dif_pos (show (0 : Fin S4096x384.rank) ∈ dot_S4096x384_S384x128_S4096x128_1_0_0_1_n_n.lhsNonContracting by decide)]
  rfl
theorem lhs_mm128_1 (i : S4096x128.Idx) (q : dot_S4096x384_S384x128_S4096x128_1_0_0_1_n_n.contr.Idx) :
    (dot_S4096x384_S384x128_S4096x128_1_0_0_1_n_n.lhsIdx i q 1).val = (q ⟨0, by decide⟩).val :=
  dot_S4096x384_S384x128_S4096x128_1_0_0_1_n_n.lhsIdx_val_of_single rfl i q
theorem rhs_mm128_0 (i : S4096x128.Idx) (q : dot_S4096x384_S384x128_S4096x128_1_0_0_1_n_n.contr.Idx) :
    (dot_S4096x384_S384x128_S4096x128_1_0_0_1_n_n.rhsIdx i q 0).val = (q ⟨0, by decide⟩).val :=
  dot_S4096x384_S384x128_S4096x128_1_0_0_1_n_n.rhsIdx_val_of_single rfl i q
theorem rhs_mm128_1 (i : S4096x128.Idx) (q : dot_S4096x384_S384x128_S4096x128_1_0_0_1_n_n.contr.Idx) :
    (dot_S4096x384_S384x128_S4096x128_1_0_0_1_n_n.rhsIdx i q 1).val = (i 1).val := by
  unfold DotDims.rhsIdx
  rw [dif_neg (show ¬(1 : Fin S384x128.rank) ∈ dot_S4096x384_S384x128_S4096x128_1_0_0_1_n_n.rhsBatch by decide), dif_pos (show (1 : Fin S384x128.rank) ∈ dot_S4096x384_S384x128_S4096x128_1_0_0_1_n_n.rhsNonContracting by decide)]
  rfl

/-- Entry (p, q) of the product into a zero accumulator is the sum over the 384 shared columns. -/
theorem mm128_apply (l : FVec Ideal S4096x384 .f32) (r : FVec Ideal S384x128 .f32) (p : Fin 4096) (q : Fin 128) :
    matmul dot_S4096x384_S384x128_S4096x128_1_0_0_1_n_n none l r (constant (F := Ideal) S4096x128 .f32 0x00000000#32) (ix2 p q)
      = ∑ j : Fin 384, l (ix2 p j) * r (ix2 j q) := by
  refine (Ideal.matmul_constant_zero_apply dot_S4096x384_S384x128_S4096x128_1_0_0_1_n_n none l r (ix2 p q)).trans ?_
  rw [← Equiv.sum_comp (ValueIdx.contrEquiv1 dot_S4096x384_S384x128_S4096x128_1_0_0_1_n_n 384 rfl rfl).symm]
  refine Finset.sum_congr rfl fun k _ => ?_
  have hk := ValueIdx.contrEquiv1_symm_val dot_S4096x384_S384x128_S4096x128_1_0_0_1_n_n 384 rfl rfl k
  have el : dot_S4096x384_S384x128_S4096x128_1_0_0_1_n_n.lhsIdx (ix2 p q) ((ValueIdx.contrEquiv1 dot_S4096x384_S384x128_S4096x128_1_0_0_1_n_n 384 rfl rfl).symm k) = ix2 p k := funext fun a => Fin.ext (by
    match a with
    | ⟨0, _⟩ => exact lhs_mm128_0 _ _
    | ⟨1, _⟩ => exact (lhs_mm128_1 _ _).trans hk)
  have er : dot_S4096x384_S384x128_S4096x128_1_0_0_1_n_n.rhsIdx (ix2 p q) ((ValueIdx.contrEquiv1 dot_S4096x384_S384x128_S4096x128_1_0_0_1_n_n 384 rfl rfl).symm k) = ix2 k q := funext fun a => Fin.ext (by
    match a with
    | ⟨0, _⟩ => exact (rhs_mm128_0 _ _).trans hk
    | ⟨1, _⟩ => exact rhs_mm128_1 _ _)
  rw [el, er]

/-- The bias row spread over the 4096 rows: every row reads the one row. -/
theorem bcast_apply (b : Vec Ideal S1x128 .f32) (h : S1x128.Broadcasts S4096x128) (p : Fin 4096) (q : Fin 128) :
    broadcastTo S4096x128 b h (ix2 p q) = b (ix2 (0 : Fin 1) q) :=
  broadcastTo_apply b h (ix2 p q) (ix2 (0 : Fin 1) q) (fun a => by
    match a with
    | ⟨0, _⟩ => rfl
    | ⟨1, _⟩ => rfl)

/-- The first 64 columns of a 128-wide array. -/
theorem slice_lo_apply (x : Vec Ideal S4096x128 .f32) (h : S4096x128.Slices ![0, 0] S4096x64) (p : Fin 4096) (q : Fin 64) :
    extractStridedSlice S4096x64 ![0, 0] x h (ix2 p q) = x (ix2 p (⟨q.val, by have := q.isLt; omega⟩ : Fin 128)) :=
  extractStridedSlice_apply ![0, 0] x h (ix2 p q) (ix2 p (⟨q.val, by have := q.isLt; omega⟩ : Fin 128)) (fun a => by
    match a with
    | ⟨0, _⟩ => exact (Nat.zero_add _).symm
    | ⟨1, _⟩ => exact (Nat.zero_add _).symm)

/-- The last 64 columns of a 128-wide array. -/
theorem slice_hi_apply (x : Vec Ideal S4096x128 .f32) (h : S4096x128.Slices ![0, 64] S4096x64) (p : Fin 4096) (q : Fin 64) :
    extractStridedSlice S4096x64 ![0, 64] x h (ix2 p q) = x (ix2 p (⟨64 + q.val, by have := q.isLt; omega⟩ : Fin 128)) :=
  extractStridedSlice_apply ![0, 64] x h (ix2 p q) (ix2 p (⟨64 + q.val, by have := q.isLt; omega⟩ : Fin 128)) (fun a => by
    match a with
    | ⟨0, _⟩ => exact (Nat.zero_add _).symm
    | ⟨1, _⟩ => rfl)

/-! ## The body's values at one index, over the loaded blocks -/

/-- Row p of six blocks side by side against column q of the weights, plus the bias. -/
def preB (a : Fin 6 → Vec Ideal S4096x64 .f32) (W : Vec Ideal S384x128 .f32) (b : Vec Ideal S1x128 .f32) (p : Fin 4096) (q : Fin 128) : EReal :=
  (∑ j : Fin 384, a ⟨j.val / 64, by have := j.isLt; omega⟩ (ix2 p (⟨j.val % 64, Nat.mod_lt _ (by decide)⟩ : Fin 64)) * W (ix2 j q))
    + b (ix2 (0 : Fin 1) q)

/-- The logistic of the whole 128-wide pre-activation, at (p, q). The body joins the blocks as [x, h, p1, h1, p2, h2]. -/
theorem pay2_apply (hb xb p1 h1 p2 h2 : Vec Ideal S4096x64 .f32) (W : Vec Ideal S384x128 .f32) (b : Vec Ideal S1x128 .f32)
    (p : Fin 4096) (q : Fin 128) :
    k3_pay2 (F := Ideal) hb xb p1 h1 p2 h2 W b (ix2 p q) = Ideal.logistic (preB ![xb, hb, p1, h1, p2, h2] W b p q) := by
  unfold k3_pay2 k3_pay1
  simp only [shapeCast_self]
  refine congrArg Ideal.logistic ?_
  refine congrArg₂ (· + ·) ((mm128_apply _ _ p q).trans ?_) (bcast_apply _ _ p q)
  refine Finset.sum_congr rfl fun j _ => ?_
  rw [cat_apply]
  simp only [shapeCast_self]

/-! ## From the blocks of one grid point to the whole arrays -/

/-- Row T·4096 + p of a 65536-row array: row p of the block of grid point T. -/
def rowOf (T : Nat) (hT : T < 16) (p : Fin 4096) : Fin 65536 := ⟨T * 4096 + p.val, by have := p.isLt; omega⟩

/-- Six blocks that are the rows of six arrays, piece by piece. -/
theorem six_blocks (T : Nat) (hT : T < 16) (b0 b1 b2 b3 b4 b5 : Vec Ideal S4096x64 .f32) (a0 a1 a2 a3 a4 a5 : KSpec.A2 S65536x64)
    (e0 : ∀ (p : Fin 4096) (q : Fin 64), b0 (ix2 p q) = a0 (ix2 (rowOf T hT p) q))
    (e1 : ∀ (p : Fin 4096) (q : Fin 64), b1 (ix2 p q) = a1 (ix2 (rowOf T hT p) q))
    (e2 : ∀ (p : Fin 4096) (q : Fin 64), b2 (ix2 p q) = a2 (ix2 (rowOf T hT p) q))
    (e3 : ∀ (p : Fin 4096) (q : Fin 64), b3 (ix2 p q) = a3 (ix2 (rowOf T hT p) q))
    (e4 : ∀ (p : Fin 4096) (q : Fin 64), b4 (ix2 p q) = a4 (ix2 (rowOf T hT p) q))
    (e5 : ∀ (p : Fin 4096) (q : Fin 64), b5 (ix2 p q) = a5 (ix2 (rowOf T hT p) q))
    (n : Fin 6) (p : Fin 4096) (q : Fin 64) :
    (![b0, b1, b2, b3, b4, b5] : Fin 6 → Vec Ideal S4096x64 .f32) n (ix2 p q)
      = (![a0, a1, a2, a3, a4, a5] : Fin 6 → KSpec.A2 S65536x64) n (ix2 (rowOf T hT p) q) := by
  match n with
  | ⟨0, _⟩ => exact e0 p q
  | ⟨1, _⟩ => exact e1 p q
  | ⟨2, _⟩ => exact e2 p q
  | ⟨3, _⟩ => exact e3 p q
  | ⟨4, _⟩ => exact e4 p q
  | ⟨5, _⟩ => exact e5 p q

/-- So the pre-activation over the blocks is the whole-array pre-activation at the block's row. -/
theorem pre_blocks (T : Nat) (hT : T < 16) (b0 b1 b2 b3 b4 b5 : Vec Ideal S4096x64 .f32) (a0 a1 a2 a3 a4 a5 : KSpec.A2 S65536x64)
    (e0 : ∀ (p : Fin 4096) (q : Fin 64), b0 (ix2 p q) = a0 (ix2 (rowOf T hT p) q))
    (e1 : ∀ (p : Fin 4096) (q : Fin 64), b1 (ix2 p q) = a1 (ix2 (rowOf T hT p) q))
    (e2 : ∀ (p : Fin 4096) (q : Fin 64), b2 (ix2 p q) = a2 (ix2 (rowOf T hT p) q))
    (e3 : ∀ (p : Fin 4096) (q : Fin 64), b3 (ix2 p q) = a3 (ix2 (rowOf T hT p) q))
    (e4 : ∀ (p : Fin 4096) (q : Fin 64), b4 (ix2 p q) = a4 (ix2 (rowOf T hT p) q))
    (e5 : ∀ (p : Fin 4096) (q : Fin 64), b5 (ix2 p q) = a5 (ix2 (rowOf T hT p) q))
    (W : KSpec.A2 S384x128) (bias : KSpec.A2 S1x128) (p : Fin 4096) (q : Fin 128) :
    preB ![b0, b1, b2, b3, b4, b5] W bias p q = KSpec.Gpre128 ![a0, a1, a2, a3, a4, a5] W bias (rowOf T hT p) q := by
  unfold preB KSpec.Gpre128 KSpec.cat6
  refine congrArg (· + _) (Finset.sum_congr rfl fun j _ => congrArg (· * _) ?_)
  exact six_blocks T hT b0 b1 b2 b3 b4 b5 a0 a1 a2 a3 a4 a5 e0 e1 e2 e3 e4 e5 _ p _

/-- The first output at (p, q): the logistic of gate column q times the state, read off the whole arrays. -/
theorem pay3_blocks (T : Nat) (hT : T < 16) (hb xb p1b h1b p2b h2b : Vec Ideal S4096x64 .f32) (x h p1 h1 p2 h2 : KSpec.A2 S65536x64)
    (ex : ∀ (p : Fin 4096) (q : Fin 64), xb (ix2 p q) = x (ix2 (rowOf T hT p) q))
    (eh : ∀ (p : Fin 4096) (q : Fin 64), hb (ix2 p q) = h (ix2 (rowOf T hT p) q))
    (ep1 : ∀ (p : Fin 4096) (q : Fin 64), p1b (ix2 p q) = p1 (ix2 (rowOf T hT p) q))
    (eh1 : ∀ (p : Fin 4096) (q : Fin 64), h1b (ix2 p q) = h1 (ix2 (rowOf T hT p) q))
    (ep2 : ∀ (p : Fin 4096) (q : Fin 64), p2b (ix2 p q) = p2 (ix2 (rowOf T hT p) q))
    (eh2 : ∀ (p : Fin 4096) (q : Fin 64), h2b (ix2 p q) = h2 (ix2 (rowOf T hT p) q))
    (Wb W : KSpec.A2 S384x128) (eW : Wb = W) (bb bias : KSpec.A2 S1x128) (eb : bb = bias) (p : Fin 4096) (q : Fin 64) :
    k3_pay3 (F := Ideal) hb xb p1b h1b p2b h2b Wb bb (ix2 p q) = KSpec.GS0 x h p1 h1 p2 h2 W bias (ix2 (rowOf T hT p) q) := by
  subst eW eb
  unfold k3_pay3 k3_pay1
  simp only [shapeCast_self]
  refine (congrArg₂ (· * ·) ((slice_lo_apply _ _ p q).trans ((pay2_apply hb xb p1b h1b p2b h2b Wb bb p _).trans
    (congrArg Ideal.logistic (pre_blocks T hT xb hb p1b h1b p2b h2b x h p1 h1 p2 h2 ex eh ep1 eh1 ep2 eh2 Wb bb p _)))) (eh p q)).trans ?_
  rfl

/-- The second output at (p, q): the logistic of gate column 64 + q. -/
theorem pay4_blocks (T : Nat) (hT : T < 16) (hb xb p1b h1b p2b h2b : Vec Ideal S4096x64 .f32) (x h p1 h1 p2 h2 : KSpec.A2 S65536x64)
    (ex : ∀ (p : Fin 4096) (q : Fin 64), xb (ix2 p q) = x (ix2 (rowOf T hT p) q))
    (eh : ∀ (p : Fin 4096) (q : Fin 64), hb (ix2 p q) = h (ix2 (rowOf T hT p) q))
    (ep1 : ∀ (p : Fin 4096) (q : Fin 64), p1b (ix2 p q) = p1 (ix2 (rowOf T hT p) q))
    (eh1 : ∀ (p : Fin 4096) (q : Fin 64), h1b (ix2 p q) = h1 (ix2 (rowOf T hT p) q))
    (ep2 : ∀ (p : Fin 4096) (q : Fin 64), p2b (ix2 p q) = p2 (ix2 (rowOf T hT p) q))
    (eh2 : ∀ (p : Fin 4096) (q : Fin 64), h2b (ix2 p q) = h2 (ix2 (rowOf T hT p) q))
    (Wb W : KSpec.A2 S384x128) (eW : Wb = W) (bb bias : KSpec.A2 S1x128) (eb : bb = bias) (p : Fin 4096) (q : Fin 64) :
    k3_pay4 (F := Ideal) hb xb p1b h1b p2b h2b Wb bb (ix2 p q) = KSpec.GU x h p1 h1 p2 h2 W bias (ix2 (rowOf T hT p) q) := by
  subst eW eb
  unfold k3_pay4
  refine ((slice_hi_apply _ _ p q).trans ((pay2_apply hb xb p1b h1b p2b h2b Wb bb p _).trans
    (congrArg Ideal.logistic (pre_blocks T hT xb hb p1b h1b p2b h2b x h p1 h1 p2 h2 ex eh ep1 eh1 ep2 eh2 Wb bb p _)))).trans ?_
  rfl

/-! ## Each window's block at a grid point, read off its array -/

theorem hz : (![0, 0] : Fin 2 → Nat) = fun _ => 0 := funext fun a => by fin_cases a <;> rfl

theorem idx3_0 : ∀ t : Fin cfg3.N, win3_0.index t (0 : Fin 2) = t.val ∧ win3_0.index t (1 : Fin 2) = 0 :=
  (by decide +kernel : ∀ t : Fin grid3.N, _)

theorem blk3_0 (c : Dev nD) (t : Fin cfg3.N) (hT : t.val < 16) (p : Fin 4096) (q : Fin 64) :
    (iblk3 V c 0 t : Vec Ideal S4096x64 .f32) (ix2 p q) = (V c main_v18 : KSpec.A2 S65536x64) (ix2 (rowOf t.val hT p) q) := by
  obtain ⟨e0, e1⟩ := idx3_0 t
  unfold iblk3
  rw [View.read_apply]
  refine congrArg (V c main_v18 : S65536x64.Idx → EReal) (funext fun a => Fin.ext ?_)
  match a with
  | ⟨0, _⟩ => show win3_0.index t (0 : Fin 2) * 4096 + 1 * p.val = t.val * 4096 + p.val; rw [e0]; omega
  | ⟨1, _⟩ => show win3_0.index t (1 : Fin 2) * 64 + 1 * q.val = q.val; rw [e1]; omega

theorem idx3_1 : ∀ t : Fin cfg3.N, win3_1.index t (0 : Fin 2) = t.val ∧ win3_1.index t (1 : Fin 2) = 0 :=
  (by decide +kernel : ∀ t : Fin grid3.N, _)

theorem blk3_1 (c : Dev nD) (t : Fin cfg3.N) (hT : t.val < 16) (p : Fin 4096) (q : Fin 64) :
    (iblk3 V c 1 t : Vec Ideal S4096x64 .f32) (ix2 p q) = (V c main_v19 : KSpec.A2 S65536x64) (ix2 (rowOf t.val hT p) q) := by
  obtain ⟨e0, e1⟩ := idx3_1 t
  unfold iblk3
  rw [View.read_apply]
  refine congrArg (V c main_v19 : S65536x64.Idx → EReal) (funext fun a => Fin.ext ?_)
  match a with
  | ⟨0, _⟩ => show win3_1.index t (0 : Fin 2) * 4096 + 1 * p.val = t.val * 4096 + p.val; rw [e0]; omega
  | ⟨1, _⟩ => show win3_1.index t (1 : Fin 2) * 64 + 1 * q.val = q.val; rw [e1]; omega

theorem idx3_2 : ∀ t : Fin cfg3.N, win3_2.index t (0 : Fin 2) = t.val ∧ win3_2.index t (1 : Fin 2) = 0 :=
  (by decide +kernel : ∀ t : Fin grid3.N, _)

theorem blk3_2 (c : Dev nD) (t : Fin cfg3.N) (hT : t.val < 16) (p : Fin 4096) (q : Fin 64) :
    (iblk3 V c 2 t : Vec Ideal S4096x64 .f32) (ix2 p q) = (V c main_v20 : KSpec.A2 S65536x64) (ix2 (rowOf t.val hT p) q) := by
  obtain ⟨e0, e1⟩ := idx3_2 t
  unfold iblk3
  rw [View.read_apply]
  refine congrArg (V c main_v20 : S65536x64.Idx → EReal) (funext fun a => Fin.ext ?_)
  match a with
  | ⟨0, _⟩ => show win3_2.index t (0 : Fin 2) * 4096 + 1 * p.val = t.val * 4096 + p.val; rw [e0]; omega
  | ⟨1, _⟩ => show win3_2.index t (1 : Fin 2) * 64 + 1 * q.val = q.val; rw [e1]; omega

theorem idx3_3 : ∀ t : Fin cfg3.N, win3_3.index t (0 : Fin 2) = t.val ∧ win3_3.index t (1 : Fin 2) = 0 :=
  (by decide +kernel : ∀ t : Fin grid3.N, _)

theorem blk3_3 (c : Dev nD) (t : Fin cfg3.N) (hT : t.val < 16) (p : Fin 4096) (q : Fin 64) :
    (iblk3 V c 3 t : Vec Ideal S4096x64 .f32) (ix2 p q) = (V c main_v21 : KSpec.A2 S65536x64) (ix2 (rowOf t.val hT p) q) := by
  obtain ⟨e0, e1⟩ := idx3_3 t
  unfold iblk3
  rw [View.read_apply]
  refine congrArg (V c main_v21 : S65536x64.Idx → EReal) (funext fun a => Fin.ext ?_)
  match a with
  | ⟨0, _⟩ => show win3_3.index t (0 : Fin 2) * 4096 + 1 * p.val = t.val * 4096 + p.val; rw [e0]; omega
  | ⟨1, _⟩ => show win3_3.index t (1 : Fin 2) * 64 + 1 * q.val = q.val; rw [e1]; omega

theorem idx3_4 : ∀ t : Fin cfg3.N, win3_4.index t (0 : Fin 2) = t.val ∧ win3_4.index t (1 : Fin 2) = 0 :=
  (by decide +kernel : ∀ t : Fin grid3.N, _)

theorem blk3_4 (c : Dev nD) (t : Fin cfg3.N) (hT : t.val < 16) (p : Fin 4096) (q : Fin 64) :
    (iblk3 V c 4 t : Vec Ideal S4096x64 .f32) (ix2 p q) = (V c main_v22 : KSpec.A2 S65536x64) (ix2 (rowOf t.val hT p) q) := by
  obtain ⟨e0, e1⟩ := idx3_4 t
  unfold iblk3
  rw [View.read_apply]
  refine congrArg (V c main_v22 : S65536x64.Idx → EReal) (funext fun a => Fin.ext ?_)
  match a with
  | ⟨0, _⟩ => show win3_4.index t (0 : Fin 2) * 4096 + 1 * p.val = t.val * 4096 + p.val; rw [e0]; omega
  | ⟨1, _⟩ => show win3_4.index t (1 : Fin 2) * 64 + 1 * q.val = q.val; rw [e1]; omega

theorem idx3_5 : ∀ t : Fin cfg3.N, win3_5.index t (0 : Fin 2) = t.val ∧ win3_5.index t (1 : Fin 2) = 0 :=
  (by decide +kernel : ∀ t : Fin grid3.N, _)

theorem blk3_5 (c : Dev nD) (t : Fin cfg3.N) (hT : t.val < 16) (p : Fin 4096) (q : Fin 64) :
    (iblk3 V c 5 t : Vec Ideal S4096x64 .f32) (ix2 p q) = (V c main_v23 : KSpec.A2 S65536x64) (ix2 (rowOf t.val hT p) q) := by
  obtain ⟨e0, e1⟩ := idx3_5 t
  unfold iblk3
  rw [View.read_apply]
  refine congrArg (V c main_v23 : S65536x64.Idx → EReal) (funext fun a => Fin.ext ?_)
  match a with
  | ⟨0, _⟩ => show win3_5.index t (0 : Fin 2) * 4096 + 1 * p.val = t.val * 4096 + p.val; rw [e0]; omega
  | ⟨1, _⟩ => show win3_5.index t (1 : Fin 2) * 64 + 1 * q.val = q.val; rw [e1]; omega

theorem idx3_6 : ∀ t : Fin cfg3.N, win3_6.index t (0 : Fin 2) = 0 ∧ win3_6.index t (1 : Fin 2) = 0 :=
  (by decide +kernel : ∀ t : Fin grid3.N, _)

theorem blk3_6 (c : Dev nD) (t : Fin cfg3.N) :
    (iblk3 V c 6 t : Vec Ideal S384x128 .f32) = (V c main_v8 : KSpec.A2 S384x128) := by
  obtain ⟨e0, e1⟩ := idx3_6 t
  funext y
  unfold iblk3
  rw [View.read_apply]
  refine congrArg (V c main_v8 : S384x128.Idx → EReal) (funext fun a => Fin.ext ?_)
  match a with
  | ⟨0, _⟩ => show win3_6.index t (0 : Fin 2) * 384 + 1 * (y 0).val = (y 0).val; rw [e0]; omega
  | ⟨1, _⟩ => show win3_6.index t (1 : Fin 2) * 128 + 1 * (y 1).val = (y 1).val; rw [e1]; omega

theorem idx3_7 : ∀ t : Fin cfg3.N, win3_7.index t (0 : Fin 2) = 0 ∧ win3_7.index t (1 : Fin 2) = 0 :=
  (by decide +kernel : ∀ t : Fin grid3.N, _)

theorem blk3_7 (c : Dev nD) (t : Fin cfg3.N) :
    (iblk3 V c 7 t : Vec Ideal S1x128 .f32) = (V c main_v12 : KSpec.A2 S1x128) := by
  obtain ⟨e0, e1⟩ := idx3_7 t
  funext y
  unfold iblk3
  rw [View.read_apply]
  refine congrArg (V c main_v12 : S1x128.Idx → EReal) (funext fun a => Fin.ext ?_)
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-! ## The two outputs, block by block and then whole -/

theorem idx3_8 : ∀ t : Fin cfg3.N, win3_8.index t (0 : Fin 2) = t.val ∧ win3_8.index t (1 : Fin 2) = 0 :=
  (by decide +kernel : ∀ t : Fin grid3.N, _)

/-- What grid point t writes back to output window 8 is block t of the whole-array function. -/
theorem flushed3_8 (c : Dev nD) (t : Fin cfg3.N) :
    (dat3 (F := Ideal) V c).flushed 8 t = ((cfg3.win 8).blk t).view.read (Elt Ideal)
      (KSpec.GS0 (V c main_v18) (V c main_v19) (V c main_v20) (V c main_v21) (V c main_v22) (V c main_v23) (V c main_v8) (V c main_v12)) := by
  have hT : t.val < 16 := lt_of_lt_of_eq t.isLt (show cfg3.N = 16 from N_3)
  obtain ⟨e0, e1⟩ := idx3_8 t
  show (cfg3.win 8).cut (grid3.coords t) ((dat3 V c).after 8 t) = _
  rw [after3_8]
  unfold out3_8
  rw [View.canon_unit_zero hz]
  simp only [View.ld_unit_zero (S := S4096x64) hz, View.ld_unit_zero (S := S384x128) hz, View.ld_unit_zero (S := S1x128) hz]
  funext j
  obtain ⟨p, q, rfl⟩ : ∃ (p : Fin 4096) (q : Fin 64), j = ix2 p q := ⟨j 0, j 1, eq_ix2 j⟩
  refine (pay3_blocks t.val hT (iblk3 V c 1 t) (iblk3 V c 0 t) (iblk3 V c 2 t) (iblk3 V c 3 t) (iblk3 V c 4 t) (iblk3 V c 5 t)
    (V c main_v18) (V c main_v19) (V c main_v20) (V c main_v21) (V c main_v22) (V c main_v23)
    (blk3_0 V c t hT) (blk3_1 V c t hT) (blk3_2 V c t hT) (blk3_3 V c t hT) (blk3_4 V c t hT) (blk3_5 V c t hT)
    (iblk3 V c 6 t) (V c main_v8) (blk3_6 V c t) (iblk3 V c 7 t) (V c main_v12) (blk3_7 V c t) p q).trans ?_
  rw [View.read_apply]
  refine congrArg (KSpec.GS0 (V c main_v18) (V c main_v19) (V c main_v20) (V c main_v21) (V c main_v22) (V c main_v23) (V c main_v8) (V c main_v12)) (funext fun a => Fin.ext ?_)
  match a with
  | ⟨0, _⟩ => show t.val * 4096 + p.val = win3_8.index t (0 : Fin 2) * 4096 + 1 * p.val; rw [e0]; omega
  | ⟨1, _⟩ => show q.val = win3_8.index t (1 : Fin 2) * 64 + 1 * q.val; rw [e1]; omega

/-- An index of the array is in point t's block iff each coordinate is in the block's range on its axis. -/
theorem mem_blk3_8 (t : Fin cfg3.N) (i : S65536x64.Idx) :
    i ∈ ((cfg3.win 8).blk t).view.set ↔ ∀ a : Fin 2, win3_8.index t a * S4096x64.size a ≤ (i a).val ∧ (i a).val < win3_8.index t a * S4096x64.size a + S4096x64.size a := by
  show i ∈ ((View.whole main_v24_0).slice (win3_8.rect t)).set ↔ _
  rw [View.set_slice_whole, Rect.mem_set_unit]
  exact Iff.rfl

/-- Row r of the array lies in the block of grid point r / 4096. -/
theorem cover3_8' (i : S65536x64.Idx) : ∃ t : Fin cfg3.N, (cfg3.win 8).flush t = true ∧ i ∈ ((cfg3.win 8).blk t).view.set := by
  have hi0 : (i 0).val < 65536 := (i 0).isLt
  have hi1 : (i 1).val < 64 := (i 1).isLt
  have hN : cfg3.N = 16 := N_3
  refine ⟨⟨(i 0).val / 4096, by rw [hN]; omega⟩, flush3_8 _, ?_⟩
  obtain ⟨e0, e1⟩ := idx3_8 ⟨(i 0).val / 4096, by rw [hN]; omega⟩
  rw [mem_blk3_8]
  intro a
  match a with
  | ⟨0, _⟩ => show win3_8.index _ (0 : Fin 2) * 4096 ≤ (i 0).val ∧ (i 0).val < win3_8.index _ (0 : Fin 2) * 4096 + 4096; rw [e0]; show (i 0).val / 4096 * 4096 ≤ (i 0).val ∧ (i 0).val < (i 0).val / 4096 * 4096 + 4096; omega
  | ⟨1, _⟩ => show win3_8.index _ (1 : Fin 2) * 64 ≤ (i 1).val ∧ (i 1).val < win3_8.index _ (1 : Fin 2) * 64 + 64; rw [e1]; omega

theorem final3_8 (c : Dev nD) : (dat3 (F := Ideal) V c).arrAt 8 cfg3.N
    = KSpec.GS0 (V c main_v18) (V c main_v19) (V c main_v20) (V c main_v21) (V c main_v22) (V c main_v23) (V c main_v8) (V c main_v12) :=
  (dat3 (F := Ideal) V c).arrAt_eq_of_cover 8 (KSpec.GS0 (V c main_v18) (V c main_v19) (V c main_v20) (V c main_v21) (V c main_v22) (V c main_v23) (V c main_v8) (V c main_v12))
    (fun t _ => flushed3_8 V c t) cover3_8'

theorem idx3_9 : ∀ t : Fin cfg3.N, win3_9.index t (0 : Fin 2) = t.val ∧ win3_9.index t (1 : Fin 2) = 0 :=
  (by decide +kernel : ∀ t : Fin grid3.N, _)

/-- What grid point t writes back to output window 9 is block t of the whole-array function. -/
theorem flushed3_9 (c : Dev nD) (t : Fin cfg3.N) :
    (dat3 (F := Ideal) V c).flushed 9 t = ((cfg3.win 9).blk t).view.read (Elt Ideal)
      (KSpec.GU (V c main_v18) (V c main_v19) (V c main_v20) (V c main_v21) (V c main_v22) (V c main_v23) (V c main_v8) (V c main_v12)) := by
  have hT : t.val < 16 := lt_of_lt_of_eq t.isLt (show cfg3.N = 16 from N_3)
  obtain ⟨e0, e1⟩ := idx3_9 t
  show (cfg3.win 9).cut (grid3.coords t) ((dat3 V c).after 9 t) = _
  rw [after3_9]
  unfold out3_9
  rw [View.canon_unit_zero hz]
  simp only [View.ld_unit_zero (S := S4096x64) hz, View.ld_unit_zero (S := S384x128) hz, View.ld_unit_zero (S := S1x128) hz]
  funext j
  obtain ⟨p, q, rfl⟩ : ∃ (p : Fin 4096) (q : Fin 64), j = ix2 p q := ⟨j 0, j 1, eq_ix2 j⟩
  refine (pay4_blocks t.val hT (iblk3 V c 1 t) (iblk3 V c 0 t) (iblk3 V c 2 t) (iblk3 V c 3 t) (iblk3 V c 4 t) (iblk3 V c 5 t)
    (V c main_v18) (V c main_v19) (V c main_v20) (V c main_v21) (V c main_v22) (V c main_v23)
    (blk3_0 V c t hT) (blk3_1 V c t hT) (blk3_2 V c t hT) (blk3_3 V c t hT) (blk3_4 V c t hT) (blk3_5 V c t hT)
    (iblk3 V c 6 t) (V c main_v8) (blk3_6 V c t) (iblk3 V c 7 t) (V c main_v12) (blk3_7 V c t) p q).trans ?_
  rw [View.read_apply]
  refine congrArg (KSpec.GU (V c main_v18) (V c main_v19) (V c main_v20) (V c main_v21) (V c main_v22) (V c main_v23) (V c main_v8) (V c main_v12)) (funext fun a => Fin.ext ?_)
  match a with
  | ⟨0, _⟩ => show t.val * 4096 + p.val = win3_9.index t (0 : Fin 2) * 4096 + 1 * p.val; rw [e0]; omega
  | ⟨1, _⟩ => show q.val = win3_9.index t (1 : Fin 2) * 64 + 1 * q.val; rw [e1]; omega

/-- An index of the array is in point t's block iff each coordinate is in the block's range on its axis. -/
theorem mem_blk3_9 (t : Fin cfg3.N) (i : S65536x64.Idx) :
    i ∈ ((cfg3.win 9).blk t).view.set ↔ ∀ a : Fin 2, win3_9.index t a * S4096x64.size a ≤ (i a).val ∧ (i a).val < win3_9.index t a * S4096x64.size a + S4096x64.size a := by
  show i ∈ ((View.whole main_v24_1).slice (win3_9.rect t)).set ↔ _
  rw [View.set_slice_whole, Rect.mem_set_unit]
  exact Iff.rfl

/-- Row r of the array lies in the block of grid point r / 4096. -/
theorem cover3_9' (i : S65536x64.Idx) : ∃ t : Fin cfg3.N, (cfg3.win 9).flush t = true ∧ i ∈ ((cfg3.win 9).blk t).view.set := by
  have hi0 : (i 0).val < 65536 := (i 0).isLt
  have hi1 : (i 1).val < 64 := (i 1).isLt
  have hN : cfg3.N = 16 := N_3
  refine ⟨⟨(i 0).val / 4096, by rw [hN]; omega⟩, flush3_9 _, ?_⟩
  obtain ⟨e0, e1⟩ := idx3_9 ⟨(i 0).val / 4096, by rw [hN]; omega⟩
  rw [mem_blk3_9]
  intro a
  match a with
  | ⟨0, _⟩ => show win3_9.index _ (0 : Fin 2) * 4096 ≤ (i 0).val ∧ (i 0).val < win3_9.index _ (0 : Fin 2) * 4096 + 4096; rw [e0]; show (i 0).val / 4096 * 4096 ≤ (i 0).val ∧ (i 0).val < (i 0).val / 4096 * 4096 + 4096; omega
  | ⟨1, _⟩ => show win3_9.index _ (1 : Fin 2) * 64 ≤ (i 1).val ∧ (i 1).val < win3_9.index _ (1 : Fin 2) * 64 + 64; rw [e1]; omega

theorem final3_9 (c : Dev nD) : (dat3 (F := Ideal) V c).arrAt 9 cfg3.N
    = KSpec.GU (V c main_v18) (V c main_v19) (V c main_v20) (V c main_v21) (V c main_v22) (V c main_v23) (V c main_v8) (V c main_v12) :=
  (dat3 (F := Ideal) V c).arrAt_eq_of_cover 9 (KSpec.GU (V c main_v18) (V c main_v19) (V c main_v20) (V c main_v21) (V c main_v22) (V c main_v23) (V c main_v8) (V c main_v12))
    (fun t _ => flushed3_9 V c t) cover3_9'

end Cert.KernelIdeal.KReg3

end
-- ==== Proof.KReg4.lean ====
import proofs.«118218_g51479478010102_cont_8to1_c_652_2_alg».proof.Proof.Gen.KernelIdeal.Frame
import proofs.«118218_g51479478010102_cont_8to1_c_652_2_alg».proof.Proof.KSpec
import proofs.«118218_g51479478010102_cont_8to1_c_652_2_alg».proof.Proof.KMat512
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The body's loads and stores are at offset zero of their staging buffers. -/
private theorem hz : (![0, 0] : Fin 2 → Nat) = fun _ => 0 := funext fun a => by fin_cases a <;> rfl

/-- The payload, entry (p, q): row p of the matrix against column q of the block. -/
private theorem pay1_ix2 (x0 : Vec Ideal S1024x1024 .f32) (x1 : Vec Ideal S1024x512 .f32) (p : Fin 1024) (q : Fin 512) :
    k4_pay1 (F := Ideal) x0 x1 (ix2 p q) = ∑ k : Fin 1024, x0 (ix2 p k) * x1 (ix2 k q) := by
  unfold k4_pay1
  show matmul (F := Ideal) (φ₁ := .f32) (φ₂ := .f32) KMat512.dd none (shapeCast S1024x1024 x0 _)
    (shapeCast S1024x512 x1 _) (constant S1024x512 .f32 0x00000000#32) (ix2 p q) = _
  rw [shapeCast_self, shapeCast_self]
  exact KMat512.matmul_ix2 x0 x1 p q

/-- The index maps over the grid: the matrix window stays at block (0, 0); each column-blocked window is at
    block (0, t) at point t. -/
private theorem idx_facts : ∀ t : Fin cfg4.N, win4_0.index t (0 : Fin 2) = 0
    ∧ win4_0.index t (1 : Fin 2) = 0
    ∧ win4_1.index t (0 : Fin 2) = 0
    ∧ win4_1.index t (1 : Fin 2) = t.val
    ∧ win4_2.index t (0 : Fin 2) = 0
    ∧ win4_2.index t (1 : Fin 2) = t.val :=
  (by decide +kernel : ∀ t : Fin grid4.N, _)

set_option maxHeartbeats 400000 in
/-- What point t writes back to output window 2 is block t of the whole-array function. -/
private theorem flushed2_eq (c : Dev nD) (t : Fin cfg4.N) :
    (dat4 (F := Ideal) V c).flushed 2 t = ((cfg4.win 2).blk t).view.read (Elt Ideal) (KSpec.Gmm (V c main_v15) (V c main_v25)) := by
  show (cfg4.win 2).cut (grid4.coords t) ((dat4 (F := Ideal) V c).after 2 t) = _
  rw [after4_2]
  unfold out4_2
  rw [View.canon_unit_zero hz]
  simp only [View.ld_unit_zero (S := S1024x1024) hz, View.ld_unit_zero (S := S1024x512) hz]
  obtain ⟨e00, e01, e10, e11, e20, e21⟩ := idx_facts t
  funext j
  obtain ⟨p, q, rfl⟩ : ∃ (p : Fin 1024) (q : Fin 512), j = ix2 p q := ⟨j 0, j 1, eq_ix2 j⟩
  show k4_pay1 (F := Ideal) (iblk4 V c 0 t) (iblk4 V c 1 t) (ix2 p q) = KSpec.Gmm (V c main_v15) (V c main_v25) (((cfg4.win 2).blk t).view.emb (ix2 p q))
  refine (pay1_ix2 _ _ p q).trans ?_
  unfold KSpec.Gmm
  refine Finset.sum_congr rfl fun k _ => ?_
  have h0 : ((cfg4.win 0).blk t).view.emb (ix2 p k) = ix2 (⟨((((cfg4.win 2).blk t).view.emb (ix2 p q)) 0).val, idx2_lt0 _⟩ : Fin 1024) k := by
    funext a; apply Fin.ext
    match a with
    | ⟨0, _⟩ => show win4_0.index t (0 : Fin 2) * 1024 + 1 * p.val = win4_2.index t (0 : Fin 2) * 1024 + 1 * p.val; omega
    | ⟨1, _⟩ => show win4_0.index t (1 : Fin 2) * 1024 + 1 * k.val = k.val; omega
  have h1 : ((cfg4.win 1).blk t).view.emb (ix2 k q) = ix2 k (⟨((((cfg4.win 2).blk t).view.emb (ix2 p q)) 1).val, idx2_lt1 _⟩ : Fin 4096) := by
    funext a; apply Fin.ext
    match a with
    | ⟨0, _⟩ => show win4_1.index t (0 : Fin 2) * 1024 + 1 * k.val = k.val; omega
    | ⟨1, _⟩ => show win4_1.index t (1 : Fin 2) * 512 + 1 * q.val = win4_2.index t (1 : Fin 2) * 512 + 1 * q.val; omega
  exact congrArg₂ (fun a b : EReal => a * b) (congrArg (V c main_v15) h0) (congrArg (V c main_v25) h1)

/-- An index of the array is in point t's block of output window 2 iff each coordinate is in the block's range
    on its axis. -/
private theorem mem_blk2 (t : Fin cfg4.N) (i : S1024x4096.Idx) :
    i ∈ ((cfg4.win 2).blk t).view.set ↔ ∀ a : Fin 2, win4_2.index t a * S1024x512.size a ≤ (i a).val ∧ (i a).val < win4_2.index t a * S1024x512.size a + S1024x512.size a := by
  show i ∈ ((View.whole main_v26).slice (win4_2.rect t)).set ↔ _
  rw [View.set_slice_whole, Rect.mem_set_unit]
  exact Iff.rfl

/-- Every index of the array lies in the block of the point its column falls in. -/
private theorem cover2 (i : S1024x4096.Idx) : ∃ t : Fin cfg4.N, (cfg4.win 2).flush t = true ∧ i ∈ ((cfg4.win 2).blk t).view.set := by
  have hi0 : (i 0).val < 1024 := idx2_lt0 i
  have hi1 : (i 1).val < 4096 := idx2_lt1 i
  have hN : cfg4.N = 8 := N_4
  obtain ⟨t, ht⟩ : ∃ t : Fin cfg4.N, t.val = (i 1).val / 512 := ⟨⟨(i 1).val / 512, by rw [hN]; omega⟩, rfl⟩
  obtain ⟨e00, e01, e10, e11, e20, e21⟩ := idx_facts t
  refine ⟨t, flush4_2 t, ?_⟩
  rw [mem_blk2]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 512 ≤ (i 1).val ∧ (i 1).val < win4_2.index t (1 : Fin 2) * 512 + 512; omega

theorem final4_2 (c : Dev nD) : (dat4 (F := Ideal) V c).arrAt 2 cfg4.N = KSpec.Gmm (V c main_v15) (V c main_v25) :=
  (dat4 (F := Ideal) V c).arrAt_eq_of_cover 2 (KSpec.Gmm (V c main_v15) (V c main_v25)) (fun t _ => flushed2_eq V c t) cover2

end Cert.KernelIdeal.KReg4

end
-- ==== Proof.KReg5.lean ====
import proofs.«118218_g51479478010102_cont_8to1_c_652_2_alg».proof.Proof.Gen.KernelIdeal.Frame
import proofs.«118218_g51479478010102_cont_8to1_c_652_2_alg».proof.Proof.KSpec
import proofs.«118218_g51479478010102_cont_8to1_c_652_2_alg».proof.Proof.KMat512
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-- The body's loads and stores are at offset zero of their staging buffers. -/
private theorem hz : (![0, 0] : Fin 2 → Nat) = fun _ => 0 := funext fun a => by fin_cases a <;> rfl

/-- The payload, entry (p, q): twice row p of the matrix against column q of the first block, minus the second
    block's entry. -/
private theorem pay1_ix2 (x0 : Vec Ideal S1024x1024 .f32) (x1 x2 : Vec Ideal S1024x512 .f32) (p : Fin 1024) (q : Fin 512) :
    k5_pay1 (F := Ideal) x0 x1 x2 (ix2 p q) = KSpec.two * (∑ k : Fin 1024, x0 (ix2 p k) * x1 (ix2 k q)) - x2 (ix2 p q) := by
  unfold k5_pay1
  show KSpec.two * (matmul (F := Ideal) (φ₁ := .f32) (φ₂ := .f32) KMat512.dd none (shapeCast S1024x1024 x0 _)
    (shapeCast S1024x512 x1 _) (constant S1024x512 .f32 0x00000000#32) (ix2 p q)) - (shapeCast S1024x512 x2 _) (ix2 p q) = _
  rw [shapeCast_self, shapeCast_self, shapeCast_self, KMat512.matmul_ix2]

/-- The index maps over the grid: the matrix window stays at block (0, 0); each column-blocked window is at
    block (0, t) at point t. -/
private theorem idx_facts : ∀ t : Fin cfg5.N, win5_0.index t (0 : Fin 2) = 0
    ∧ win5_0.index t (1 : Fin 2) = 0
    ∧ win5_1.index t (0 : Fin 2) = 0
    ∧ win5_1.index t (1 : Fin 2) = t.val
    ∧ win5_2.index t (0 : Fin 2) = 0
    ∧ win5_2.index t (1 : Fin 2) = t.val
    ∧ win5_3.index t (0 : Fin 2) = 0
    ∧ win5_3.index t (1 : Fin 2) = t.val :=
  (by decide +kernel : ∀ t : Fin grid5.N, _)

set_option maxHeartbeats 400000 in
/-- What point t writes back to output window 3 is block t of the whole-array function. -/
private theorem flushed3_eq (c : Dev nD) (t : Fin cfg5.N) :
    (dat5 (F := Ideal) V c).flushed 3 t = ((cfg5.win 3).blk t).view.read (Elt Ideal) (KSpec.Gcheb (V c main_v15) (V c main_v26) (V c main_v25)) := by
  show (cfg5.win 3).cut (grid5.coords t) ((dat5 (F := Ideal) V c).after 3 t) = _
  rw [after5_3]
  unfold out5_3
  rw [View.canon_unit_zero hz]
  simp only [View.ld_unit_zero (S := S1024x1024) hz, View.ld_unit_zero (S := S1024x512) hz]
  obtain ⟨e00, e01, e10, e11, e20, e21, e30, e31⟩ := idx_facts t
  funext j
  obtain ⟨p, q, rfl⟩ : ∃ (p : Fin 1024) (q : Fin 512), j = ix2 p q := ⟨j 0, j 1, eq_ix2 j⟩
  show k5_pay1 (F := Ideal) (iblk5 V c 0 t) (iblk5 V c 1 t) (iblk5 V c 2 t) (ix2 p q) = KSpec.Gcheb (V c main_v15) (V c main_v26) (V c main_v25) (((cfg5.win 3).blk t).view.emb (ix2 p q))
  refine (pay1_ix2 _ _ _ p q).trans ?_
  unfold KSpec.Gcheb
  refine congrArg₂ (fun a b : EReal => KSpec.two * a - b) (Finset.sum_congr rfl fun k _ => ?_) ?_
  · have h0 : ((cfg5.win 0).blk t).view.emb (ix2 p k) = ix2 (⟨((((cfg5.win 3).blk t).view.emb (ix2 p q)) 0).val, idx2_lt0 _⟩ : Fin 1024) k := by
      funext a; apply Fin.ext
      match a with
      | ⟨0, _⟩ => show win5_0.index t (0 : Fin 2) * 1024 + 1 * p.val = win5_3.index t (0 : Fin 2) * 1024 + 1 * p.val; omega
      | ⟨1, _⟩ => show win5_0.index t (1 : Fin 2) * 1024 + 1 * k.val = k.val; omega
    have h1 : ((cfg5.win 1).blk t).view.emb (ix2 k q) = ix2 k (⟨((((cfg5.win 3).blk t).view.emb (ix2 p q)) 1).val, idx2_lt1 _⟩ : Fin 4096) := by
      funext a; apply Fin.ext
      match a with
      | ⟨0, _⟩ => show win5_1.index t (0 : Fin 2) * 1024 + 1 * k.val = k.val; omega
      | ⟨1, _⟩ => show win5_1.index t (1 : Fin 2) * 512 + 1 * q.val = win5_3.index t (1 : Fin 2) * 512 + 1 * q.val; omega
    exact congrArg₂ (fun a b : EReal => a * b) (congrArg (V c main_v15) h0) (congrArg (V c main_v26) h1)
  · have h2 : ((cfg5.win 2).blk t).view.emb (ix2 p q) = ((cfg5.win 3).blk t).view.emb (ix2 p q) := by
      funext a; apply Fin.ext
      match a with
      | ⟨0, _⟩ => show win5_2.index t (0 : Fin 2) * 1024 + 1 * p.val = win5_3.index t (0 : Fin 2) * 1024 + 1 * p.val; omega
      | ⟨1, _⟩ => show win5_2.index t (1 : Fin 2) * 512 + 1 * q.val = win5_3.index t (1 : Fin 2) * 512 + 1 * q.val; omega
    exact congrArg (V c main_v25) h2

/-- An index of the array is in point t's block of output window 3 iff each coordinate is in the block's range
    on its axis. -/
private theorem mem_blk3 (t : Fin cfg5.N) (i : S1024x4096.Idx) :
    i ∈ ((cfg5.win 3).blk t).view.set ↔ ∀ a : Fin 2, win5_3.index t a * S1024x512.size a ≤ (i a).val ∧ (i a).val < win5_3.index t a * S1024x512.size a + S1024x512.size a := by
  show i ∈ ((View.whole main_v27).slice (win5_3.rect t)).set ↔ _
  rw [View.set_slice_whole, Rect.mem_set_unit]
  exact Iff.rfl

/-- Every index of the array lies in the block of the point its column falls in. -/
private theorem cover3 (i : S1024x4096.Idx) : ∃ t : Fin cfg5.N, (cfg5.win 3).flush t = true ∧ i ∈ ((cfg5.win 3).blk t).view.set := by
  have hi0 : (i 0).val < 1024 := idx2_lt0 i
  have hi1 : (i 1).val < 4096 := idx2_lt1 i
  have hN : cfg5.N = 8 := N_5
  obtain ⟨t, ht⟩ : ∃ t : Fin cfg5.N, t.val = (i 1).val / 512 := ⟨⟨(i 1).val / 512, by rw [hN]; omega⟩, rfl⟩
  obtain ⟨e00, e01, e10, e11, e20, e21, e30, e31⟩ := idx_facts t
  refine ⟨t, flush5_3 t, ?_⟩
  rw [mem_blk3]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 512 ≤ (i 1).val ∧ (i 1).val < win5_3.index t (1 : Fin 2) * 512 + 512; omega

theorem final5_3 (c : Dev nD) : (dat5 (F := Ideal) V c).arrAt 3 cfg5.N = KSpec.Gcheb (V c main_v15) (V c main_v26) (V c main_v25) :=
  (dat5 (F := Ideal) V c).arrAt_eq_of_cover 3 (KSpec.Gcheb (V c main_v15) (V c main_v26) (V c main_v25)) (fun t _ => flushed3_eq V c t) cover3

end Cert.KernelIdeal.KReg5

end
-- ==== Proof.KReg6.lean ====
/-
  The final launch, read whole.  Grid point t holds rows t·4096 … t·4096 + 4095 of the eight [65536, 64] inputs; the
  body lays six blocks side by side in the order x, s0, p1, s1, p2, s2 (384 columns), multiplies by the weights, adds
  the bias row, takes the hyperbolic tangent c, and stores u·h + (1 − u)·c.  Each block a point writes back is the
  corresponding rows of one function of the whole arrays, and the sixteen blocks cover the array.
-/
import proofs.«118218_g51479478010102_cont_8to1_c_652_2_alg».proof.Proof.Gen.KernelIdeal.Frame
import proofs.«118218_g51479478010102_cont_8to1_c_652_2_alg».proof.Proof.KSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.KReg6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

variable (V : (c : Dev nD) → (b : Ref sig .tc) → Buf (Elt Ideal) ((c : Thread nD τ).loc b))

/-! ## Small facts about the body's operations, at one index -/

/-- Six 64-wide pieces joined along the columns: column j of row p is piece j / 64 at column j % 64. -/
theorem cat_apply (a0 a1 a2 a3 a4 a5 : Vec Ideal S4096x64 .f32)
    (h : Shape.Concatenates (([⟨S4096x64, a0⟩, ⟨S4096x64, a1⟩, ⟨S4096x64, a2⟩, ⟨S4096x64, a3⟩, ⟨S4096x64, a4⟩, ⟨S4096x64, a5⟩] :
      List ((s : Shape) × (s.Idx → Elt Ideal .f32))).map (·.1)) S4096x384 1) (p : Fin 4096) (j : Fin 384) :
    concatenate S4096x384 1 [⟨S4096x64, a0⟩, ⟨S4096x64, a1⟩, ⟨S4096x64, a2⟩, ⟨S4096x64, a3⟩, ⟨S4096x64, a4⟩, ⟨S4096x64, a5⟩] h (ix2 p j)
      = (![a0, a1, a2, a3, a4, a5] : Fin 6 → Vec Ideal S4096x64 .f32) ⟨j.val / 64, by have := j.isLt; omega⟩
          (ix2 p (⟨j.val % 64, Nat.mod_lt _ (by decide)⟩ : Fin 64)) := by
  exact concatenate_ofFn_apply (t := S4096x384) (s₁ := S4096x64) 1
    (![a0, a1, a2, a3, a4, a5] : Fin 6 → Vec Ideal S4096x64 .f32)
    h rfl 64 rfl (ix2 p j)
    ⟨j.val / 64, by have := j.isLt; omega⟩ rfl (ix2 p (⟨j.val % 64, Nat.mod_lt _ (by decide)⟩ : Fin 64)) rfl
    (fun b hb => by
      match b with
      | ⟨0, _⟩ => rfl
      | ⟨1, _⟩ => exact absurd rfl hb)

/-! The matrix product read at one entry: the contraction over the single shared axis. -/

theorem lhs_mm64_0 (i : S4096x64.Idx) (q : dot_S4096x384_S384x64_S4096x64_1_0_0_1_n_n.contr.Idx) :
    (dot_S4096x384_S384x64_S4096x64_1_0_0_1_n_n.lhsIdx i q 0).val = (i 0).val := by
  unfold DotDims.lhsIdx
  rw [dif_neg (show ¬(0 : Fin S4096x384.rank) ∈ dot_S4096x384_S384x64_S4096x64_1_0_0_1_n_n.lhsBatch by decide), dif_pos (show (0 : Fin S4096x384.rank) ∈ dot_S4096x384_S384x64_S4096x64_1_0_0_1_n_n.lhsNonContracting by decide)]
  rfl
theorem lhs_mm64_1 (i : S4096x64.Idx) (q : dot_S4096x384_S384x64_S4096x64_1_0_0_1_n_n.contr.Idx) :
    (dot_S4096x384_S384x64_S4096x64_1_0_0_1_n_n.lhsIdx i q 1).val = (q ⟨0, by decide⟩).val :=
  dot_S4096x384_S384x64_S4096x64_1_0_0_1_n_n.lhsIdx_val_of_single rfl i q
theorem rhs_mm64_0 (i : S4096x64.Idx) (q : dot_S4096x384_S384x64_S4096x64_1_0_0_1_n_n.contr.Idx) :
    (dot_S4096x384_S384x64_S4096x64_1_0_0_1_n_n.rhsIdx i q 0).val = (q ⟨0, by decide⟩).val :=
  dot_S4096x384_S384x64_S4096x64_1_0_0_1_n_n.rhsIdx_val_of_single rfl i q
theorem rhs_mm64_1 (i : S4096x64.Idx) (q : dot_S4096x384_S384x64_S4096x64_1_0_0_1_n_n.contr.Idx) :
    (dot_S4096x384_S384x64_S4096x64_1_0_0_1_n_n.rhsIdx i q 1).val = (i 1).val := by
  unfold DotDims.rhsIdx
  rw [dif_neg (show ¬(1 : Fin S384x64.rank) ∈ dot_S4096x384_S384x64_S4096x64_1_0_0_1_n_n.rhsBatch by decide), dif_pos (show (1 : Fin S384x64.rank) ∈ dot_S4096x384_S384x64_S4096x64_1_0_0_1_n_n.rhsNonContracting by decide)]
  rfl

/-- Entry (p, q) of the product into a zero accumulator is the sum over the 384 shared columns. -/
theorem mm64_apply (l : FVec Ideal S4096x384 .f32) (r : FVec Ideal S384x64 .f32) (p : Fin 4096) (q : Fin 64) :
    matmul dot_S4096x384_S384x64_S4096x64_1_0_0_1_n_n none l r (constant (F := Ideal) S4096x64 .f32 0x00000000#32) (ix2 p q)
      = ∑ j : Fin 384, l (ix2 p j) * r (ix2 j q) := by
  refine (Ideal.matmul_constant_zero_apply dot_S4096x384_S384x64_S4096x64_1_0_0_1_n_n none l r (ix2 p q)).trans ?_
  rw [← Equiv.sum_comp (ValueIdx.contrEquiv1 dot_S4096x384_S384x64_S4096x64_1_0_0_1_n_n 384 rfl rfl).symm]
  refine Finset.sum_congr rfl fun k _ => ?_
  have hk := ValueIdx.contrEquiv1_symm_val dot_S4096x384_S384x64_S4096x64_1_0_0_1_n_n 384 rfl rfl k
  have el : dot_S4096x384_S384x64_S4096x64_1_0_0_1_n_n.lhsIdx (ix2 p q) ((ValueIdx.contrEquiv1 dot_S4096x384_S384x64_S4096x64_1_0_0_1_n_n 384 rfl rfl).symm k) = ix2 p k := funext fun a => Fin.ext (by
    match a with
    | ⟨0, _⟩ => exact lhs_mm64_0 _ _
    | ⟨1, _⟩ => exact (lhs_mm64_1 _ _).trans hk)
  have er : dot_S4096x384_S384x64_S4096x64_1_0_0_1_n_n.rhsIdx (ix2 p q) ((ValueIdx.contrEquiv1 dot_S4096x384_S384x64_S4096x64_1_0_0_1_n_n 384 rfl rfl).symm k) = ix2 k q := funext fun a => Fin.ext (by
    match a with
    | ⟨0, _⟩ => exact (rhs_mm64_0 _ _).trans hk
    | ⟨1, _⟩ => exact rhs_mm64_1 _ _)
  rw [el, er]

/-- The bias row spread over the 4096 rows: every row reads the one row. -/
theorem bcast_apply (b : Vec Ideal S1x64 .f32) (h : S1x64.Broadcasts S4096x64) (p : Fin 4096) (q : Fin 64) :
    broadcastTo S4096x64 b h (ix2 p q) = b (ix2 (0 : Fin 1) q) :=
  broadcastTo_apply b h (ix2 p q) (ix2 (0 : Fin 1) q) (fun a => by
    match a with
    | ⟨0, _⟩ => rfl
    | ⟨1, _⟩ => rfl)

/-! ## The body's value at one index, over the loaded blocks -/

/-- Row p of six blocks side by side against column q of the weights, plus the bias. -/
def preB (a : Fin 6 → Vec Ideal S4096x64 .f32) (W : Vec Ideal S384x64 .f32) (b : Vec Ideal S1x64 .f32) (p : Fin 4096) (q : Fin 64) : EReal :=
  (∑ j : Fin 384, a ⟨j.val / 64, by have := j.isLt; omega⟩ (ix2 p (⟨j.val % 64, Nat.mod_lt _ (by decide)⟩ : Fin 64)) * W (ix2 j q))
    + b (ix2 (0 : Fin 1) q)

/-- The stored value at (p, q): u·h + (1 − u)·tanh of the pre-activation; the literal one is the real one. -/
theorem pay1_apply (x s0 p1 s1 p2 s2 : Vec Ideal S4096x64 .f32) (W : Vec Ideal S384x64 .f32) (b : Vec Ideal S1x64 .f32)
    (u h : Vec Ideal S4096x64 .f32) (p : Fin 4096) (q : Fin 64) :
    k6_pay1 (F := Ideal) x s0 p1 s1 p2 s2 W b u h (ix2 p q)
      = u (ix2 p q) * h (ix2 p q) + (1 - u (ix2 p q)) * Ideal.tanh (preB ![x, s0, p1, s1, p2, s2] W b p q) := by
  unfold k6_pay1
  simp only [shapeCast_self]
  refine congrArg₂ (· + ·) rfl (congrArg₂ (· * ·) (congrArg (· - _) Ideal.ofBits_one_f32) (congrArg Ideal.tanh ?_))
  refine congrArg₂ (· + ·) ((mm64_apply _ _ p q).trans ?_) (bcast_apply _ _ p q)
  refine Finset.sum_congr rfl fun j _ => ?_
  rw [cat_apply]
  simp only [shapeCast_self]

/-! ## From the blocks of one grid point to the whole arrays -/

/-- Row T·4096 + p of a 65536-row array: row p of the block of grid point T. -/
def rowOf (T : Nat) (hT : T < 16) (p : Fin 4096) : Fin 65536 := ⟨T * 4096 + p.val, by have := p.isLt; omega⟩

/-- Six blocks that are the rows of six arrays, piece by piece. -/
theorem six_blocks (T : Nat) (hT : T < 16) (b0 b1 b2 b3 b4 b5 : Vec Ideal S4096x64 .f32) (a0 a1 a2 a3 a4 a5 : KSpec.A2 S65536x64)
    (e0 : ∀ (p : Fin 4096) (q : Fin 64), b0 (ix2 p q) = a0 (ix2 (rowOf T hT p) q))
    (e1 : ∀ (p : Fin 4096) (q : Fin 64), b1 (ix2 p q) = a1 (ix2 (rowOf T hT p) q))
    (e2 : ∀ (p : Fin 4096) (q : Fin 64), b2 (ix2 p q) = a2 (ix2 (rowOf T hT p) q))
    (e3 : ∀ (p : Fin 4096) (q : Fin 64), b3 (ix2 p q) = a3 (ix2 (rowOf T hT p) q))
    (e4 : ∀ (p : Fin 4096) (q : Fin 64), b4 (ix2 p q) = a4 (ix2 (rowOf T hT p) q))
    (e5 : ∀ (p : Fin 4096) (q : Fin 64), b5 (ix2 p q) = a5 (ix2 (rowOf T hT p) q))
    (n : Fin 6) (p : Fin 4096) (q : Fin 64) :
    (![b0, b1, b2, b3, b4, b5] : Fin 6 → Vec Ideal S4096x64 .f32) n (ix2 p q)
      = (![a0, a1, a2, a3, a4, a5] : Fin 6 → KSpec.A2 S65536x64) n (ix2 (rowOf T hT p) q) := by
  match n with
  | ⟨0, _⟩ => exact e0 p q
  | ⟨1, _⟩ => exact e1 p q
  | ⟨2, _⟩ => exact e2 p q
  | ⟨3, _⟩ => exact e3 p q
  | ⟨4, _⟩ => exact e4 p q
  | ⟨5, _⟩ => exact e5 p q

/-- So the pre-activation over the blocks is the whole-array pre-activation at the block's row. -/
theorem pre_blocks (T : Nat) (hT : T < 16) (b0 b1 b2 b3 b4 b5 : Vec Ideal S4096x64 .f32) (a0 a1 a2 a3 a4 a5 : KSpec.A2 S65536x64)
    (e0 : ∀ (p : Fin 4096) (q : Fin 64), b0 (ix2 p q) = a0 (ix2 (rowOf T hT p) q))
    (e1 : ∀ (p : Fin 4096) (q : Fin 64), b1 (ix2 p q) = a1 (ix2 (rowOf T hT p) q))
    (e2 : ∀ (p : Fin 4096) (q : Fin 64), b2 (ix2 p q) = a2 (ix2 (rowOf T hT p) q))
    (e3 : ∀ (p : Fin 4096) (q : Fin 64), b3 (ix2 p q) = a3 (ix2 (rowOf T hT p) q))
    (e4 : ∀ (p : Fin 4096) (q : Fin 64), b4 (ix2 p q) = a4 (ix2 (rowOf T hT p) q))
    (e5 : ∀ (p : Fin 4096) (q : Fin 64), b5 (ix2 p q) = a5 (ix2 (rowOf T hT p) q))
    (W : KSpec.A2 S384x64) (bias : KSpec.A2 S1x64) (p : Fin 4096) (q : Fin 64) :
    preB ![b0, b1, b2, b3, b4, b5] W bias p q = KSpec.Gpre64 ![a0, a1, a2, a3, a4, a5] W bias (rowOf T hT p) q := by
  unfold preB KSpec.Gpre64 KSpec.cat6
  refine congrArg (· + _) (Finset.sum_congr rfl fun j _ => congrArg (· * _) ?_)
  exact six_blocks T hT b0 b1 b2 b3 b4 b5 a0 a1 a2 a3 a4 a5 e0 e1 e2 e3 e4 e5 _ p _

/-- The stored value at (p, q), read off the whole arrays. -/
theorem pay1_blocks (T : Nat) (hT : T < 16) (xb s0b p1b s1b p2b s2b hb ub : Vec Ideal S4096x64 .f32) (x s0 p1 s1 p2 s2 h u : KSpec.A2 S65536x64)
    (ex : ∀ (p : Fin 4096) (q : Fin 64), xb (ix2 p q) = x (ix2 (rowOf T hT p) q))
    (es0 : ∀ (p : Fin 4096) (q : Fin 64), s0b (ix2 p q) = s0 (ix2 (rowOf T hT p) q))
    (ep1 : ∀ (p : Fin 4096) (q : Fin 64), p1b (ix2 p q) = p1 (ix2 (rowOf T hT p) q))
    (es1 : ∀ (p : Fin 4096) (q : Fin 64), s1b (ix2 p q) = s1 (ix2 (rowOf T hT p) q))
    (ep2 : ∀ (p : Fin 4096) (q : Fin 64), p2b (ix2 p q) = p2 (ix2 (rowOf T hT p) q))
    (es2 : ∀ (p : Fin 4096) (q : Fin 64), s2b (ix2 p q) = s2 (ix2 (rowOf T hT p) q))
    (eh : ∀ (p : Fin 4096) (q : Fin 64), hb (ix2 p q) = h (ix2 (rowOf T hT p) q))
    (eu : ∀ (p : Fin 4096) (q : Fin 64), ub (ix2 p q) = u (ix2 (rowOf T hT p) q))
    (Wb W : KSpec.A2 S384x64) (eW : Wb = W) (bb bias : KSpec.A2 S1x64) (eb : bb = bias) (p : Fin 4096) (q : Fin 64) :
    k6_pay1 (F := Ideal) xb s0b p1b s1b p2b s2b Wb bb ub hb (ix2 p q) = KSpec.Gfin x s0 p1 s1 p2 s2 h u W bias (ix2 (rowOf T hT p) q) := by
  subst eW eb
  refine (pay1_apply xb s0b p1b s1b p2b s2b Wb bb ub hb p q).trans ?_
  rw [eu p q, eh p q, pre_blocks T hT xb s0b p1b s1b p2b s2b x s0 p1 s1 p2 s2 ex es0 ep1 es1 ep2 es2 Wb bb p q]
  rfl

/-! ## Each window's block at a grid point, read off its array -/

theorem hz : (![0, 0] : Fin 2 → Nat) = fun _ => 0 := funext fun a => by fin_cases a <;> rfl

theorem idx6_0 : ∀ t : Fin cfg6.N, win6_0.index t (0 : Fin 2) = t.val ∧ win6_0.index t (1 : Fin 2) = 0 :=
  (by decide +kernel : ∀ t : Fin grid6.N, _)

theorem blk6_0 (c : Dev nD) (t : Fin cfg6.N) (hT : t.val < 16) (p : Fin 4096) (q : Fin 64) :
    (iblk6 V c 0 t : Vec Ideal S4096x64 .f32) (ix2 p q) = (V c main_v28 : KSpec.A2 S65536x64) (ix2 (rowOf t.val hT p) q) := by
  obtain ⟨e0, e1⟩ := idx6_0 t
  unfold iblk6
  rw [View.read_apply]
  refine congrArg (V c main_v28 : S65536x64.Idx → EReal) (funext fun a => Fin.ext ?_)
  match a with
  | ⟨0, _⟩ => show win6_0.index t (0 : Fin 2) * 4096 + 1 * p.val = t.val * 4096 + p.val; rw [e0]; omega
  | ⟨1, _⟩ => show win6_0.index t (1 : Fin 2) * 64 + 1 * q.val = q.val; rw [e1]; omega

theorem idx6_1 : ∀ t : Fin cfg6.N, win6_1.index t (0 : Fin 2) = t.val ∧ win6_1.index t (1 : Fin 2) = 0 :=
  (by decide +kernel : ∀ t : Fin grid6.N, _)

theorem blk6_1 (c : Dev nD) (t : Fin cfg6.N) (hT : t.val < 16) (p : Fin 4096) (q : Fin 64) :
    (iblk6 V c 1 t : Vec Ideal S4096x64 .f32) (ix2 p q) = (V c main_v24_0 : KSpec.A2 S65536x64) (ix2 (rowOf t.val hT p) q) := by
  obtain ⟨e0, e1⟩ := idx6_1 t
  unfold iblk6
  rw [View.read_apply]
  refine congrArg (V c main_v24_0 : S65536x64.Idx → EReal) (funext fun a => Fin.ext ?_)
  match a with
  | ⟨0, _⟩ => show win6_1.index t (0 : Fin 2) * 4096 + 1 * p.val = t.val * 4096 + p.val; rw [e0]; omega
  | ⟨1, _⟩ => show win6_1.index t (1 : Fin 2) * 64 + 1 * q.val = q.val; rw [e1]; omega

theorem idx6_2 : ∀ t : Fin cfg6.N, win6_2.index t (0 : Fin 2) = t.val ∧ win6_2.index t (1 : Fin 2) = 0 :=
  (by decide +kernel : ∀ t : Fin grid6.N, _)

theorem blk6_2 (c : Dev nD) (t : Fin cfg6.N) (hT : t.val < 16) (p : Fin 4096) (q : Fin 64) :
    (iblk6 V c 2 t : Vec Ideal S4096x64 .f32) (ix2 p q) = (V c main_v29 : KSpec.A2 S65536x64) (ix2 (rowOf t.val hT p) q) := by
  obtain ⟨e0, e1⟩ := idx6_2 t
  unfold iblk6
  rw [View.read_apply]
  refine congrArg (V c main_v29 : S65536x64.Idx → EReal) (funext fun a => Fin.ext ?_)
  match a with
  | ⟨0, _⟩ => show win6_2.index t (0 : Fin 2) * 4096 + 1 * p.val = t.val * 4096 + p.val; rw [e0]; omega
  | ⟨1, _⟩ => show win6_2.index t (1 : Fin 2) * 64 + 1 * q.val = q.val; rw [e1]; omega

theorem idx6_3 : ∀ t : Fin cfg6.N, win6_3.index t (0 : Fin 2) = t.val ∧ win6_3.index t (1 : Fin 2) = 0 :=
  (by decide +kernel : ∀ t : Fin grid6.N, _)

theorem blk6_3 (c : Dev nD) (t : Fin cfg6.N) (hT : t.val < 16) (p : Fin 4096) (q : Fin 64) :
    (iblk6 V c 3 t : Vec Ideal S4096x64 .f32) (ix2 p q) = (V c main_v30 : KSpec.A2 S65536x64) (ix2 (rowOf t.val hT p) q) := by
  obtain ⟨e0, e1⟩ := idx6_3 t
  unfold iblk6
  rw [View.read_apply]
  refine congrArg (V c main_v30 : S65536x64.Idx → EReal) (funext fun a => Fin.ext ?_)
  match a with
  | ⟨0, _⟩ => show win6_3.index t (0 : Fin 2) * 4096 + 1 * p.val = t.val * 4096 + p.val; rw [e0]; omega
  | ⟨1, _⟩ => show win6_3.index t (1 : Fin 2) * 64 + 1 * q.val = q.val; rw [e1]; omega

theorem idx6_4 : ∀ t : Fin cfg6.N, win6_4.index t (0 : Fin 2) = t.val ∧ win6_4.index t (1 : Fin 2) = 0 :=
  (by decide +kernel : ∀ t : Fin grid6.N, _)

theorem blk6_4 (c : Dev nD) (t : Fin cfg6.N) (hT : t.val < 16) (p : Fin 4096) (q : Fin 64) :
    (iblk6 V c 4 t : Vec Ideal S4096x64 .f32) (ix2 p q) = (V c main_v31 : KSpec.A2 S65536x64) (ix2 (rowOf t.val hT p) q) := by
  obtain ⟨e0, e1⟩ := idx6_4 t
  unfold iblk6
  rw [View.read_apply]
  refine congrArg (V c main_v31 : S65536x64.Idx → EReal) (funext fun a => Fin.ext ?_)
  match a with
  | ⟨0, _⟩ => show win6_4.index t (0 : Fin 2) * 4096 + 1 * p.val = t.val * 4096 + p.val; rw [e0]; omega
  | ⟨1, _⟩ => show win6_4.index t (1 : Fin 2) * 64 + 1 * q.val = q.val; rw [e1]; omega

theorem idx6_5 : ∀ t : Fin cfg6.N, win6_5.index t (0 : Fin 2) = t.val ∧ win6_5.index t (1 : Fin 2) = 0 :=
  (by decide +kernel : ∀ t : Fin grid6.N, _)

theorem blk6_5 (c : Dev nD) (t : Fin cfg6.N) (hT : t.val < 16) (p : Fin 4096) (q : Fin 64) :
    (iblk6 V c 5 t : Vec Ideal S4096x64 .f32) (ix2 p q) = (V c main_v32 : KSpec.A2 S65536x64) (ix2 (rowOf t.val hT p) q) := by
  obtain ⟨e0, e1⟩ := idx6_5 t
  unfold iblk6
  rw [View.read_apply]
  refine congrArg (V c main_v32 : S65536x64.Idx → EReal) (funext fun a => Fin.ext ?_)
  match a with
  | ⟨0, _⟩ => show win6_5.index t (0 : Fin 2) * 4096 + 1 * p.val = t.val * 4096 + p.val; rw [e0]; omega
  | ⟨1, _⟩ => show win6_5.index t (1 : Fin 2) * 64 + 1 * q.val = q.val; rw [e1]; omega

theorem idx6_6 : ∀ t : Fin cfg6.N, win6_6.index t (0 : Fin 2) = t.val ∧ win6_6.index t (1 : Fin 2) = 0 :=
  (by decide +kernel : ∀ t : Fin grid6.N, _)

theorem blk6_6 (c : Dev nD) (t : Fin cfg6.N) (hT : t.val < 16) (p : Fin 4096) (q : Fin 64) :
    (iblk6 V c 6 t : Vec Ideal S4096x64 .f32) (ix2 p q) = (V c main_v33 : KSpec.A2 S65536x64) (ix2 (rowOf t.val hT p) q) := by
  obtain ⟨e0, e1⟩ := idx6_6 t
  unfold iblk6
  rw [View.read_apply]
  refine congrArg (V c main_v33 : S65536x64.Idx → EReal) (funext fun a => Fin.ext ?_)
  match a with
  | ⟨0, _⟩ => show win6_6.index t (0 : Fin 2) * 4096 + 1 * p.val = t.val * 4096 + p.val; rw [e0]; omega
  | ⟨1, _⟩ => show win6_6.index t (1 : Fin 2) * 64 + 1 * q.val = q.val; rw [e1]; omega

theorem idx6_7 : ∀ t : Fin cfg6.N, win6_7.index t (0 : Fin 2) = t.val ∧ win6_7.index t (1 : Fin 2) = 0 :=
  (by decide +kernel : ∀ t : Fin grid6.N, _)

theorem blk6_7 (c : Dev nD) (t : Fin cfg6.N) (hT : t.val < 16) (p : Fin 4096) (q : Fin 64) :
    (iblk6 V c 7 t : Vec Ideal S4096x64 .f32) (ix2 p q) = (V c main_v24_1 : KSpec.A2 S65536x64) (ix2 (rowOf t.val hT p) q) := by
  obtain ⟨e0, e1⟩ := idx6_7 t
  unfold iblk6
  rw [View.read_apply]
  refine congrArg (V c main_v24_1 : S65536x64.Idx → EReal) (funext fun a => Fin.ext ?_)
  match a with
  | ⟨0, _⟩ => show win6_7.index t (0 : Fin 2) * 4096 + 1 * p.val = t.val * 4096 + p.val; rw [e0]; omega
  | ⟨1, _⟩ => show win6_7.index t (1 : Fin 2) * 64 + 1 * q.val = q.val; rw [e1]; omega

theorem idx6_8 : ∀ t : Fin cfg6.N, win6_8.index t (0 : Fin 2) = 0 ∧ win6_8.index t (1 : Fin 2) = 0 :=
  (by decide +kernel : ∀ t : Fin grid6.N, _)

theorem blk6_8 (c : Dev nD) (t : Fin cfg6.N) :
    (iblk6 V c 8 t : Vec Ideal S384x64 .f32) = (V c main_v11 : KSpec.A2 S384x64) := by
  obtain ⟨e0, e1⟩ := idx6_8 t
  funext y
  unfold iblk6
  rw [View.read_apply]
  refine congrArg (V c main_v11 : S384x64.Idx → EReal) (funext fun a => Fin.ext ?_)
  match a with
  | ⟨0, _⟩ => show win6_8.index t (0 : Fin 2) * 384 + 1 * (y 0).val = (y 0).val; rw [e0]; omega
  | ⟨1, _⟩ => show win6_8.index t (1 : Fin 2) * 64 + 1 * (y 1).val = (y 1).val; rw [e1]; omega

theorem idx6_9 : ∀ t : Fin cfg6.N, win6_9.index t (0 : Fin 2) = 0 ∧ win6_9.index t (1 : Fin 2) = 0 :=
  (by decide +kernel : ∀ t : Fin grid6.N, _)

theorem blk6_9 (c : Dev nD) (t : Fin cfg6.N) :
    (iblk6 V c 9 t : Vec Ideal S1x64 .f32) = (V c main_v13 : KSpec.A2 S1x64) := by
  obtain ⟨e0, e1⟩ := idx6_9 t
  funext y
  unfold iblk6
  rw [View.read_apply]
  refine congrArg (V c main_v13 : S1x64.Idx → EReal) (funext fun a => Fin.ext ?_)
  match a with
  | ⟨0, _⟩ => show win6_9.index t (0 : Fin 2) * 1 + 1 * (y 0).val = (y 0).val; rw [e0]; omega
  | ⟨1, _⟩ => show win6_9.index t (1 : Fin 2) * 64 + 1 * (y 1).val = (y 1).val; rw [e1]; omega

/-! ## The output, block by block and then whole -/

theorem idx6_10 : ∀ t : Fin cfg6.N, win6_10.index t (0 : Fin 2) = t.val ∧ win6_10.index t (1 : Fin 2) = 0 :=
  (by decide +kernel : ∀ t : Fin grid6.N, _)

/-- What grid point t writes back to the output window is block t of the whole-array function. -/
theorem flushed6_10 (c : Dev nD) (t : Fin cfg6.N) :
    (dat6 (F := Ideal) V c).flushed 10 t = ((cfg6.win 10).blk t).view.read (Elt Ideal)
      (KSpec.Gfin (V c main_v28) (V c main_v24_0) (V c main_v29) (V c main_v30) (V c main_v31) (V c main_v32) (V c main_v33) (V c main_v24_1) (V c main_v11) (V c main_v13)) := by
  have hT : t.val < 16 := lt_of_lt_of_eq t.isLt (show cfg6.N = 16 from N_6)
  obtain ⟨e0, e1⟩ := idx6_10 t
  show (cfg6.win 10).cut (grid6.coords t) ((dat6 V c).after 10 t) = _
  rw [after6_10]
  unfold out6_10
  rw [View.canon_unit_zero hz]
  simp only [View.ld_unit_zero (S := S4096x64) hz, View.ld_unit_zero (S := S384x64) hz, View.ld_unit_zero (S := S1x64) hz]
  funext j
  obtain ⟨p, q, rfl⟩ : ∃ (p : Fin 4096) (q : Fin 64), j = ix2 p q := ⟨j 0, j 1, eq_ix2 j⟩
  refine (pay1_blocks t.val hT (iblk6 V c 0 t) (iblk6 V c 1 t) (iblk6 V c 2 t) (iblk6 V c 3 t) (iblk6 V c 4 t) (iblk6 V c 5 t) (iblk6 V c 6 t) (iblk6 V c 7 t)
    (V c main_v28) (V c main_v24_0) (V c main_v29) (V c main_v30) (V c main_v31) (V c main_v32) (V c main_v33) (V c main_v24_1)
    (blk6_0 V c t hT) (blk6_1 V c t hT) (blk6_2 V c t hT) (blk6_3 V c t hT) (blk6_4 V c t hT) (blk6_5 V c t hT) (blk6_6 V c t hT) (blk6_7 V c t hT)
    (iblk6 V c 8 t) (V c main_v11) (blk6_8 V c t) (iblk6 V c 9 t) (V c main_v13) (blk6_9 V c t) p q).trans ?_
  rw [View.read_apply]
  refine congrArg (KSpec.Gfin (V c main_v28) (V c main_v24_0) (V c main_v29) (V c main_v30) (V c main_v31) (V c main_v32) (V c main_v33) (V c main_v24_1) (V c main_v11) (V c main_v13)) (funext fun a => Fin.ext ?_)
  match a with
  | ⟨0, _⟩ => show t.val * 4096 + p.val = win6_10.index t (0 : Fin 2) * 4096 + 1 * p.val; rw [e0]; omega
  | ⟨1, _⟩ => show q.val = win6_10.index t (1 : Fin 2) * 64 + 1 * q.val; rw [e1]; omega

/-- An index of the array is in point t's block iff each coordinate is in the block's range on its axis. -/
theorem mem_blk6_10 (t : Fin cfg6.N) (i : S65536x64.Idx) :
    i ∈ ((cfg6.win 10).blk t).view.set ↔ ∀ a : Fin 2, win6_10.index t a * S4096x64.size a ≤ (i a).val ∧ (i a).val < win6_10.index t a * S4096x64.size a + S4096x64.size a := by
  show i ∈ ((View.whole main_v34).slice (win6_10.rect t)).set ↔ _
  rw [View.set_slice_whole, Rect.mem_set_unit]
  exact Iff.rfl

/-- Row r of the array lies in the block of grid point r / 4096. -/
theorem cover6_10' (i : S65536x64.Idx) : ∃ t : Fin cfg6.N, (cfg6.win 10).flush t = true ∧ i ∈ ((cfg6.win 10).blk t).view.set := by
  have hi0 : (i 0).val < 65536 := (i 0).isLt
  have hi1 : (i 1).val < 64 := (i 1).isLt
  have hN : cfg6.N = 16 := N_6
  refine ⟨⟨(i 0).val / 4096, by rw [hN]; omega⟩, flush6_10 _, ?_⟩
  obtain ⟨e0, e1⟩ := idx6_10 ⟨(i 0).val / 4096, by rw [hN]; omega⟩
  rw [mem_blk6_10]
  intro a
  match a with
  | ⟨0, _⟩ => show win6_10.index _ (0 : Fin 2) * 4096 ≤ (i 0).val ∧ (i 0).val < win6_10.index _ (0 : Fin 2) * 4096 + 4096; rw [e0]; show (i 0).val / 4096 * 4096 ≤ (i 0).val ∧ (i 0).val < (i 0).val / 4096 * 4096 + 4096; omega
  | ⟨1, _⟩ => show win6_10.index _ (1 : Fin 2) * 64 ≤ (i 1).val ∧ (i 1).val < win6_10.index _ (1 : Fin 2) * 64 + 64; rw [e1]; omega

theorem final6_10 (c : Dev nD) : (dat6 (F := Ideal) V c).arrAt 10 cfg6.N
    = KSpec.Gfin (V c main_v28) (V c main_v24_0) (V c main_v29) (V c main_v30) (V c main_v31) (V c main_v32) (V c main_v33) (V c main_v24_1) (V c main_v11) (V c main_v13) :=
  (dat6 (F := Ideal) V c).arrAt_eq_of_cover 10 (KSpec.Gfin (V c main_v28) (V c main_v24_0) (V c main_v29) (V c main_v30) (V c main_v31) (V c main_v32) (V c main_v33) (V c main_v24_1) (V c main_v11) (V c main_v13))
    (fun t _ => flushed6_10 V c t) cover6_10'

end Cert.KernelIdeal.KReg6

end
-- ==== Proof.KFold.lean ====
import proofs.«118218_g51479478010102_cont_8to1_c_652_2_alg».proof.Proof.Gen.KernelIdeal.Frame
import proofs.«118218_g51479478010102_cont_8to1_c_652_2_alg».proof.Proof.KSpec
import proofs.«118218_g51479478010102_cont_8to1_c_652_2_alg».proof.Proof.KReg0
import proofs.«118218_g51479478010102_cont_8to1_c_652_2_alg».proof.Proof.KReg1
import proofs.«118218_g51479478010102_cont_8to1_c_652_2_alg».proof.Proof.KReg2
import proofs.«118218_g51479478010102_cont_8to1_c_652_2_alg».proof.Proof.KReg3
import proofs.«118218_g51479478010102_cont_8to1_c_652_2_alg».proof.Proof.KReg4
import proofs.«118218_g51479478010102_cont_8to1_c_652_2_alg».proof.Proof.KReg5
import proofs.«118218_g51479478010102_cont_8to1_c_652_2_alg».proof.Proof.KReg6
import Idealize.ShloMosaic.Lib.Pipeline.Value
import Idealize.ShloMosaic.Lib.StableHlo.Run

set_option maxRecDepth 16384

noncomputable section

namespace Cert.KernelIdeal.KFold

open Idealize.ShloMosaic Idealize.ShloMosaic.TcCoe Idealize.SL.Sem
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg)

/-! ## Congruences of the launches' array functions -/

private theorem Gcheb_congr {A A' : KSpec.A2 S1024x1024} {X X' Y Y' : KSpec.A2 S1024x4096}
    (hA : A = A') (hX : X = X') (hY : Y = Y') : KSpec.Gcheb A X Y = KSpec.Gcheb A' X' Y' := by
  subst hA hX hY; rfl

private theorem GS0_congr {x x' h h' p1 p1' h1 h1' p2 p2' h2 h2' : KSpec.A2 S65536x64} {W W' : KSpec.A2 S384x128} {b b' : KSpec.A2 S1x128}
    (e1 : x = x') (e2 : h = h') (e3 : p1 = p1') (e4 : h1 = h1') (e5 : p2 = p2') (e6 : h2 = h2') (e7 : W = W') (e8 : b = b') :
    KSpec.GS0 x h p1 h1 p2 h2 W b = KSpec.GS0 x' h' p1' h1' p2' h2' W' b' := by
  subst e1 e2 e3 e4 e5 e6 e7 e8; rfl

private theorem GU_congr {x x' h h' p1 p1' h1 h1' p2 p2' h2 h2' : KSpec.A2 S65536x64} {W W' : KSpec.A2 S384x128} {b b' : KSpec.A2 S1x128}
    (e1 : x = x') (e2 : h = h') (e3 : p1 = p1') (e4 : h1 = h1') (e5 : p2 = p2') (e6 : h2 = h2') (e7 : W = W') (e8 : b = b') :
    KSpec.GU x h p1 h1 p2 h2 W b = KSpec.GU x' h' p1' h1' p2' h2' W' b' := by
  subst e1 e2 e3 e4 e5 e6 e7 e8; rfl

private theorem Gfin_congr {x x' s0 s0' p1 p1' s1 s1' p2 p2' s2 s2' h h' u u' : KSpec.A2 S65536x64} {W W' : KSpec.A2 S384x64} {b b' : KSpec.A2 S1x64}
    (e1 : x = x') (e2 : s0 = s0') (e3 : p1 = p1') (e4 : s1 = s1') (e5 : p2 = p2') (e6 : s2 = s2') (e7 : h = h') (e8 : u = u')
    (e9 : W = W') (e10 : b = b') :
    KSpec.Gfin x s0 p1 s1 p2 s2 h u W b = KSpec.Gfin x' s0' p1' s1' p2' s2' h' u' W' b' := by
  subst e1 e2 e3 e4 e5 e6 e7 e8 e9 e10; rfl

/-- A buffer that a stretch of host operations does not write keeps its contents: the side condition, operation by operation. -/
local macro "host_keep" : tactic => `(tactic| (
  refine StableHlo.after_of_forall_not_mem _ _ (List.forall_iff_forall_mem.mp ?_)
  simp only [hostOps0, hostOps3, hostOps4, hostOps6, hostOps7, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The buffers' contents, boundary by boundary

  Each buffer is written once. From the boundary where it is written to the last boundary where something reads
  it, its contents are one named array function of the arguments: a launch's output by the launch's array function
  of its inputs' contents, a host operation's result by the operation applied to its operand's contents, and
  every other buffer by what it held at the boundary before. -/

section Fold
variable (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)

/-- An input array of launch 0 leaves it as it entered. -/
private theorem W2_in (w : Fin cfg0.W) (hin : (cfg0.win w).isOut = false) :
    W2 (F := Ideal) m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-- An input array of launch 1 leaves it as it entered. -/
private theorem W3_in (w : Fin cfg1.W) (hin : (cfg1.win w).isOut = false) :
    W3 (F := Ideal) m ρ c (Proc.devRef .tc (Pipeline.arrRef spec1 w)) = W2 m ρ c (Proc.devRef .tc (Pipeline.arrRef spec1 w)) :=
  (W3_arr m ρ c w).trans (((dat1 (V2 m ρ) c).arrAt_in w hin cfg1.N).trans (A_eq1 (V2 m ρ) c w))

/-- An input array of launch 2 leaves it as it entered. -/
private theorem W4_in (w : Fin cfg2.W) (hin : (cfg2.win w).isOut = false) :
    W4 (F := Ideal) m ρ c (Proc.devRef .tc (Pipeline.arrRef spec2 w)) = W3 m ρ c (Proc.devRef .tc (Pipeline.arrRef spec2 w)) :=
  (W4_arr m ρ c w).trans (((dat2 (V3 m ρ) c).arrAt_in w hin cfg2.N).trans (A_eq2 (V3 m ρ) c w))

/-- An input array of launch 3 leaves it as it entered. -/
private theorem W6_in (w : Fin cfg3.W) (hin : (cfg3.win w).isOut = false) :
    W6 (F := Ideal) m ρ c (Proc.devRef .tc (Pipeline.arrRef spec3 w)) = W5 m ρ c (Proc.devRef .tc (Pipeline.arrRef spec3 w)) :=
  (W6_arr m ρ c w).trans (((dat3 (V5 m ρ) c).arrAt_in w hin cfg3.N).trans (A_eq3 (V5 m ρ) c w))

/-- An input array of launch 4 leaves it as it entered. -/
private theorem W8_in (w : Fin cfg4.W) (hin : (cfg4.win w).isOut = false) :
    W8 (F := Ideal) m ρ c (Proc.devRef .tc (Pipeline.arrRef spec4 w)) = W7 m ρ c (Proc.devRef .tc (Pipeline.arrRef spec4 w)) :=
  (W8_arr m ρ c w).trans (((dat4 (V7 m ρ) c).arrAt_in w hin cfg4.N).trans (A_eq4 (V7 m ρ) c w))

/-- An input array of launch 5 leaves it as it entered. -/
private theorem W9_in (w : Fin cfg5.W) (hin : (cfg5.win w).isOut = false) :
    W9 (F := Ideal) m ρ c (Proc.devRef .tc (Pipeline.arrRef spec5 w)) = W8 m ρ c (Proc.devRef .tc (Pipeline.arrRef spec5 w)) :=
  (W9_arr m ρ c w).trans (((dat5 (V8 m ρ) c).arrAt_in w hin cfg5.N).trans (A_eq5 (V8 m ρ) c w))

/-- An input array of launch 6 leaves it as it entered. -/
private theorem W11_in (w : Fin cfg6.W) (hin : (cfg6.win w).isOut = false) :
    W11 (F := Ideal) m ρ c (Proc.devRef .tc (Pipeline.arrRef spec6 w)) = W10 m ρ c (Proc.devRef .tc (Pipeline.arrRef spec6 w)) :=
  (W11_arr m ρ c w).trans (((dat6 (V10 m ρ) c).arrAt_in w hin cfg6.N).trans (A_eq6 (V10 m ρ) c w))

/-! ### Boundary 1 -/

set_option maxHeartbeats 400000 in
private theorem W1_v2 : W1 (F := Ideal) m ρ c (Proc.devRef .tc main_v2) = KSpec.hX a0 := by
  show StableHlo.after hostOps0 _ (Proc.devRef .tc main_v2) = _
  after_results
  rfl

set_option maxHeartbeats 400000 in
private theorem W1_v5 : W1 (F := Ideal) m ρ c (Proc.devRef .tc main_v5) = KSpec.hX a1 := by
  show StableHlo.after hostOps0 _ (Proc.devRef .tc main_v5) = _
  after_results
  rfl

set_option maxHeartbeats 400000 in
private theorem W1_v8 : W1 (F := Ideal) m ρ c (Proc.devRef .tc main_v8) = KSpec.hW128 a3 := by
  show StableHlo.after hostOps0 _ (Proc.devRef .tc main_v8) = _
  after_results
  rfl

set_option maxHeartbeats 400000 in
private theorem W1_v11 : W1 (F := Ideal) m ρ c (Proc.devRef .tc main_v11) = KSpec.hW64 a5 := by
  show StableHlo.after hostOps0 _ (Proc.devRef .tc main_v11) = _
  after_results
  rfl

set_option maxHeartbeats 400000 in
private theorem W1_v12 : W1 (F := Ideal) m ρ c (Proc.devRef .tc main_v12) = KSpec.hB128 a4 := by
  show StableHlo.after hostOps0 _ (Proc.devRef .tc main_v12) = _
  after_results
  rfl

set_option maxHeartbeats 400000 in
private theorem W1_v13 : W1 (F := Ideal) m ρ c (Proc.devRef .tc main_v13) = KSpec.hB64 a6 := by
  show StableHlo.after hostOps0 _ (Proc.devRef .tc main_v13) = _
  after_results
  rfl

set_option maxHeartbeats 400000 in
private theorem W1_v14 : W1 (F := Ideal) m ρ c (Proc.devRef .tc main_v14) = KSpec.hT a2 := by
  show StableHlo.after hostOps0 _ (Proc.devRef .tc main_v14) = _
  after_results
  rfl

/-! ### Boundary 2 -/

set_option maxHeartbeats 400000 in
private theorem W2_v15 : W2 (F := Ideal) m ρ c (Proc.devRef .tc main_v15) = KSpec.kA a2 := by
  refine (W2_arr m ρ c (1 : Fin cfg0.W)).trans ?_
  refine (KReg0.final0 (V1 m ρ) c).trans ?_
  unfold KSpec.kA
  exact congrArg KSpec.Gnorm (W1_v14 m ρ c)

private theorem W2_v2 : W2 (F := Ideal) m ρ c (Proc.devRef .tc main_v2) = KSpec.hX a0 :=
  (W2_of_ne m ρ c main_v2 (by decide)).trans (W1_v2 m ρ c)

private theorem W2_v5 : W2 (F := Ideal) m ρ c (Proc.devRef .tc main_v5) = KSpec.hX a1 :=
  (W2_of_ne m ρ c main_v5 (by decide)).trans (W1_v5 m ρ c)

private theorem W2_v8 : W2 (F := Ideal) m ρ c (Proc.devRef .tc main_v8) = KSpec.hW128 a3 :=
  (W2_of_ne m ρ c main_v8 (by decide)).trans (W1_v8 m ρ c)

private theorem W2_v11 : W2 (F := Ideal) m ρ c (Proc.devRef .tc main_v11) = KSpec.hW64 a5 :=
  (W2_of_ne m ρ c main_v11 (by decide)).trans (W1_v11 m ρ c)

private theorem W2_v12 : W2 (F := Ideal) m ρ c (Proc.devRef .tc main_v12) = KSpec.hB128 a4 :=
  (W2_of_ne m ρ c main_v12 (by decide)).trans (W1_v12 m ρ c)

private theorem W2_v13 : W2 (F := Ideal) m ρ c (Proc.devRef .tc main_v13) = KSpec.hB64 a6 :=
  (W2_of_ne m ρ c main_v13 (by decide)).trans (W1_v13 m ρ c)

/-! ### Boundary 3 -/

set_option maxHeartbeats 400000 in
private theorem W3_v16_0 : W3 (F := Ideal) m ρ c (Proc.devRef .tc main_v16_0) = KSpec.kP1 a0 a2 := by
  refine (W3_arr m ρ c (3 : Fin cfg1.W)).trans ?_
  refine (KReg1.final1_3 (V2 m ρ) c).trans ?_
  unfold KSpec.kP1
  exact congrArg₂ KSpec.Gmm (W2_v15 m ρ c) (W2_v2 m ρ c)

set_option maxHeartbeats 400000 in
private theorem W3_v16_1 : W3 (F := Ideal) m ρ c (Proc.devRef .tc main_v16_1) = KSpec.kH1 a1 a2 := by
  refine (W3_arr m ρ c (4 : Fin cfg1.W)).trans ?_
  refine (KReg1.final1_4 (V2 m ρ) c).trans ?_
  unfold KSpec.kH1
  exact congrArg₂ KSpec.Gmm (W2_v15 m ρ c) (W2_v5 m ρ c)

private theorem W3_v2 : W3 (F := Ideal) m ρ c (Proc.devRef .tc main_v2) = KSpec.hX a0 :=
  (W3_in m ρ c (1 : Fin cfg1.W) rfl).trans (W2_v2 m ρ c)

private theorem W3_v5 : W3 (F := Ideal) m ρ c (Proc.devRef .tc main_v5) = KSpec.hX a1 :=
  (W3_in m ρ c (2 : Fin cfg1.W) rfl).trans (W2_v5 m ρ c)

private theorem W3_v8 : W3 (F := Ideal) m ρ c (Proc.devRef .tc main_v8) = KSpec.hW128 a3 :=
  (W3_of_ne m ρ c main_v8 (by decide)).trans (W2_v8 m ρ c)

private theorem W3_v11 : W3 (F := Ideal) m ρ c (Proc.devRef .tc main_v11) = KSpec.hW64 a5 :=
  (W3_of_ne m ρ c main_v11 (by decide)).trans (W2_v11 m ρ c)

private theorem W3_v12 : W3 (F := Ideal) m ρ c (Proc.devRef .tc main_v12) = KSpec.hB128 a4 :=
  (W3_of_ne m ρ c main_v12 (by decide)).trans (W2_v12 m ρ c)

private theorem W3_v13 : W3 (F := Ideal) m ρ c (Proc.devRef .tc main_v13) = KSpec.hB64 a6 :=
  (W3_of_ne m ρ c main_v13 (by decide)).trans (W2_v13 m ρ c)

private theorem W3_v15 : W3 (F := Ideal) m ρ c (Proc.devRef .tc main_v15) = KSpec.kA a2 :=
  (W3_in m ρ c (0 : Fin cfg1.W) rfl).trans (W2_v15 m ρ c)

/-! ### Boundary 4 -/

set_option maxHeartbeats 400000 in
private theorem W4_v17_0 : W4 (F := Ideal) m ρ c (Proc.devRef .tc main_v17_0) = KSpec.kP2 a0 a2 := by
  refine (W4_arr m ρ c (5 : Fin cfg2.W)).trans ?_
  refine (KReg2.final2_5 (V3 m ρ) c).trans ?_
  unfold KSpec.kP2
  exact Gcheb_congr (W3_v15 m ρ c) (W3_v16_0 m ρ c) (W3_v2 m ρ c)

set_option maxHeartbeats 400000 in
private theorem W4_v17_1 : W4 (F := Ideal) m ρ c (Proc.devRef .tc main_v17_1) = KSpec.kH2 a1 a2 := by
  refine (W4_arr m ρ c (6 : Fin cfg2.W)).trans ?_
  refine (KReg2.final2_6 (V3 m ρ) c).trans ?_
  unfold KSpec.kH2
  exact Gcheb_congr (W3_v15 m ρ c) (W3_v16_1 m ρ c) (W3_v5 m ρ c)

private theorem W4_v2 : W4 (F := Ideal) m ρ c (Proc.devRef .tc main_v2) = KSpec.hX a0 :=
  (W4_in m ρ c (3 : Fin cfg2.W) rfl).trans (W3_v2 m ρ c)

private theorem W4_v5 : W4 (F := Ideal) m ρ c (Proc.devRef .tc main_v5) = KSpec.hX a1 :=
  (W4_in m ρ c (4 : Fin cfg2.W) rfl).trans (W3_v5 m ρ c)

private theorem W4_v8 : W4 (F := Ideal) m ρ c (Proc.devRef .tc main_v8) = KSpec.hW128 a3 :=
  (W4_of_ne m ρ c main_v8 (by decide)).trans (W3_v8 m ρ c)

private theorem W4_v11 : W4 (F := Ideal) m ρ c (Proc.devRef .tc main_v11) = KSpec.hW64 a5 :=
  (W4_of_ne m ρ c main_v11 (by decide)).trans (W3_v11 m ρ c)

private theorem W4_v12 : W4 (F := Ideal) m ρ c (Proc.devRef .tc main_v12) = KSpec.hB128 a4 :=
  (W4_of_ne m ρ c main_v12 (by decide)).trans (W3_v12 m ρ c)

private theorem W4_v13 : W4 (F := Ideal) m ρ c (Proc.devRef .tc main_v13) = KSpec.hB64 a6 :=
  (W4_of_ne m ρ c main_v13 (by decide)).trans (W3_v13 m ρ c)

private theorem W4_v15 : W4 (F := Ideal) m ρ c (Proc.devRef .tc main_v15) = KSpec.kA a2 :=
  (W4_in m ρ c (0 : Fin cfg2.W) rfl).trans (W3_v15 m ρ c)

private theorem W4_v16_0 : W4 (F := Ideal) m ρ c (Proc.devRef .tc main_v16_0) = KSpec.kP1 a0 a2 :=
  (W4_in m ρ c (1 : Fin cfg2.W) rfl).trans (W3_v16_0 m ρ c)

private theorem W4_v16_1 : W4 (F := Ideal) m ρ c (Proc.devRef .tc main_v16_1) = KSpec.kH1 a1 a2 :=
  (W4_in m ρ c (2 : Fin cfg2.W) rfl).trans (W3_v16_1 m ρ c)

/-! ### Boundary 5 -/

set_option maxHeartbeats 400000 in
private theorem W5_v18 : W5 (F := Ideal) m ρ c (Proc.devRef .tc main_v18) = KSpec.rs (KSpec.hX a0) := by
  show StableHlo.after hostOps3 _ (Proc.devRef .tc main_v18) = _
  after_results
  exact congrArg KSpec.rs (W4_v2 m ρ c)

set_option maxHeartbeats 400000 in
private theorem W5_v19 : W5 (F := Ideal) m ρ c (Proc.devRef .tc main_v19) = KSpec.rs (KSpec.hX a1) := by
  show StableHlo.after hostOps3 _ (Proc.devRef .tc main_v19) = _
  after_results
  exact congrArg KSpec.rs (W4_v5 m ρ c)

set_option maxHeartbeats 400000 in
private theorem W5_v20 : W5 (F := Ideal) m ρ c (Proc.devRef .tc main_v20) = KSpec.rs (KSpec.kP1 a0 a2) := by
  show StableHlo.after hostOps3 _ (Proc.devRef .tc main_v20) = _
  after_results
  exact congrArg KSpec.rs (W4_v16_0 m ρ c)

set_option maxHeartbeats 400000 in
private theorem W5_v21 : W5 (F := Ideal) m ρ c (Proc.devRef .tc main_v21) = KSpec.rs (KSpec.kH1 a1 a2) := by
  show StableHlo.after hostOps3 _ (Proc.devRef .tc main_v21) = _
  after_results
  exact congrArg KSpec.rs (W4_v16_1 m ρ c)

set_option maxHeartbeats 400000 in
private theorem W5_v22 : W5 (F := Ideal) m ρ c (Proc.devRef .tc main_v22) = KSpec.rs (KSpec.kP2 a0 a2) := by
  show StableHlo.after hostOps3 _ (Proc.devRef .tc main_v22) = _
  after_results
  exact congrArg KSpec.rs (W4_v17_0 m ρ c)

set_option maxHeartbeats 400000 in
private theorem W5_v23 : W5 (F := Ideal) m ρ c (Proc.devRef .tc main_v23) = KSpec.rs (KSpec.kH2 a1 a2) := by
  show StableHlo.after hostOps3 _ (Proc.devRef .tc main_v23) = _
  after_results
  exact congrArg KSpec.rs (W4_v17_1 m ρ c)

set_option maxHeartbeats 400000 in
private theorem W5_v2 : W5 (F := Ideal) m ρ c (Proc.devRef .tc main_v2) = KSpec.hX a0 := by
  refine Eq.trans ?_ (W4_v2 m ρ c)
  host_keep

set_option maxHeartbeats 400000 in
private theorem W5_v5 : W5 (F := Ideal) m ρ c (Proc.devRef .tc main_v5) = KSpec.hX a1 := by
  refine Eq.trans ?_ (W4_v5 m ρ c)
  host_keep

set_option maxHeartbeats 400000 in
private theorem W5_v8 : W5 (F := Ideal) m ρ c (Proc.devRef .tc main_v8) = KSpec.hW128 a3 := by
  refine Eq.trans ?_ (W4_v8 m ρ c)
  host_keep

set_option maxHeartbeats 400000 in
private theorem W5_v11 : W5 (F := Ideal) m ρ c (Proc.devRef .tc main_v11) = KSpec.hW64 a5 := by
  refine Eq.trans ?_ (W4_v11 m ρ c)
  host_keep

set_option maxHeartbeats 400000 in
private theorem W5_v12 : W5 (F := Ideal) m ρ c (Proc.devRef .tc main_v12) = KSpec.hB128 a4 := by
  refine Eq.trans ?_ (W4_v12 m ρ c)
  host_keep

set_option maxHeartbeats 400000 in
private theorem W5_v13 : W5 (F := Ideal) m ρ c (Proc.devRef .tc main_v13) = KSpec.hB64 a6 := by
  refine Eq.trans ?_ (W4_v13 m ρ c)
  host_keep

set_option maxHeartbeats 400000 in
private theorem W5_v15 : W5 (F := Ideal) m ρ c (Proc.devRef .tc main_v15) = KSpec.kA a2 := by
  refine Eq.trans ?_ (W4_v15 m ρ c)
  host_keep

set_option maxHeartbeats 400000 in
private theorem W5_v16_0 : W5 (F := Ideal) m ρ c (Proc.devRef .tc main_v16_0) = KSpec.kP1 a0 a2 := by
  refine Eq.trans ?_ (W4_v16_0 m ρ c)
  host_keep

set_option maxHeartbeats 400000 in
private theorem W5_v17_0 : W5 (F := Ideal) m ρ c (Proc.devRef .tc main_v17_0) = KSpec.kP2 a0 a2 := by
  refine Eq.trans ?_ (W4_v17_0 m ρ c)
  host_keep

/-! ### Boundary 6 -/

set_option maxHeartbeats 400000 in
private theorem W6_v24_0 : W6 (F := Ideal) m ρ c (Proc.devRef .tc main_v24_0) = KSpec.kS0 a0 a1 a2 a3 a4 := by
  refine (W6_arr m ρ c (8 : Fin cfg3.W)).trans ?_
  refine (KReg3.final3_8 (V5 m ρ) c).trans ?_
  unfold KSpec.kS0
  exact GS0_congr (W5_v18 m ρ c) (W5_v19 m ρ c) (W5_v20 m ρ c) (W5_v21 m ρ c) (W5_v22 m ρ c) (W5_v23 m ρ c) (W5_v8 m ρ c) (W5_v12 m ρ c)

set_option maxHeartbeats 400000 in
private theorem W6_v24_1 : W6 (F := Ideal) m ρ c (Proc.devRef .tc main_v24_1) = KSpec.kU a0 a1 a2 a3 a4 := by
  refine (W6_arr m ρ c (9 : Fin cfg3.W)).trans ?_
  refine (KReg3.final3_9 (V5 m ρ) c).trans ?_
  unfold KSpec.kU
  exact GU_congr (W5_v18 m ρ c) (W5_v19 m ρ c) (W5_v20 m ρ c) (W5_v21 m ρ c) (W5_v22 m ρ c) (W5_v23 m ρ c) (W5_v8 m ρ c) (W5_v12 m ρ c)

private theorem W6_v2 : W6 (F := Ideal) m ρ c (Proc.devRef .tc main_v2) = KSpec.hX a0 :=
  (W6_of_ne m ρ c main_v2 (by decide)).trans (W5_v2 m ρ c)

private theorem W6_v5 : W6 (F := Ideal) m ρ c (Proc.devRef .tc main_v5) = KSpec.hX a1 :=
  (W6_of_ne m ρ c main_v5 (by decide)).trans (W5_v5 m ρ c)

private theorem W6_v11 : W6 (F := Ideal) m ρ c (Proc.devRef .tc main_v11) = KSpec.hW64 a5 :=
  (W6_of_ne m ρ c main_v11 (by decide)).trans (W5_v11 m ρ c)

private theorem W6_v13 : W6 (F := Ideal) m ρ c (Proc.devRef .tc main_v13) = KSpec.hB64 a6 :=
  (W6_of_ne m ρ c main_v13 (by decide)).trans (W5_v13 m ρ c)

private theorem W6_v15 : W6 (F := Ideal) m ρ c (Proc.devRef .tc main_v15) = KSpec.kA a2 :=
  (W6_of_ne m ρ c main_v15 (by decide)).trans (W5_v15 m ρ c)

private theorem W6_v16_0 : W6 (F := Ideal) m ρ c (Proc.devRef .tc main_v16_0) = KSpec.kP1 a0 a2 :=
  (W6_of_ne m ρ c main_v16_0 (by decide)).trans (W5_v16_0 m ρ c)

private theorem W6_v17_0 : W6 (F := Ideal) m ρ c (Proc.devRef .tc main_v17_0) = KSpec.kP2 a0 a2 :=
  (W6_of_ne m ρ c main_v17_0 (by decide)).trans (W5_v17_0 m ρ c)

/-! ### Boundary 7 -/

set_option maxHeartbeats 400000 in
private theorem W7_v25 : W7 (F := Ideal) m ρ c (Proc.devRef .tc main_v25) = KSpec.rsInv (KSpec.kS0 a0 a1 a2 a3 a4) := by
  show StableHlo.after hostOps4 _ (Proc.devRef .tc main_v25) = _
  after_results
  exact congrArg KSpec.rsInv (W6_v24_0 m ρ c)

set_option maxHeartbeats 400000 in
private theorem W7_v2 : W7 (F := Ideal) m ρ c (Proc.devRef .tc main_v2) = KSpec.hX a0 := by
  refine Eq.trans ?_ (W6_v2 m ρ c)
  host_keep

set_option maxHeartbeats 400000 in
private theorem W7_v5 : W7 (F := Ideal) m ρ c (Proc.devRef .tc main_v5) = KSpec.hX a1 := by
  refine Eq.trans ?_ (W6_v5 m ρ c)
  host_keep

set_option maxHeartbeats 400000 in
private theorem W7_v11 : W7 (F := Ideal) m ρ c (Proc.devRef .tc main_v11) = KSpec.hW64 a5 := by
  refine Eq.trans ?_ (W6_v11 m ρ c)
  host_keep

set_option maxHeartbeats 400000 in
private theorem W7_v13 : W7 (F := Ideal) m ρ c (Proc.devRef .tc main_v13) = KSpec.hB64 a6 := by
  refine Eq.trans ?_ (W6_v13 m ρ c)
  host_keep

set_option maxHeartbeats 400000 in
private theorem W7_v15 : W7 (F := Ideal) m ρ c (Proc.devRef .tc main_v15) = KSpec.kA a2 := by
  refine Eq.trans ?_ (W6_v15 m ρ c)
  host_keep

set_option maxHeartbeats 400000 in
private theorem W7_v16_0 : W7 (F := Ideal) m ρ c (Proc.devRef .tc main_v16_0) = KSpec.kP1 a0 a2 := by
  refine Eq.trans ?_ (W6_v16_0 m ρ c)
  host_keep

set_option maxHeartbeats 400000 in
private theorem W7_v17_0 : W7 (F := Ideal) m ρ c (Proc.devRef .tc main_v17_0) = KSpec.kP2 a0 a2 := by
  refine Eq.trans ?_ (W6_v17_0 m ρ c)
  host_keep

set_option maxHeartbeats 400000 in
private theorem W7_v24_0 : W7 (F := Ideal) m ρ c (Proc.devRef .tc main_v24_0) = KSpec.kS0 a0 a1 a2 a3 a4 := by
  refine Eq.trans ?_ (W6_v24_0 m ρ c)
  host_keep

set_option maxHeartbeats 400000 in
private theorem W7_v24_1 : W7 (F := Ideal) m ρ c (Proc.devRef .tc main_v24_1) = KSpec.kU a0 a1 a2 a3 a4 := by
  refine Eq.trans ?_ (W6_v24_1 m ρ c)
  host_keep

/-! ### Boundary 8 -/

set_option maxHeartbeats 400000 in
private theorem W8_v26 : W8 (F := Ideal) m ρ c (Proc.devRef .tc main_v26) = KSpec.kS1 a0 a1 a2 a3 a4 := by
  refine (W8_arr m ρ c (2 : Fin cfg4.W)).trans ?_
  refine (KReg4.final4_2 (V7 m ρ) c).trans ?_
  unfold KSpec.kS1
  exact congrArg₂ KSpec.Gmm (W7_v15 m ρ c) (W7_v25 m ρ c)

private theorem W8_v2 : W8 (F := Ideal) m ρ c (Proc.devRef .tc main_v2) = KSpec.hX a0 :=
  (W8_of_ne m ρ c main_v2 (by decide)).trans (W7_v2 m ρ c)

private theorem W8_v5 : W8 (F := Ideal) m ρ c (Proc.devRef .tc main_v5) = KSpec.hX a1 :=
  (W8_of_ne m ρ c main_v5 (by decide)).trans (W7_v5 m ρ c)

private theorem W8_v11 : W8 (F := Ideal) m ρ c (Proc.devRef .tc main_v11) = KSpec.hW64 a5 :=
  (W8_of_ne m ρ c main_v11 (by decide)).trans (W7_v11 m ρ c)

private theorem W8_v13 : W8 (F := Ideal) m ρ c (Proc.devRef .tc main_v13) = KSpec.hB64 a6 :=
  (W8_of_ne m ρ c main_v13 (by decide)).trans (W7_v13 m ρ c)

private theorem W8_v15 : W8 (F := Ideal) m ρ c (Proc.devRef .tc main_v15) = KSpec.kA a2 :=
  (W8_in m ρ c (0 : Fin cfg4.W) rfl).trans (W7_v15 m ρ c)

private theorem W8_v16_0 : W8 (F := Ideal) m ρ c (Proc.devRef .tc main_v16_0) = KSpec.kP1 a0 a2 :=
  (W8_of_ne m ρ c main_v16_0 (by decide)).trans (W7_v16_0 m ρ c)

private theorem W8_v17_0 : W8 (F := Ideal) m ρ c (Proc.devRef .tc main_v17_0) = KSpec.kP2 a0 a2 :=
  (W8_of_ne m ρ c main_v17_0 (by decide)).trans (W7_v17_0 m ρ c)

private theorem W8_v24_0 : W8 (F := Ideal) m ρ c (Proc.devRef .tc main_v24_0) = KSpec.kS0 a0 a1 a2 a3 a4 :=
  (W8_of_ne m ρ c main_v24_0 (by decide)).trans (W7_v24_0 m ρ c)

private theorem W8_v24_1 : W8 (F := Ideal) m ρ c (Proc.devRef .tc main_v24_1) = KSpec.kU a0 a1 a2 a3 a4 :=
  (W8_of_ne m ρ c main_v24_1 (by decide)).trans (W7_v24_1 m ρ c)

private theorem W8_v25 : W8 (F := Ideal) m ρ c (Proc.devRef .tc main_v25) = KSpec.rsInv (KSpec.kS0 a0 a1 a2 a3 a4) :=
  (W8_in m ρ c (1 : Fin cfg4.W) rfl).trans (W7_v25 m ρ c)

/-! ### Boundary 9 -/

set_option maxHeartbeats 400000 in
private theorem W9_v27 : W9 (F := Ideal) m ρ c (Proc.devRef .tc main_v27) = KSpec.kS2 a0 a1 a2 a3 a4 := by
  refine (W9_arr m ρ c (3 : Fin cfg5.W)).trans ?_
  refine (KReg5.final5_3 (V8 m ρ) c).trans ?_
  unfold KSpec.kS2
  exact Gcheb_congr (W8_v15 m ρ c) (W8_v26 m ρ c) (W8_v25 m ρ c)

private theorem W9_v2 : W9 (F := Ideal) m ρ c (Proc.devRef .tc main_v2) = KSpec.hX a0 :=
  (W9_of_ne m ρ c main_v2 (by decide)).trans (W8_v2 m ρ c)

private theorem W9_v5 : W9 (F := Ideal) m ρ c (Proc.devRef .tc main_v5) = KSpec.hX a1 :=
  (W9_of_ne m ρ c main_v5 (by decide)).trans (W8_v5 m ρ c)

private theorem W9_v11 : W9 (F := Ideal) m ρ c (Proc.devRef .tc main_v11) = KSpec.hW64 a5 :=
  (W9_of_ne m ρ c main_v11 (by decide)).trans (W8_v11 m ρ c)

private theorem W9_v13 : W9 (F := Ideal) m ρ c (Proc.devRef .tc main_v13) = KSpec.hB64 a6 :=
  (W9_of_ne m ρ c main_v13 (by decide)).trans (W8_v13 m ρ c)

private theorem W9_v16_0 : W9 (F := Ideal) m ρ c (Proc.devRef .tc main_v16_0) = KSpec.kP1 a0 a2 :=
  (W9_of_ne m ρ c main_v16_0 (by decide)).trans (W8_v16_0 m ρ c)

private theorem W9_v17_0 : W9 (F := Ideal) m ρ c (Proc.devRef .tc main_v17_0) = KSpec.kP2 a0 a2 :=
  (W9_of_ne m ρ c main_v17_0 (by decide)).trans (W8_v17_0 m ρ c)

private theorem W9_v24_0 : W9 (F := Ideal) m ρ c (Proc.devRef .tc main_v24_0) = KSpec.kS0 a0 a1 a2 a3 a4 :=
  (W9_of_ne m ρ c main_v24_0 (by decide)).trans (W8_v24_0 m ρ c)

private theorem W9_v24_1 : W9 (F := Ideal) m ρ c (Proc.devRef .tc main_v24_1) = KSpec.kU a0 a1 a2 a3 a4 :=
  (W9_of_ne m ρ c main_v24_1 (by decide)).trans (W8_v24_1 m ρ c)

private theorem W9_v26 : W9 (F := Ideal) m ρ c (Proc.devRef .tc main_v26) = KSpec.kS1 a0 a1 a2 a3 a4 :=
  (W9_in m ρ c (1 : Fin cfg5.W) rfl).trans (W8_v26 m ρ c)

/-! ### Boundary 10 -/

set_option maxHeartbeats 400000 in
private theorem W10_v28 : W10 (F := Ideal) m ρ c (Proc.devRef .tc main_v28) = KSpec.rs (KSpec.hX a0) := by
  show StableHlo.after hostOps6 _ (Proc.devRef .tc main_v28) = _
  after_results
  exact congrArg KSpec.rs (W9_v2 m ρ c)

set_option maxHeartbeats 400000 in
private theorem W10_v29 : W10 (F := Ideal) m ρ c (Proc.devRef .tc main_v29) = KSpec.rs (KSpec.kP1 a0 a2) := by
  show StableHlo.after hostOps6 _ (Proc.devRef .tc main_v29) = _
  after_results
  exact congrArg KSpec.rs (W9_v16_0 m ρ c)

set_option maxHeartbeats 400000 in
private theorem W10_v30 : W10 (F := Ideal) m ρ c (Proc.devRef .tc main_v30) = KSpec.rs (KSpec.kS1 a0 a1 a2 a3 a4) := by
  show StableHlo.after hostOps6 _ (Proc.devRef .tc main_v30) = _
  after_results
  exact congrArg KSpec.rs (W9_v26 m ρ c)

set_option maxHeartbeats 400000 in
private theorem W10_v31 : W10 (F := Ideal) m ρ c (Proc.devRef .tc main_v31) = KSpec.rs (KSpec.kP2 a0 a2) := by
  show StableHlo.after hostOps6 _ (Proc.devRef .tc main_v31) = _
  after_results
  exact congrArg KSpec.rs (W9_v17_0 m ρ c)

set_option maxHeartbeats 400000 in
private theorem W10_v32 : W10 (F := Ideal) m ρ c (Proc.devRef .tc main_v32) = KSpec.rs (KSpec.kS2 a0 a1 a2 a3 a4) := by
  show StableHlo.after hostOps6 _ (Proc.devRef .tc main_v32) = _
  after_results
  exact congrArg KSpec.rs (W9_v27 m ρ c)

set_option maxHeartbeats 400000 in
private theorem W10_v33 : W10 (F := Ideal) m ρ c (Proc.devRef .tc main_v33) = KSpec.rs (KSpec.hX a1) := by
  show StableHlo.after hostOps6 _ (Proc.devRef .tc main_v33) = _
  after_results
  exact congrArg KSpec.rs (W9_v5 m ρ c)

set_option maxHeartbeats 400000 in
private theorem W10_v11 : W10 (F := Ideal) m ρ c (Proc.devRef .tc main_v11) = KSpec.hW64 a5 := by
  refine Eq.trans ?_ (W9_v11 m ρ c)
  host_keep

set_option maxHeartbeats 400000 in
private theorem W10_v13 : W10 (F := Ideal) m ρ c (Proc.devRef .tc main_v13) = KSpec.hB64 a6 := by
  refine Eq.trans ?_ (W9_v13 m ρ c)
  host_keep

set_option maxHeartbeats 400000 in
private theorem W10_v24_0 : W10 (F := Ideal) m ρ c (Proc.devRef .tc main_v24_0) = KSpec.kS0 a0 a1 a2 a3 a4 := by
  refine Eq.trans ?_ (W9_v24_0 m ρ c)
  host_keep

set_option maxHeartbeats 400000 in
private theorem W10_v24_1 : W10 (F := Ideal) m ρ c (Proc.devRef .tc main_v24_1) = KSpec.kU a0 a1 a2 a3 a4 := by
  refine Eq.trans ?_ (W9_v24_1 m ρ c)
  host_keep

/-! ### Boundary 11 -/

set_option maxHeartbeats 400000 in
private theorem W11_v34 : W11 (F := Ideal) m ρ c (Proc.devRef .tc main_v34) = KSpec.kNew a0 a1 a2 a3 a4 a5 a6 := by
  refine (W11_arr m ρ c (10 : Fin cfg6.W)).trans ?_
  refine (KReg6.final6_10 (V10 m ρ) c).trans ?_
  unfold KSpec.kNew
  exact Gfin_congr (W10_v28 m ρ c) (W10_v24_0 m ρ c) (W10_v29 m ρ c) (W10_v30 m ρ c) (W10_v31 m ρ c) (W10_v32 m ρ c) (W10_v33 m ρ c) (W10_v24_1 m ρ c) (W10_v11 m ρ c) (W10_v13 m ρ c)

/-! ### Boundary 12 -/

set_option maxHeartbeats 400000 in
private theorem W12_v37 : W12 (F := Ideal) m ρ c (Proc.devRef .tc main_v37) = KSpec.kRes a0 a1 a2 a3 a4 a5 a6 := by
  show StableHlo.after hostOps7 _ (Proc.devRef .tc main_v37) = _
  after_results
  unfold KSpec.kRes
  exact congrArg KSpec.hOut (W11_v34 m ρ c)

end Fold

/-- The result buffer at the last boundary is the composition of the launches' array functions and the host
    operations between them, applied to the arguments as launched. -/
theorem value (c : Dev nD) : W12 (F := Ideal) m ρ c (Proc.devRef .tc main_v37)
    = KSpec.kRes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  W12_v37 m ρ c

end Cert.KernelIdeal.KFold

end
-- ==== Proof.Spec.lean ====
/-
  The mathematics of one diffusion-convolution GRU step, entry by entry, over the extended reals.

  Nodes n < 1024, batch rows b < 64, features f < 64.  The inputs are [64, 1024·64] arrays whose column
  n·64 + f holds feature f of node n.  The transition matrix is the transpose of the row-normalised
  (adj + I): entry (i, j) is (adj[j,i] + δ) / deg j, the reciprocal replaced by 0 where it is infinite.
  A column z over the nodes is diffused to z, A z, 2 A (A z) − z.  A graph convolution of the
  concatenated features [x, s] (128 of them) contracts, per node and batch row, the three diffusion
  orders of every feature with the weight row  feature·3 + order,  and adds the bias.  The gates are the
  logistic of the first convolution's two halves; the candidate is the hyperbolic tangent of the second
  convolution taken at the state r·h; the new state is u·h + (1 − u)·c.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The literal 2.0, kept as its word: both programs carry the same one. -/
def two : EReal := Ideal.ofBits .f32 0x40000000#32
/-- The literal +inf, kept as its word: both programs compare against the same one. -/
def pinf : EReal := Ideal.ofBits .f32 0x7F800000#32

/-- Column of (node n, feature f) in a row of 1024·64 entries. -/
def pos (n : Fin 1024) (f : Fin 64) : Fin 65536 := ⟨n.val * 64 + f.val, by have := n.isLt; have := f.isLt; omega⟩

/-- The kernel's column of (batch row b, feature f) in a node-major [1024, 64·64] matrix: b·64 + f. -/
def colK (b f : Fin 64) : Fin 4096 := ⟨b.val * 64 + f.val, by have := b.isLt; have := f.isLt; omega⟩
/-- The kernel's row of (node n, batch row b) in the [1024·64, 64] view: n·64 + b. -/
def rowK (n : Fin 1024) (b : Fin 64) : Fin 65536 := ⟨n.val * 64 + b.val, by have := n.isLt; have := b.isLt; omega⟩
/-- The kernel's weight row of (order k, feature f'): k·128 + f'. -/
def jK (k : Fin 3) (f' : Fin 128) : Fin 384 := ⟨k.val * 128 + f'.val, by have := k.isLt; have := f'.isLt; omega⟩
/-- The reference's column of (feature f', batch row b) in its [1024, 128·64] matrices: f'·64 + b. -/
def colR (f' : Fin 128) (b : Fin 64) : Fin 8192 := ⟨f'.val * 64 + b.val, by have := f'.isLt; have := b.isLt; omega⟩
/-- The reference's row of (batch row b, node n) in its [64·1024, ·] matrices: b·1024 + n. -/
def rowR (b : Fin 64) (n : Fin 1024) : Fin 65536 := ⟨b.val * 1024 + n.val, by have := b.isLt; have := n.isLt; omega⟩
/-- An input feature among the 128 concatenated ones. -/
def lo (f : Fin 64) : Fin 128 := ⟨f.val, by have := f.isLt; omega⟩
/-- A state feature among the 128 concatenated ones. -/
def hi (f : Fin 64) : Fin 128 := ⟨64 + f.val, by have := f.isLt; omega⟩

/-- Weight row of (feature f', diffusion order k): f'·3 + k. -/
def wrow (f' : Fin 128) (k : Fin 3) : Fin 384 := ⟨f'.val * 3 + k.val, by have := f'.isLt; have := k.isLt; omega⟩

/-- The guarded reciprocal: 1/d, replaced by 0 where its magnitude is +inf. -/
def inv (d : EReal) : EReal :=
  Scalar.select (FloatOps.cmpf (F := Ideal) (φ := .f32) .oeq (FloatOps.absf (F := Ideal) (φ := .f32) (Ideal.div 1 d)) pinf)
    (0 : EReal) (Ideal.div 1 d)

/-- The identity matrix's entry. -/
def eye (i j : Fin 1024) : EReal := if i = j then 1 else 0

section
variable (inp hx : Arr2 64 65536) (adj : Arr2 1024 1024) (wfn : Arr2 384 128) (bfn : Arr1 128)
  (wg : Arr2 384 64) (bg : Arr1 64)

/-- Row sum j of adj + I. -/
def deg (j : Fin 1024) : EReal := ∑ i : Fin 1024, (adj (ix2 j i) + eye j i)

/-- The transition matrix: entry (i, j) = inv (deg j) · (adj[j, i] + δ). -/
def A (i j : Fin 1024) : EReal := inv (deg adj j) * (adj (ix2 j i) + eye j i)

/-- One diffusion step of a column over the nodes. -/
def d1 (z : Fin 1024 → EReal) (n : Fin 1024) : EReal := ∑ k : Fin 1024, A adj n k * z k
/-- The second-order term 2·A(A z) − z. -/
def d2 (z : Fin 1024 → EReal) (n : Fin 1024) : EReal := two * (∑ k : Fin 1024, A adj n k * d1 adj z k) - z n
/-- The three diffusion orders of a column. -/
def D (z : Fin 1024 → EReal) (k : Fin 3) : Fin 1024 → EReal :=
  match k with
  | ⟨0, _⟩ => z
  | ⟨1, _⟩ => d1 adj z
  | ⟨2, _⟩ => d2 adj z

/-- Feature f of node n in batch row b of the input. -/
def xin (n : Fin 1024) (b : Fin 64) (f : Fin 64) : EReal := inp (ix2 b (pos n f))
/-- Feature f of node n in batch row b of the previous state. -/
def hin (n : Fin 1024) (b : Fin 64) (f : Fin 64) : EReal := hx (ix2 b (pos n f))

/-- Feature f' < 128 of the concatenation [x, s], as a column over the nodes. -/
def catv (s : Fin 1024 → Fin 64 → Fin 64 → EReal) (b : Fin 64) (f' : Fin 128) (n : Fin 1024) : EReal :=
  if h : f'.val < 64 then xin inp n b ⟨f'.val, h⟩ else s n b ⟨f'.val - 64, by have := f'.isLt; omega⟩

/-- The gates' convolution (128 outputs) at node n, batch row b. -/
def gconvF (s : Fin 1024 → Fin 64 → Fin 64 → EReal) (n : Fin 1024) (b : Fin 64) (o : Fin 128) : EReal :=
  (∑ k : Fin 3, ∑ f' : Fin 128, D adj (catv inp s b f') k n * wfn (ix2 (wrow f' k) o)) + bfn (ix1 o)

/-- The candidate's convolution (64 outputs) at node n, batch row b. -/
def gconvG (s : Fin 1024 → Fin 64 → Fin 64 → EReal) (n : Fin 1024) (b : Fin 64) (o : Fin 64) : EReal :=
  (∑ k : Fin 3, ∑ f' : Fin 128, D adj (catv inp s b f') k n * wg (ix2 (wrow f' k) o)) + bg (ix1 o)

/-- The reset gate. -/
def rgate (n : Fin 1024) (b : Fin 64) (f : Fin 64) : EReal :=
  Ideal.logistic (gconvF inp adj wfn bfn (hin hx) n b ⟨f.val, by have := f.isLt; omega⟩)
/-- The update gate. -/
def ugate (n : Fin 1024) (b : Fin 64) (f : Fin 64) : EReal :=
  Ideal.logistic (gconvF inp adj wfn bfn (hin hx) n b ⟨64 + f.val, by have := f.isLt; omega⟩)
/-- The reset state r·h. -/
def sst (n : Fin 1024) (b : Fin 64) (f : Fin 64) : EReal := rgate inp hx adj wfn bfn n b f * hin hx n b f
/-- The candidate. -/
def cand (n : Fin 1024) (b : Fin 64) (f : Fin 64) : EReal :=
  Ideal.tanh (gconvG inp adj wg bg (sst inp hx adj wfn bfn) n b f)
/-- The new state. -/
def out (n : Fin 1024) (b : Fin 64) (f : Fin 64) : EReal :=
  ugate inp hx adj wfn bfn n b f * hin hx n b f + (1 - ugate inp hx adj wfn bfn n b f) * cand inp hx adj wfn bfn wg bg n b f

end

end Cert.Spec

end
-- ==== Proof.KBridgeA.lean ====
import proofs.«118218_g51479478010102_cont_8to1_c_652_2_alg».proof.Proof.KSpec
import proofs.«118218_g51479478010102_cont_8to1_c_652_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.KBridgeA

open Idealize.ShloMosaic Idealize.ShloMosaic.ValueIdx
open Cert.KernelIdeal Cert.KernelIdeal.Facts₀ Cert.KernelIdeal.Facts Cert.KernelIdeal.KSpec
open Cert.Spec (pos wrow colK rowK jK lo hi)

/-! Each layout operation of the kernel's host side, read at an index. -/

/-- Node n, batch row b, feature f: the word at flat position ((n·64 + b)·64 + f) of the node-major array
    is the word at flat position ((b·1024 + n)·64 + f) of the input. -/
theorem hX_apply (a : A2 S64x65536) (n : Fin 1024) (b f : Fin 64) :
    hX a (ix2 n (colK b f)) = a (ix2 b (pos n f)) := by
  have hn : n.val < 1024 := n.isLt
  have hb : b.val < 64 := b.isLt
  have hf : f.val < 64 := f.isLt
  unfold hX
  refine (shapeCast_apply _ shapeCasts_S1024x64x64_S1024x4096 (ix2 n (colK b f)) (ix3 n b f) ?_).trans ?_
  · rewrite [Shape.rowMajor_val_three, Shape.rowMajor_val_two]
    show (n.val * 64 + b.val) * 64 + f.val = n.val * 4096 + (b.val * 64 + f.val)
    omega
  refine (transpose_apply [1, 0, 2] _ transposes_S64x1024x64_S1024x64x64_1_0_2 (ix3 n b f) (ix3 b n f)
    (fun c => match c with
    | ⟨0, _⟩ => rfl
    | ⟨1, _⟩ => rfl
    | ⟨2, _⟩ => rfl)).trans ?_
  exact shapeCast_apply a shapeCasts_S64x65536_S64x1024x64 (ix3 b n f) (ix2 b (pos n f)) (by
    rewrite [Shape.rowMajor_val_two, Shape.rowMajor_val_three]
    show b.val * 65536 + (n.val * 64 + f.val) = (b.val * 1024 + n.val) * 64 + f.val
    omega)

theorem rs_apply (Z : A2 S1024x4096) (n : Fin 1024) (b f : Fin 64) :
    rs Z (ix2 (rowK n b) f) = Z (ix2 n (colK b f)) := by
  have hn : n.val < 1024 := n.isLt
  have hb : b.val < 64 := b.isLt
  have hf : f.val < 64 := f.isLt
  unfold rs
  exact shapeCast_apply Z shapeCasts_S1024x4096_S65536x64 (ix2 (rowK n b) f) (ix2 n (colK b f)) (by
    rewrite [Shape.rowMajor_val_two, Shape.rowMajor_val_two]
    show n.val * 4096 + (b.val * 64 + f.val) = (n.val * 64 + b.val) * 64 + f.val
    omega)

theorem rsInv_apply (Z : A2 S65536x64) (n : Fin 1024) (b f : Fin 64) :
    rsInv Z (ix2 n (colK b f)) = Z (ix2 (rowK n b) f) := by
  have hn : n.val < 1024 := n.isLt
  have hb : b.val < 64 := b.isLt
  have hf : f.val < 64 := f.isLt
  unfold rsInv
  exact shapeCast_apply Z shapeCasts_S65536x64_S1024x4096 (ix2 n (colK b f)) (ix2 (rowK n b) f) (by
    rewrite [Shape.rowMajor_val_two, Shape.rowMajor_val_two]
    show (n.val * 64 + b.val) * 64 + f.val = n.val * 4096 + (b.val * 64 + f.val)
    omega)

/-- Order k, feature f', output o: row k·128 + f' of the re-ordered weights is row f'·3 + k of the given ones. -/
theorem hW128_apply (w : A2 S384x128) (k : Fin 3) (f' : Fin 128) (o : Fin 128) :
    hW128 w (ix2 (jK k f') o) = w (ix2 (wrow f' k) o) := by
  have hk : k.val < 3 := k.isLt
  have hf : f'.val < 128 := f'.isLt
  have ho : o.val < 128 := o.isLt
  unfold hW128
  refine (shapeCast_apply _ shapeCasts_S3x128x128_S384x128 (ix2 (jK k f') o) (ix3 k f' o) ?_).trans ?_
  · rewrite [Shape.rowMajor_val_three, Shape.rowMajor_val_two]
    show (k.val * 128 + f'.val) * 128 + o.val = (k.val * 128 + f'.val) * 128 + o.val
    rfl
  refine (transpose_apply [1, 0, 2] _ transposes_S128x3x128_S3x128x128_1_0_2 (ix3 k f' o) (ix3 f' k o)
    (fun c => match c with
    | ⟨0, _⟩ => rfl
    | ⟨1, _⟩ => rfl
    | ⟨2, _⟩ => rfl)).trans ?_
  exact shapeCast_apply w shapeCasts_S384x128_S128x3x128 (ix3 f' k o) (ix2 (wrow f' k) o) (by
    rewrite [Shape.rowMajor_val_two, Shape.rowMajor_val_three]
    show (f'.val * 3 + k.val) * 128 + o.val = (f'.val * 3 + k.val) * 128 + o.val
    rfl)

theorem hW64_apply (w : A2 S384x64) (k : Fin 3) (f' : Fin 128) (o : Fin 64) :
    hW64 w (ix2 (jK k f') o) = w (ix2 (wrow f' k) o) := by
  have hk : k.val < 3 := k.isLt
  have hf : f'.val < 128 := f'.isLt
  have ho : o.val < 64 := o.isLt
  unfold hW64
  refine (shapeCast_apply _ shapeCasts_S3x128x64_S384x64 (ix2 (jK k f') o) (ix3 k f' o) ?_).trans ?_
  · rewrite [Shape.rowMajor_val_three, Shape.rowMajor_val_two]
    show (k.val * 128 + f'.val) * 64 + o.val = (k.val * 128 + f'.val) * 64 + o.val
    rfl
  refine (transpose_apply [1, 0, 2] _ transposes_S128x3x64_S3x128x64_1_0_2 (ix3 k f' o) (ix3 f' k o)
    (fun c => match c with
    | ⟨0, _⟩ => rfl
    | ⟨1, _⟩ => rfl
    | ⟨2, _⟩ => rfl)).trans ?_
  exact shapeCast_apply w shapeCasts_S384x64_S128x3x64 (ix3 f' k o) (ix2 (wrow f' k) o) (by
    rewrite [Shape.rowMajor_val_two, Shape.rowMajor_val_three]
    show (f'.val * 3 + k.val) * 64 + o.val = (f'.val * 3 + k.val) * 64 + o.val
    rfl)

theorem hB128_apply (v : A2 S128) (o : Fin 128) : hB128 v (ix2 (0 : Fin 1) o) = v (ix1 o) := by
  unfold hB128
  exact shapeCast_apply v shapeCasts_S128_S1x128 (ix2 (0 : Fin 1) o) (ix1 o) (by
    rewrite [Shape.rowMajor_val_one, Shape.rowMajor_val_two]
    show o.val = 0 * 128 + o.val
    omega)

theorem hB64_apply (v : A2 S64) (o : Fin 64) : hB64 v (ix2 (0 : Fin 1) o) = v (ix1 o) := by
  unfold hB64
  exact shapeCast_apply v shapeCasts_S64_S1x64 (ix2 (0 : Fin 1) o) (ix1 o) (by
    rewrite [Shape.rowMajor_val_one, Shape.rowMajor_val_two]
    show o.val = 0 * 64 + o.val
    omega)

/-- The way back: flat position ((b·1024 + n)·64 + f) of the result is flat position ((n·64 + b)·64 + f). -/
theorem hOut_apply (Z : A2 S65536x64) (n : Fin 1024) (b f : Fin 64) :
    hOut Z (ix2 b (pos n f)) = Z (ix2 (rowK n b) f) := by
  have hn : n.val < 1024 := n.isLt
  have hb : b.val < 64 := b.isLt
  have hf : f.val < 64 := f.isLt
  unfold hOut
  refine (shapeCast_apply _ shapeCasts_S64x1024x64_S64x65536 (ix2 b (pos n f)) (ix3 b n f) ?_).trans ?_
  · rewrite [Shape.rowMajor_val_three, Shape.rowMajor_val_two]
    show (b.val * 1024 + n.val) * 64 + f.val = b.val * 65536 + (n.val * 64 + f.val)
    omega
  refine (transpose_apply [1, 0, 2] _ transposes_S1024x64x64_S64x1024x64_1_0_2 (ix3 b n f) (ix3 n b f)
    (fun c => match c with
    | ⟨0, _⟩ => rfl
    | ⟨1, _⟩ => rfl
    | ⟨2, _⟩ => rfl)).trans ?_
  exact shapeCast_apply Z shapeCasts_S65536x64_S1024x64x64 (ix3 n b f) (ix2 (rowK n b) f) (by
    rewrite [Shape.rowMajor_val_two, Shape.rowMajor_val_three]
    show (n.val * 64 + b.val) * 64 + f.val = (n.val * 64 + b.val) * 64 + f.val
    rfl)

end Cert.KernelIdeal.KBridgeA

end
-- ==== Proof.KNorm.lean ====
import proofs.«118218_g51479478010102_cont_8to1_c_652_2_alg».proof.Proof.KSpec
import proofs.«118218_g51479478010102_cont_8to1_c_652_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.KernelIdeal.KNorm

open Idealize.ShloMosaic Idealize.ShloMosaic.ValueIdx
open Cert.KernelIdeal Cert.KernelIdeal.Facts₀ Cert.KernelIdeal.Facts Cert.KernelIdeal.KSpec
open Cert.Spec (pos wrow colK rowK jK lo hi)

/-- Two node numbers give the same 32-bit word only when they are equal. -/
private theorem word_inj {a b : Fin 1024} : BitVec.ofNat 32 a.val = BitVec.ofNat 32 b.val ↔ a = b := by
  constructor
  · intro h
    have h' := congrArg BitVec.toNat h
    simp only [BitVec.toNat_ofNat] at h'
    have ha := a.isLt; have hb := b.isLt
    rw [Nat.mod_eq_of_lt (by omega), Nat.mod_eq_of_lt (by omega)] at h'
    exact Fin.ext h'
  · rintro rfl; rfl

/-- The selected identity entry: 1 on the diagonal, 0 off it. -/
private theorem eye_entry (a b : Fin 1024) :
    Scalar.select (IntOp.cmpi .eq (BitVec.ofNat 32 a.val) (BitVec.ofNat 32 b.val)) (1 : EReal) 0 = Cert.Spec.eye a b := by
  unfold Cert.Spec.eye
  by_cases h : a = b
  · rw [if_pos h, (StableHlo.Predicate.cmpi_eq_iff).2 (word_inj.2 h), select_one]
  · rw [if_neg h, eq_zero_of_ne_one (fun h' => h (word_inj.1 (StableHlo.Predicate.cmpi_eq_iff.1 h'))), select_zero]

/-- The matrix plus the identity, at an entry. -/
private theorem plus_eye_apply (x : FVec Ideal S1024x1024 .f32) (h1 : S1024x1024.ShapeCasts S1024x1024)
    (h2 : S1024x1024.Iotas .tc 32 [0]) (h3 : S1024x1024.Iotas .tc 32 [1]) (a b : Fin 1024) :
    addf (shapeCast S1024x1024 x h1)
        (select (cmpi .eq (iota .tc S1024x1024 32 [0] h2) (iota .tc S1024x1024 32 [1] h3))
          (broadcast S1024x1024 (FloatOps.ofBits (F := Ideal) .f32 0x3F800000#32))
          (broadcast S1024x1024 (FloatOps.ofBits (F := Ideal) .f32 0x00000000#32))) (ix2 a b)
      = x (ix2 a b) + Cert.Spec.eye a b := by
  rw [shapeCast_self]
  show x (ix2 a b) + Scalar.select (IntOp.cmpi .eq (iota .tc S1024x1024 32 [0] h2 (ix2 a b)) (iota .tc S1024x1024 32 [1] h3 (ix2 a b)))
      (Ideal.ofBits .f32 0x3F800000#32) (Ideal.ofBits .f32 0x00000000#32) = _
  rw [iota_single_apply, iota_single_apply, Ideal.ofBits_one_f32, Ideal.ofBits_zero_f32]
  exact congrArg _ (eye_entry a b)

/-- The sum over the first coordinate, at a column. -/
private theorem colsum_apply (v : FVec Ideal S1024x1024 .f32) (h : S1024x1024.Reduces [0] S1024) (hφ : FKind.Formats .f32)
    (hacc : (0x00000000#32 : BitVec 32) = FKind.add.neutral .f32 hφ) (b : Fin 1024) :
    multiReduction (F := Ideal) .add [0] S1024 v 0x00000000#32 h hφ hacc (ix1 b) = ∑ a' : Fin 1024, v (ix2 a' b) := by
  refine (Ideal.multiReduction_add_single v 0x00000000#32 h hφ hacc (ix1 b)).trans ?_
  show ∑ k : Fin 1024, v (h.lift (ix1 b) k) = _
  refine Finset.sum_congr rfl fun k _ => congrArg v ?_
  funext ax; apply Fin.ext
  match ax with
  | ⟨0, _⟩ => rfl
  | ⟨1, _⟩ => rfl

/-- The guarded reciprocal of a row vector's entry, the vector laid as one row. -/
private theorem guarded_inv_apply (r : FVec Ideal S1024 .f32) (h : S1024.ShapeCasts S1x1024) (b : Fin 1024) :
    select (cmpf .oeq (absf (divf (broadcast S1x1024 (FloatOps.ofBits (F := Ideal) .f32 0x3F800000#32)) (shapeCast S1x1024 r h)))
          (broadcast S1x1024 (FloatOps.ofBits (F := Ideal) .f32 0x7F800000#32)))
        (broadcast S1x1024 (FloatOps.ofBits (F := Ideal) .f32 0x00000000#32))
        (divf (broadcast S1x1024 (FloatOps.ofBits (F := Ideal) .f32 0x3F800000#32)) (shapeCast S1x1024 r h)) (ix2 (0 : Fin 1) b)
      = Cert.Spec.inv (r (ix1 b)) := by
  show Scalar.select (FloatOps.cmpf (F := Ideal) (φ := .f32) .oeq
        (FloatOps.absf (F := Ideal) (φ := .f32) (Ideal.div (Ideal.ofBits .f32 0x3F800000#32) (shapeCast S1x1024 r h (ix2 (0 : Fin 1) b))))
        (Ideal.ofBits .f32 0x7F800000#32))
      (Ideal.ofBits .f32 0x00000000#32) (Ideal.div (Ideal.ofBits .f32 0x3F800000#32) (shapeCast S1x1024 r h (ix2 (0 : Fin 1) b))) = _
  rw [shapeCast_a_1a_apply, Ideal.ofBits_one_f32, Ideal.ofBits_zero_f32]
  rfl

/-- The launch's term at an entry: (x + I) times the guarded reciprocal of its column sum. -/
private theorem pay_apply (x : FVec Ideal S1024x1024 .f32) (a b : Fin 1024) :
    Gen.k0_pay1 (F := Ideal) x (ix2 a b)
      = (x (ix2 a b) + Cert.Spec.eye a b) * Cert.Spec.inv (∑ a' : Fin 1024, (x (ix2 a' b) + Cert.Spec.eye a' b)) := by
  unfold Gen.k0_pay1
  rw [mulf_apply, broadcastTo_1b_ab_apply, guarded_inv_apply, plus_eye_apply]
  refine congrArg (fun d => (x (ix2 a b) + Cert.Spec.eye a b) * Cert.Spec.inv d) ?_
  refine (colsum_apply _ _ _ _ b).trans ?_
  exact Finset.sum_congr rfl fun a' _ => plus_eye_apply x _ _ _ a' b

/-- The identity matrix is symmetric. -/
private theorem eye_comm (a b : Fin 1024) : Cert.Spec.eye a b = Cert.Spec.eye b a := by
  unfold Cert.Spec.eye
  by_cases h : a = b
  · rw [if_pos h, if_pos h.symm]
  · rw [if_neg h, if_neg (fun h' => h h'.symm)]

/-- The normalisation launch computes the transition matrix: entry (i, j) of the launch's term at the transposed
    adjacency is (adj[j,i] + δ) times the guarded reciprocal of row j's sum. -/
theorem kA_apply (adj : A2 S1024x1024) (i j : Fin 1024) : kA adj (ix2 i j) = Cert.Spec.A adj i j := by
  unfold kA Gnorm
  rw [pay_apply]
  unfold hT Cert.Spec.A Cert.Spec.deg
  rw [transpose_ix2_apply, mul_comm, eye_comm i j]
  refine congrArg (fun d => Cert.Spec.inv d * (adj (ix2 j i) + Cert.Spec.eye j i)) ?_
  refine Finset.sum_congr rfl fun i' _ => ?_
  rw [transpose_ix2_apply, eye_comm i' j]

end Cert.KernelIdeal.KNorm

end
-- ==== Proof.KBridgeB.lean ====
import proofs.«118218_g51479478010102_cont_8to1_c_652_2_alg».proof.Proof.KSpec
import proofs.«118218_g51479478010102_cont_8to1_c_652_2_alg».proof.Proof.Spec
import proofs.«118218_g51479478010102_cont_8to1_c_652_2_alg».proof.Proof.KBridgeA
import proofs.«118218_g51479478010102_cont_8to1_c_652_2_alg».proof.Proof.KNorm
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.KBridgeB

open Idealize.ShloMosaic Idealize.ShloMosaic.ValueIdx
open Cert.KernelIdeal Cert.KernelIdeal.Facts₀ Cert.KernelIdeal.Facts Cert.KernelIdeal.KSpec
open Cert.Spec (pos wrow colK rowK jK lo hi)

open Cert.KernelIdeal.KBridgeA Cert.KernelIdeal.KNorm

/-! The kernel's composed arrays, entry by entry, are the specification's quantities. -/

/-! ## The two matrix launches at an entry -/

/-- The product launch at entry (n, c): the row of the matrix against the column of the operand. -/
private theorem Gmm_ix2 (A : A2 S1024x1024) (X : A2 S1024x4096) (n : Fin 1024) (c : Fin 4096) :
    Gmm A X (ix2 n c) = ∑ k : Fin 1024, A (ix2 n k) * X (ix2 k c) := rfl

/-- The second-order launch at entry (n, c). -/
private theorem Gcheb_ix2 (A : A2 S1024x1024) (X1 X0 : A2 S1024x4096) (n : Fin 1024) (c : Fin 4096) :
    Gcheb A X1 X0 (ix2 n c) = KSpec.two * (∑ k : Fin 1024, A (ix2 n k) * X1 (ix2 k c)) - X0 (ix2 n c) := rfl

/-- A product with the transition matrix, read down one column, is one diffusion step of that column. -/
private theorem mm_entry (adj : A2 S1024x1024) (X : A2 S1024x4096) (z : Fin 1024 → EReal) (c : Fin 4096)
    (hz : ∀ k, X (ix2 k c) = z k) (n : Fin 1024) :
    Gmm (kA adj) X (ix2 n c) = Cert.Spec.d1 adj z n := by
  rw [Gmm_ix2]
  unfold Cert.Spec.d1
  refine Finset.sum_congr rfl (fun k _ => ?_)
  rw [kA_apply, hz]

/-- The second-order launch, read down one column whose first-order column is already a diffusion step. -/
private theorem cheb_entry (adj : A2 S1024x1024) (X1 X0 : A2 S1024x4096) (z : Fin 1024 → EReal) (c : Fin 4096)
    (h1 : ∀ k, X1 (ix2 k c) = Cert.Spec.d1 adj z k) (h0 : ∀ k, X0 (ix2 k c) = z k) (n : Fin 1024) :
    Gcheb (kA adj) X1 X0 (ix2 n c) = Cert.Spec.d2 adj z n := by
  rw [Gcheb_ix2]
  unfold Cert.Spec.d2
  rw [h0 n]
  have hs : (∑ k : Fin 1024, kA adj (ix2 n k) * X1 (ix2 k c))
      = ∑ k : Fin 1024, Cert.Spec.A adj n k * Cert.Spec.d1 adj z k :=
    Finset.sum_congr rfl (fun k _ => by rw [kA_apply, h1])
  rw [hs]
  rfl

/-! ## The 384 side-by-side columns as (order, feature) pairs -/

/-- Column k·128 + f' of the 384, as a pair. -/
private def jKEquiv : Fin 3 × Fin 128 ≃ Fin 384 where
  toFun p := jK p.1 p.2
  invFun j := (⟨j.val / 128, by have := j.isLt; omega⟩, ⟨j.val % 128, Nat.mod_lt _ (by decide)⟩)
  left_inv p := by
    obtain ⟨k, f'⟩ := p
    have hk := k.isLt
    have hf := f'.isLt
    apply Prod.ext
    · apply Fin.ext
      show (k.val * 128 + f'.val) / 128 = k.val
      omega
    · apply Fin.ext
      show (k.val * 128 + f'.val) % 128 = f'.val
      omega
  right_inv j := by
    apply Fin.ext
    show (j.val / 128) * 128 + j.val % 128 = j.val
    omega

/-- A sum over the 384 columns is the double sum over orders and features. -/
private theorem sum_jK (g : Fin 384 → EReal) :
    ∑ j : Fin 384, g j = ∑ k : Fin 3, ∑ f' : Fin 128, g (jK k f') := by
  rw [← Equiv.sum_comp jKEquiv g, Fintype.sum_prod_type]
  rfl

/-- The contraction over the 384 columns, term by term over (order, feature). -/
private theorem conv_sum (c W : Fin 384 → EReal) (z w : Fin 3 → Fin 128 → EReal)
    (hc : ∀ k f', c (jK k f') = z k f') (hw : ∀ k f', W (jK k f') = w k f') :
    ∑ j : Fin 384, c j * W j = ∑ k : Fin 3, ∑ f' : Fin 128, z k f' * w k f' := by
  rw [sum_jK]
  refine Finset.sum_congr rfl (fun k _ => Finset.sum_congr rfl (fun f' _ => ?_))
  rw [hc, hw]

/-- Column j of the six pieces is piece p at column q once j = p·64 + q. -/
private theorem cat6_eq (a : Fin 6 → A2 S65536x64) (r : Fin 65536) (j : Fin 384) (p : Fin 6) (q : Fin 64)
    (hp : j.val / 64 = p.val) (hq : j.val % 64 = q.val) : cat6 a r j = a p (ix2 r q) := by
  have h1 : (⟨j.val / 64, by have := j.isLt; omega⟩ : Fin 6) = p := Fin.ext hp
  have h2 : (⟨j.val % 64, Nat.mod_lt _ (by decide)⟩ : Fin 64) = q := Fin.ext hq
  show a ⟨j.val / 64, _⟩ (ix2 r ⟨j.val % 64, _⟩) = a p (ix2 r q)
  rw [h1, h2]

/-! ## The six pieces of a gate launch against the concatenated features -/

section
variable (inp : A2 S64x65536) (adj : A2 S1024x1024)

/-- Column k·128 + f' of the six pieces (x, s, A x, A s, 2A(A x) − x, 2A(A s) − s) at row (n, b) is diffusion order k
    of feature f' of the concatenation [x, s]. -/
private theorem cat6_entry (x0 s0 x1 s1 x2 s2 : A2 S65536x64) (s : Fin 1024 → Fin 64 → Fin 64 → EReal)
    (n : Fin 1024) (b : Fin 64)
    (hx0 : ∀ f, x0 (ix2 (rowK n b) f) = Cert.Spec.D adj (fun n' => Cert.Spec.xin inp n' b f) 0 n)
    (hx1 : ∀ f, x1 (ix2 (rowK n b) f) = Cert.Spec.D adj (fun n' => Cert.Spec.xin inp n' b f) 1 n)
    (hx2 : ∀ f, x2 (ix2 (rowK n b) f) = Cert.Spec.D adj (fun n' => Cert.Spec.xin inp n' b f) 2 n)
    (hs0 : ∀ f, s0 (ix2 (rowK n b) f) = Cert.Spec.D adj (fun n' => s n' b f) 0 n)
    (hs1 : ∀ f, s1 (ix2 (rowK n b) f) = Cert.Spec.D adj (fun n' => s n' b f) 1 n)
    (hs2 : ∀ f, s2 (ix2 (rowK n b) f) = Cert.Spec.D adj (fun n' => s n' b f) 2 n)
    (k : Fin 3) (f' : Fin 128) :
    cat6 ![x0, s0, x1, s1, x2, s2] (rowK n b) (jK k f') = Cert.Spec.D adj (Cert.Spec.catv inp s b f') k n := by
  have hf := f'.isLt
  by_cases h : f'.val < 64
  · have hc : Cert.Spec.catv inp s b f' = fun n' => Cert.Spec.xin inp n' b ⟨f'.val, h⟩ := by
      funext n'
      unfold Cert.Spec.catv
      rw [dif_pos h]
    rw [hc]
    match k with
    | ⟨0, _⟩ =>
      refine (cat6_eq _ _ _ (0 : Fin 6) ⟨f'.val, h⟩ ?_ ?_).trans (hx0 ⟨f'.val, h⟩)
      · show (0 * 128 + f'.val) / 64 = 0
        omega
      · show (0 * 128 + f'.val) % 64 = f'.val
        omega
    | ⟨1, _⟩ =>
      refine (cat6_eq _ _ _ (2 : Fin 6) ⟨f'.val, h⟩ ?_ ?_).trans (hx1 ⟨f'.val, h⟩)
      · show (1 * 128 + f'.val) / 64 = 2
        omega
      · show (1 * 128 + f'.val) % 64 = f'.val
        omega
    | ⟨2, _⟩ =>
      refine (cat6_eq _ _ _ (4 : Fin 6) ⟨f'.val, h⟩ ?_ ?_).trans (hx2 ⟨f'.val, h⟩)
      · show (2 * 128 + f'.val) / 64 = 4
        omega
      · show (2 * 128 + f'.val) % 64 = f'.val
        omega
  · have hc : Cert.Spec.catv inp s b f' = fun n' => s n' b ⟨f'.val - 64, by omega⟩ := by
      funext n'
      unfold Cert.Spec.catv
      rw [dif_neg h]
    rw [hc]
    match k with
    | ⟨0, _⟩ =>
      refine (cat6_eq _ _ _ (1 : Fin 6) ⟨f'.val - 64, by omega⟩ ?_ ?_).trans (hs0 ⟨f'.val - 64, by omega⟩)
      · show (0 * 128 + f'.val) / 64 = 1
        omega
      · show (0 * 128 + f'.val) % 64 = f'.val - 64
        omega
    | ⟨1, _⟩ =>
      refine (cat6_eq _ _ _ (3 : Fin 6) ⟨f'.val - 64, by omega⟩ ?_ ?_).trans (hs1 ⟨f'.val - 64, by omega⟩)
      · show (1 * 128 + f'.val) / 64 = 3
        omega
      · show (1 * 128 + f'.val) % 64 = f'.val - 64
        omega
    | ⟨2, _⟩ =>
      refine (cat6_eq _ _ _ (5 : Fin 6) ⟨f'.val - 64, by omega⟩ ?_ ?_).trans (hs2 ⟨f'.val - 64, by omega⟩)
      · show (2 * 128 + f'.val) / 64 = 5
        omega
      · show (2 * 128 + f'.val) % 64 = f'.val - 64
        omega

/-- The gates' pre-activation at row (n, b), column o, is the specification's convolution. -/
private theorem Gpre128_eq (wfn : A2 S384x128) (bfn : A2 S128)
    (x0 s0 x1 s1 x2 s2 : A2 S65536x64) (s : Fin 1024 → Fin 64 → Fin 64 → EReal)
    (n : Fin 1024) (b : Fin 64)
    (hx0 : ∀ f, x0 (ix2 (rowK n b) f) = Cert.Spec.D adj (fun n' => Cert.Spec.xin inp n' b f) 0 n)
    (hx1 : ∀ f, x1 (ix2 (rowK n b) f) = Cert.Spec.D adj (fun n' => Cert.Spec.xin inp n' b f) 1 n)
    (hx2 : ∀ f, x2 (ix2 (rowK n b) f) = Cert.Spec.D adj (fun n' => Cert.Spec.xin inp n' b f) 2 n)
    (hs0 : ∀ f, s0 (ix2 (rowK n b) f) = Cert.Spec.D adj (fun n' => s n' b f) 0 n)
    (hs1 : ∀ f, s1 (ix2 (rowK n b) f) = Cert.Spec.D adj (fun n' => s n' b f) 1 n)
    (hs2 : ∀ f, s2 (ix2 (rowK n b) f) = Cert.Spec.D adj (fun n' => s n' b f) 2 n)
    (o : Fin 128) :
    Gpre128 ![x0, s0, x1, s1, x2, s2] (hW128 wfn) (hB128 bfn) (rowK n b) o
      = Cert.Spec.gconvF inp adj wfn bfn s n b o := by
  unfold Gpre128 Cert.Spec.gconvF
  rw [hB128_apply]
  refine congrArg (· + bfn (ix1 o)) ?_
  exact conv_sum (fun j => cat6 ![x0, s0, x1, s1, x2, s2] (rowK n b) j) (fun j => hW128 wfn (ix2 j o))
    (fun k f' => Cert.Spec.D adj (Cert.Spec.catv inp s b f') k n) (fun k f' => wfn (ix2 (wrow f' k) o))
    (fun k f' => cat6_entry inp adj x0 s0 x1 s1 x2 s2 s n b hx0 hx1 hx2 hs0 hs1 hs2 k f')
    (fun k f' => hW128_apply wfn k f' o)

/-- The candidate's pre-activation at row (n, b), column o, is the specification's convolution. -/
private theorem Gpre64_eq (wg : A2 S384x64) (bg : A2 S64)
    (x0 s0 x1 s1 x2 s2 : A2 S65536x64) (s : Fin 1024 → Fin 64 → Fin 64 → EReal)
    (n : Fin 1024) (b : Fin 64)
    (hx0 : ∀ f, x0 (ix2 (rowK n b) f) = Cert.Spec.D adj (fun n' => Cert.Spec.xin inp n' b f) 0 n)
    (hx1 : ∀ f, x1 (ix2 (rowK n b) f) = Cert.Spec.D adj (fun n' => Cert.Spec.xin inp n' b f) 1 n)
    (hx2 : ∀ f, x2 (ix2 (rowK n b) f) = Cert.Spec.D adj (fun n' => Cert.Spec.xin inp n' b f) 2 n)
    (hs0 : ∀ f, s0 (ix2 (rowK n b) f) = Cert.Spec.D adj (fun n' => s n' b f) 0 n)
    (hs1 : ∀ f, s1 (ix2 (rowK n b) f) = Cert.Spec.D adj (fun n' => s n' b f) 1 n)
    (hs2 : ∀ f, s2 (ix2 (rowK n b) f) = Cert.Spec.D adj (fun n' => s n' b f) 2 n)
    (o : Fin 64) :
    Gpre64 ![x0, s0, x1, s1, x2, s2] (hW64 wg) (hB64 bg) (rowK n b) o
      = Cert.Spec.gconvG inp adj wg bg s n b o := by
  unfold Gpre64 Cert.Spec.gconvG
  rw [hB64_apply]
  refine congrArg (· + bg (ix1 o)) ?_
  exact conv_sum (fun j => cat6 ![x0, s0, x1, s1, x2, s2] (rowK n b) j) (fun j => hW64 wg (ix2 j o))
    (fun k f' => Cert.Spec.D adj (Cert.Spec.catv inp s b f') k n) (fun k f' => wg (ix2 (wrow f' k) o))
    (fun k f' => cat6_entry inp adj x0 s0 x1 s1 x2 s2 s n b hx0 hx1 hx2 hs0 hs1 hs2 k f')
    (fun k f' => hW64_apply wg k f' o)

end

section
variable (inp hx : A2 S64x65536) (adj : A2 S1024x1024) (wfn : A2 S384x128) (bfn : A2 S128) (wg : A2 S384x64) (bg : A2 S64)

theorem kP1_apply (n : Fin 1024) (b f : Fin 64) :
    kP1 inp adj (ix2 n (colK b f)) = Cert.Spec.D adj (fun n' => Cert.Spec.xin inp n' b f) 1 n := by
  show Gmm (kA adj) (hX inp) (ix2 n (colK b f)) = Cert.Spec.d1 adj (fun n' => Cert.Spec.xin inp n' b f) n
  exact mm_entry adj (hX inp) (fun n' => Cert.Spec.xin inp n' b f) (colK b f) (fun k => hX_apply inp k b f) n
theorem kH1_apply (n : Fin 1024) (b f : Fin 64) :
    kH1 hx adj (ix2 n (colK b f)) = Cert.Spec.D adj (fun n' => Cert.Spec.hin hx n' b f) 1 n := by
  show Gmm (kA adj) (hX hx) (ix2 n (colK b f)) = Cert.Spec.d1 adj (fun n' => Cert.Spec.hin hx n' b f) n
  exact mm_entry adj (hX hx) (fun n' => Cert.Spec.hin hx n' b f) (colK b f) (fun k => hX_apply hx k b f) n
theorem kP2_apply (n : Fin 1024) (b f : Fin 64) :
    kP2 inp adj (ix2 n (colK b f)) = Cert.Spec.D adj (fun n' => Cert.Spec.xin inp n' b f) 2 n := by
  show Gcheb (kA adj) (kP1 inp adj) (hX inp) (ix2 n (colK b f)) = Cert.Spec.d2 adj (fun n' => Cert.Spec.xin inp n' b f) n
  exact cheb_entry adj (kP1 inp adj) (hX inp) (fun n' => Cert.Spec.xin inp n' b f) (colK b f)
    (fun k => kP1_apply inp adj k b f) (fun k => hX_apply inp k b f) n
theorem kH2_apply (n : Fin 1024) (b f : Fin 64) :
    kH2 hx adj (ix2 n (colK b f)) = Cert.Spec.D adj (fun n' => Cert.Spec.hin hx n' b f) 2 n := by
  show Gcheb (kA adj) (kH1 hx adj) (hX hx) (ix2 n (colK b f)) = Cert.Spec.d2 adj (fun n' => Cert.Spec.hin hx n' b f) n
  exact cheb_entry adj (kH1 hx adj) (hX hx) (fun n' => Cert.Spec.hin hx n' b f) (colK b f)
    (fun k => kH1_apply hx adj k b f) (fun k => hX_apply hx k b f) n
/-- The gate launch's pre-activation at row (n, b) is the gates' convolution taken at the previous state. -/
private theorem gates_pre (n : Fin 1024) (b : Fin 64) (o : Fin 128) :
    Gpre128 ![rs (hX inp), rs (hX hx), rs (kP1 inp adj), rs (kH1 hx adj), rs (kP2 inp adj), rs (kH2 hx adj)]
        (hW128 wfn) (hB128 bfn) (rowK n b) o
      = Cert.Spec.gconvF inp adj wfn bfn (Cert.Spec.hin hx) n b o :=
  Gpre128_eq inp adj wfn bfn _ _ _ _ _ _ (Cert.Spec.hin hx) n b
    (fun f => by rw [rs_apply, hX_apply]; rfl)
    (fun f => by rw [rs_apply, kP1_apply])
    (fun f => by rw [rs_apply, kP2_apply])
    (fun f => by rw [rs_apply, hX_apply]; rfl)
    (fun f => by rw [rs_apply, kH1_apply])
    (fun f => by rw [rs_apply, kH2_apply]) o
theorem kS0_apply (n : Fin 1024) (b f : Fin 64) :
    kS0 inp hx adj wfn bfn (ix2 (rowK n b) f) = Cert.Spec.sst inp hx adj wfn bfn n b f := by
  show Ideal.logistic (Gpre128 ![rs (hX inp), rs (hX hx), rs (kP1 inp adj), rs (kH1 hx adj), rs (kP2 inp adj), rs (kH2 hx adj)]
        (hW128 wfn) (hB128 bfn) (rowK n b) (lo f)) * rs (hX hx) (ix2 (rowK n b) f)
      = Ideal.logistic (Cert.Spec.gconvF inp adj wfn bfn (Cert.Spec.hin hx) n b (lo f)) * Cert.Spec.hin hx n b f
  rw [gates_pre inp hx adj wfn bfn n b (lo f), rs_apply, hX_apply]
  rfl
theorem kU_apply (n : Fin 1024) (b f : Fin 64) :
    kU inp hx adj wfn bfn (ix2 (rowK n b) f) = Cert.Spec.ugate inp hx adj wfn bfn n b f := by
  show Ideal.logistic (Gpre128 ![rs (hX inp), rs (hX hx), rs (kP1 inp adj), rs (kH1 hx adj), rs (kP2 inp adj), rs (kH2 hx adj)]
        (hW128 wfn) (hB128 bfn) (rowK n b) (hi f))
      = Ideal.logistic (Cert.Spec.gconvF inp adj wfn bfn (Cert.Spec.hin hx) n b (hi f))
  rw [gates_pre inp hx adj wfn bfn n b (hi f)]
theorem kS1_apply (n : Fin 1024) (b f : Fin 64) :
    kS1 inp hx adj wfn bfn (ix2 n (colK b f)) = Cert.Spec.D adj (fun n' => Cert.Spec.sst inp hx adj wfn bfn n' b f) 1 n := by
  show Gmm (kA adj) (rsInv (kS0 inp hx adj wfn bfn)) (ix2 n (colK b f))
      = Cert.Spec.d1 adj (fun n' => Cert.Spec.sst inp hx adj wfn bfn n' b f) n
  exact mm_entry adj (rsInv (kS0 inp hx adj wfn bfn)) (fun n' => Cert.Spec.sst inp hx adj wfn bfn n' b f) (colK b f)
    (fun k => (rsInv_apply _ k b f).trans (kS0_apply inp hx adj wfn bfn k b f)) n
theorem kS2_apply (n : Fin 1024) (b f : Fin 64) :
    kS2 inp hx adj wfn bfn (ix2 n (colK b f)) = Cert.Spec.D adj (fun n' => Cert.Spec.sst inp hx adj wfn bfn n' b f) 2 n := by
  show Gcheb (kA adj) (kS1 inp hx adj wfn bfn) (rsInv (kS0 inp hx adj wfn bfn)) (ix2 n (colK b f))
      = Cert.Spec.d2 adj (fun n' => Cert.Spec.sst inp hx adj wfn bfn n' b f) n
  exact cheb_entry adj (kS1 inp hx adj wfn bfn) (rsInv (kS0 inp hx adj wfn bfn))
    (fun n' => Cert.Spec.sst inp hx adj wfn bfn n' b f) (colK b f)
    (fun k => kS1_apply inp hx adj wfn bfn k b f)
    (fun k => (rsInv_apply _ k b f).trans (kS0_apply inp hx adj wfn bfn k b f)) n
theorem kNew_apply (n : Fin 1024) (b f : Fin 64) :
    kNew inp hx adj wfn bfn wg bg (ix2 (rowK n b) f) = Cert.Spec.out inp hx adj wfn bfn wg bg n b f := by
  show kU inp hx adj wfn bfn (ix2 (rowK n b) f) * rs (hX hx) (ix2 (rowK n b) f)
      + (1 - kU inp hx adj wfn bfn (ix2 (rowK n b) f))
        * Ideal.tanh (Gpre64 ![rs (hX inp), kS0 inp hx adj wfn bfn, rs (kP1 inp adj), rs (kS1 inp hx adj wfn bfn),
            rs (kP2 inp adj), rs (kS2 inp hx adj wfn bfn)] (hW64 wg) (hB64 bg) (rowK n b) f)
      = Cert.Spec.ugate inp hx adj wfn bfn n b f * Cert.Spec.hin hx n b f
        + (1 - Cert.Spec.ugate inp hx adj wfn bfn n b f)
          * Ideal.tanh (Cert.Spec.gconvG inp adj wg bg (Cert.Spec.sst inp hx adj wfn bfn) n b f)
  rw [kU_apply, rs_apply, hX_apply]
  rw [Gpre64_eq inp adj wg bg _ _ _ _ _ _ (Cert.Spec.sst inp hx adj wfn bfn) n b
    (fun f => by rw [rs_apply, hX_apply]; rfl)
    (fun f => by rw [rs_apply, kP1_apply])
    (fun f => by rw [rs_apply, kP2_apply])
    (fun f => kS0_apply inp hx adj wfn bfn n b f)
    (fun f => by rw [rs_apply, kS1_apply])
    (fun f => by rw [rs_apply, kS2_apply]) f]
  rfl
/-- The kernel's result, entry (b, n·64 + f), is the new state of node n, batch row b, feature f. -/
theorem kRes_apply (n : Fin 1024) (b f : Fin 64) :
    kRes inp hx adj wfn bfn wg bg (ix2 b (pos n f)) = Cert.Spec.out inp hx adj wfn bfn wg bg n b f := by
  show hOut (kNew inp hx adj wfn bfn wg bg) (ix2 b (pos n f)) = _
  rw [hOut_apply, kNew_apply]
end

end Cert.KernelIdeal.KBridgeB

end
-- ==== Proof.RNorm.lean ====
import proofs.«118218_g51479478010102_cont_8to1_c_652_2_alg».proof.Proof.ReadP
import proofs.«118218_g51479478010102_cont_8to1_c_652_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

noncomputable section

open scoped BigOperators

namespace Cert.ReferenceIdeal.RNorm

open Idealize.ShloMosaic Idealize.ShloMosaic.ValueIdx
open Cert.ReferenceIdeal Cert.ReferenceIdeal.ReadP Cert.ReferenceIdeal.Facts₀ Cert.ReferenceIdeal.Facts
open Cert.Spec (pos wrow colR rowR lo hi)

variable (x0 x1 : (⟨S64x65536, .f32⟩ : BufTy).Contents (Elt Ideal)) (x2 : (⟨S1024x1024, .f32⟩ : BufTy).Contents (Elt Ideal))
  (x3 : (⟨S384x128, .f32⟩ : BufTy).Contents (Elt Ideal)) (x4 : (⟨S128, .f32⟩ : BufTy).Contents (Elt Ideal))
  (x5 : (⟨S384x64, .f32⟩ : BufTy).Contents (Elt Ideal)) (x6 : (⟨S64, .f32⟩ : BufTy).Contents (Elt Ideal))

/-- The converted word-comparison of a row number (plus the word 0) with a column number, both below 1024, is the
    identity matrix's entry: the words are equal exactly when the numbers are. -/
private theorem eye_entry (j i' : Fin 1024) :
    FloatOps.uitofp (F := Ideal) .f32
        (IntOp.cmpi .eq (IntOp.addi (BitVec.ofNat 32 j.val) 0#32) (BitVec.ofNat 32 i'.val)) = Cert.Spec.eye j i' := by
  show (((IntOp.cmpi .eq (IntOp.addi (BitVec.ofNat 32 j.val) 0#32) (BitVec.ofNat 32 i'.val)).toNat : ℝ) : EReal) = _
  unfold Cert.Spec.eye
  by_cases h : j = i'
  · subst h
    rw [if_pos rfl]
    have hc : IntOp.cmpi .eq (IntOp.addi (BitVec.ofNat 32 j.val) 0#32) (BitVec.ofNat 32 j.val) = 1#1 := by
      rw [StableHlo.Predicate.cmpi_eq_iff]
      show BitVec.ofNat 32 j.val + 0#32 = _
      rw [BitVec.add_zero]
    rw [hc]
    show (((1 : ℕ) : ℝ) : EReal) = 1
    rw [Nat.cast_one, EReal.coe_one]
  · rw [if_neg h]
    have hc : IntOp.cmpi .eq (IntOp.addi (BitVec.ofNat 32 j.val) 0#32) (BitVec.ofNat 32 i'.val) = 0#1 := by
      refine eq_zero_of_ne_one fun h1 => h ?_
      rw [StableHlo.Predicate.cmpi_eq_iff] at h1
      have h2 : BitVec.ofNat 32 j.val = BitVec.ofNat 32 i'.val := by
        rw [← h1]; show _ = BitVec.ofNat 32 j.val + 0#32; rw [BitVec.add_zero]
      have h3 := congrArg BitVec.toNat h2
      rw [BitVec.toNat_ofNat, BitVec.toNat_ofNat] at h3
      have hj := j.isLt
      have hi := i'.isLt
      apply Fin.ext
      omega
    rw [hc]
    show (((0 : ℕ) : ℝ) : EReal) = 0
    rw [Nat.cast_zero, EReal.coe_zero]

/-- Entry (j, i') of the reference's adj + I. -/
private theorem v6_apply (j i' : Fin 1024) :
    val_main_v6 (F := Ideal) x2 (ix2 j i') = x2 (ix2 j i') + Cert.Spec.eye j i' := by
  rw [val_main_v6_apply, val_main_v5_apply, val_main_v4_apply, val_main_v3_apply, val_main_v0_apply,
    val_main_v2_apply, val_main_c_apply, val_main_v1_apply, Ideal.addf_def]
  exact congrArg (x2 (ix2 j i') + ·) (eye_entry j i')

/-- Row sum j of the reference's adj + I: the initial value is zero and the summand's index is (j, k). -/
private theorem v7_apply (j : Fin 1024) :
    val_main_v7 (F := Ideal) x2 (ix1 j) = Cert.Spec.deg x2 j := by
  rw [val_main_v7_apply, val_main_cst_apply, Ideal.ofBits_def, Ideal.ofBits_zero_f32, zero_add]
  unfold Cert.Spec.deg
  refine Finset.sum_congr rfl fun k _ => ?_
  have e : idx_main_v7 (ix1 j) k = ix2 j k :=
    funext fun a => by match a with | ⟨0, _⟩ => rfl | ⟨1, _⟩ => rfl
  rw [e]
  exact v6_apply x2 j k

/-- The guarded reciprocal of row sum j: both sides select on the same comparison of the same quotient. -/
private theorem v11_apply (j : Fin 1024) :
    val_main_v11 (F := Ideal) x2 (ix1 j) = Cert.Spec.inv (Cert.Spec.deg x2 j) := by
  rw [val_main_v11_apply, val_main_v10_apply, val_main_call0_v0_apply, val_main_v9_apply, val_main_v8_apply,
    val_main_cst_0_apply, val_main_call0_v1_apply, val_main_call0_cst_apply, val_main_call1_v1_apply,
    val_main_call1_v0_apply, val_main_cst_1_apply, v7_apply]
  simp only [Ideal.ofBits_def, Ideal.hostDivf_def, Ideal.hostAbsf_def, Ideal.ofBits_one_f32, Ideal.ofBits_zero_f32]
  rfl

/-- The reference's transposed random-walk matrix is the transition matrix. -/
theorem v15_apply (i j : Fin 1024) : val_main_v15 (F := Ideal) x2 (ix2 i j) = Cert.Spec.A x2 i j := by
  rw [val_main_v15_apply, val_main_v14_apply, val_main_v13_apply, val_main_v12_apply, Ideal.mulf_def]
  have e15 : idx_main_v15 (ix2 i j) = ix2 j i :=
    funext fun a => by match a with | ⟨0, _⟩ => rfl | ⟨1, _⟩ => rfl
  rw [e15]
  have e12 : idx_main_v12 (idx_main_v13 (ix2 j i)) = ix1 j :=
    funext fun a => by match a with | ⟨0, _⟩ => rfl
  rw [e12, v11_apply, v6_apply]
  rfl

end Cert.ReferenceIdeal.RNorm

end
-- ==== Proof.RPass1.lean ====
import proofs.«118218_g51479478010102_cont_8to1_c_652_2_alg».proof.Proof.ReadP
import proofs.«118218_g51479478010102_cont_8to1_c_652_2_alg».proof.Proof.Spec
import proofs.«118218_g51479478010102_cont_8to1_c_652_2_alg».proof.Proof.RNorm
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RPass1

open Idealize.ShloMosaic Idealize.ShloMosaic.ValueIdx
open Cert.ReferenceIdeal Cert.ReferenceIdeal.ReadP Cert.ReferenceIdeal.Facts₀ Cert.ReferenceIdeal.Facts
open Cert.Spec (pos wrow colR rowR lo hi)

variable (x0 x1 : (⟨S64x65536, .f32⟩ : BufTy).Contents (Elt Ideal)) (x2 : (⟨S1024x1024, .f32⟩ : BufTy).Contents (Elt Ideal))
  (x3 : (⟨S384x128, .f32⟩ : BufTy).Contents (Elt Ideal)) (x4 : (⟨S128, .f32⟩ : BufTy).Contents (Elt Ideal))
  (x5 : (⟨S384x64, .f32⟩ : BufTy).Contents (Elt Ideal)) (x6 : (⟨S64, .f32⟩ : BufTy).Contents (Elt Ideal))

open Cert.ReferenceIdeal.RNorm

/-! The first graph convolution (the gates'): stages %16 … %36. -/

/-! ### The concatenated features -/

/-- Row b, column n·64 + f of a [64, 65536] array is entry (b, n, f) of its [64, 1024, 64] reshape. -/
private theorem idx16_eq (b : Fin 64) (n : Fin 1024) (f : Fin 64) :
    idx_main_v16 (ix3 b n f) = ix2 b (pos n f) := funext fun a => Fin.ext (by
  have hb := b.isLt; have hn := n.isLt; have hf := f.isLt
  match a with
  | ⟨0, _⟩ => show ((b.val * 1024 + n.val) * 64 + f.val) / 65536 = b.val; omega
  | ⟨1, _⟩ => show ((b.val * 1024 + n.val) * 64 + f.val) % 65536 = n.val * 64 + f.val; omega)

private theorem idx17_eq (b : Fin 64) (n : Fin 1024) (f : Fin 64) :
    idx_main_v17 (ix3 b n f) = ix2 b (pos n f) := funext fun a => Fin.ext (by
  have hb := b.isLt; have hn := n.isLt; have hf := f.isLt
  match a with
  | ⟨0, _⟩ => show ((b.val * 1024 + n.val) * 64 + f.val) / 65536 = b.val; omega
  | ⟨1, _⟩ => show ((b.val * 1024 + n.val) * 64 + f.val) % 65536 = n.val * 64 + f.val; omega)

/-- A feature below 64 of the concatenation comes from the input. -/
private theorem v18_left (b : Fin 64) (n : Fin 1024) (f' : Fin 128) (h : f'.val < 64) :
    val_main_v18 (F := Ideal) x0 x1 (ix3 b n f') = x0 (ix2 b (pos n ⟨f'.val, h⟩)) := by
  unfold val_main_v18
  refine (concatenate_pair_apply_left _ _ _ concatenates_S64x1024x64_S64x1024x64_S64x1024x128_d2
    (ix3 b n f') rfl (ix3 b n (⟨f'.val, h⟩ : Fin 64)) ?_).trans ?_
  · intro c
    match c with
    | ⟨0, _⟩ => rfl
    | ⟨1, _⟩ => rfl
    | ⟨2, _⟩ => rfl
  · rw [val_main_v16_apply, idx16_eq]

/-- A feature from 64 on of the concatenation comes from the state, 64 less. -/
private theorem v18_right (b : Fin 64) (n : Fin 1024) (f' : Fin 128) (h : ¬ f'.val < 64) :
    val_main_v18 (F := Ideal) x0 x1 (ix3 b n f')
      = x1 (ix2 b (pos n ⟨f'.val - 64, by have := f'.isLt; omega⟩)) := by
  unfold val_main_v18
  refine (concatenate_pair_apply_right _ _ _ concatenates_S64x1024x64_S64x1024x64_S64x1024x128_d2
    (ix3 b n f') rfl rfl (ix3 b n (⟨f'.val - 64, by have := f'.isLt; omega⟩ : Fin 64)) ?_ ?_).trans ?_
  · intro c hc
    match c with
    | ⟨0, _⟩ => rfl
    | ⟨1, _⟩ => rfl
    | ⟨2, _⟩ => exact absurd rfl hc
  · show f'.val - 64 + 64 = f'.val
    omega
  · rw [val_main_v17_apply, idx17_eq]

private theorem idx20_eq (n : Fin 1024) (f' : Fin 128) (b : Fin 64) :
    idx_main_v19 (idx_main_v20 (ix2 n (colR f' b))) = ix3 b n f' := funext fun a => Fin.ext (by
  have hn := n.isLt; have hf := f'.isLt; have hb := b.isLt
  match a with
  | ⟨0, _⟩ => show (n.val * 8192 + (f'.val * 64 + b.val)) % 64 = b.val; omega
  | ⟨1, _⟩ => show (n.val * 8192 + (f'.val * 64 + b.val)) / 8192 = n.val; omega
  | ⟨2, _⟩ => show (n.val * 8192 + (f'.val * 64 + b.val)) / 64 % 128 = f'.val; omega)

/-- The concatenated features, node-major: column f'·64 + b of row n. -/
theorem v20_apply (n : Fin 1024) (f' : Fin 128) (b : Fin 64) :
    val_main_v20 (F := Ideal) x0 x1 (ix2 n (colR f' b)) = Cert.Spec.catv x0 (Cert.Spec.hin x1) b f' n := by
  rw [val_main_v20_apply, val_main_v19_apply, idx20_eq]
  unfold Cert.Spec.catv
  by_cases h : f'.val < 64
  · rw [dif_pos h, v18_left x0 x1 b n f' h]
    rfl
  · rw [dif_neg h, v18_right x0 x1 b n f' h]
    rfl

/-! ### The diffusion orders -/

private theorem lidx21_eq (n : Fin 1024) (c : Fin 8192) (k : Fin 1024) :
    lidx_main_v21 (ix2 n c) k = ix2 n k := funext fun a => Fin.ext (by
  match a with
  | ⟨0, _⟩ => rfl
  | ⟨1, _⟩ => rfl)

private theorem ridx21_eq (n : Fin 1024) (c : Fin 8192) (k : Fin 1024) :
    ridx_main_v21 (ix2 n c) k = ix2 k c := funext fun a => Fin.ext (by
  match a with
  | ⟨0, _⟩ => rfl
  | ⟨1, _⟩ => rfl)

private theorem lidx22_eq (n : Fin 1024) (c : Fin 8192) (k : Fin 1024) :
    lidx_main_v22 (ix2 n c) k = ix2 n k := funext fun a => Fin.ext (by
  match a with
  | ⟨0, _⟩ => rfl
  | ⟨1, _⟩ => rfl)

private theorem ridx22_eq (n : Fin 1024) (c : Fin 8192) (k : Fin 1024) :
    ridx_main_v22 (ix2 n c) k = ix2 k c := funext fun a => Fin.ext (by
  match a with
  | ⟨0, _⟩ => rfl
  | ⟨1, _⟩ => rfl)

/-- One diffusion step of the concatenated features. -/
theorem v21_apply (n : Fin 1024) (f' : Fin 128) (b : Fin 64) :
    val_main_v21 (F := Ideal) x0 x1 x2 (ix2 n (colR f' b))
      = Cert.Spec.d1 x2 (Cert.Spec.catv x0 (Cert.Spec.hin x1) b f') n := by
  rw [val_main_v21_apply]
  unfold Cert.Spec.d1
  refine Finset.sum_congr rfl fun k _ => ?_
  rw [lidx21_eq, ridx21_eq, v15_apply, v20_apply]

/-- Two diffusion steps of the concatenated features. -/
theorem v22_apply (n : Fin 1024) (f' : Fin 128) (b : Fin 64) :
    val_main_v22 (F := Ideal) x0 x1 x2 (ix2 n (colR f' b))
      = ∑ k : Fin 1024, Cert.Spec.A x2 n k * Cert.Spec.d1 x2 (Cert.Spec.catv x0 (Cert.Spec.hin x1) b f') k := by
  rw [val_main_v22_apply]
  refine Finset.sum_congr rfl fun k _ => ?_
  rw [lidx22_eq, ridx22_eq, v15_apply, v21_apply]

/-- The second-order term of the concatenated features. -/
theorem v25_apply (n : Fin 1024) (f' : Fin 128) (b : Fin 64) :
    val_main_v25 (F := Ideal) x0 x1 x2 (ix2 n (colR f' b))
      = Cert.Spec.d2 x2 (Cert.Spec.catv x0 (Cert.Spec.hin x1) b f') n := by
  rw [val_main_v25_apply, val_main_v24_apply, val_main_v23_apply, val_main_cst_2_apply, v22_apply, v20_apply]
  rfl

/-! ### The stacked orders, per (batch row, node) -/

private theorem idx26_eq (z : Fin 1) (n : Fin 1024) (c : Fin 8192) :
    idx_main_v26 (ix3 z n c) = ix2 n c := funext fun a => Fin.ext (by
  match a with
  | ⟨0, _⟩ => rfl
  | ⟨1, _⟩ => rfl)

private theorem idx27_eq (z : Fin 1) (n : Fin 1024) (c : Fin 8192) :
    idx_main_v27 (ix3 z n c) = ix2 n c := funext fun a => Fin.ext (by
  match a with
  | ⟨0, _⟩ => rfl
  | ⟨1, _⟩ => rfl)

private theorem idx28_eq (z : Fin 1) (n : Fin 1024) (c : Fin 8192) :
    idx_main_v28 (ix3 z n c) = ix2 n c := funext fun a => Fin.ext (by
  match a with
  | ⟨0, _⟩ => rfl
  | ⟨1, _⟩ => rfl)

/-- Slab 0 of the stack is the features themselves. -/
private theorem v29_zero (n : Fin 1024) (c : Fin 8192) :
    val_main_v29 (F := Ideal) x0 x1 x2 (ix3 (⟨0, by omega⟩ : Fin 3) n c) = val_main_v20 (F := Ideal) x0 x1 (ix2 n c) := by
  unfold val_main_v29
  refine (concatenate_apply_piece _
    ([⟨S1x1024x8192, val_main_v26 (F := Ideal) x0 x1⟩, ⟨S1x1024x8192, val_main_v27 (F := Ideal) x0 x1 x2⟩, ⟨S1x1024x8192, val_main_v28 (F := Ideal) x0 x1 x2⟩] : List ((s : Shape) × (s.Idx → EReal)))
    concatenates_S1x1024x8192_S1x1024x8192_S1x1024x8192_S3x1024x8192_d0
    (ix3 (⟨0, by omega⟩ : Fin 3) n c) 0 (by show (0 : Nat) < 3; omega) S1x1024x8192 (val_main_v26 (F := Ideal) x0 x1) rfl rfl 0 rfl
    (ix3 (⟨0, by omega⟩ : Fin 1) n c) ?_ ?_).trans ?_
  · intro d hd
    match d with
    | ⟨0, _⟩ => exact absurd rfl hd
    | ⟨1, _⟩ => rfl
    | ⟨2, _⟩ => rfl
  · rfl
  · rw [val_main_v26_apply, idx26_eq]

/-- Slab 1 of the stack is one diffusion step. -/
private theorem v29_one (n : Fin 1024) (c : Fin 8192) :
    val_main_v29 (F := Ideal) x0 x1 x2 (ix3 (⟨1, by omega⟩ : Fin 3) n c) = val_main_v21 (F := Ideal) x0 x1 x2 (ix2 n c) := by
  unfold val_main_v29
  refine (concatenate_apply_piece _
    ([⟨S1x1024x8192, val_main_v26 (F := Ideal) x0 x1⟩, ⟨S1x1024x8192, val_main_v27 (F := Ideal) x0 x1 x2⟩, ⟨S1x1024x8192, val_main_v28 (F := Ideal) x0 x1 x2⟩] : List ((s : Shape) × (s.Idx → EReal)))
    concatenates_S1x1024x8192_S1x1024x8192_S1x1024x8192_S3x1024x8192_d0
    (ix3 (⟨1, by omega⟩ : Fin 3) n c) 1 (by show (1 : Nat) < 3; omega) S1x1024x8192 (val_main_v27 (F := Ideal) x0 x1 x2) rfl rfl 1 rfl
    (ix3 (⟨0, by omega⟩ : Fin 1) n c) ?_ ?_).trans ?_
  · intro d hd
    match d with
    | ⟨0, _⟩ => exact absurd rfl hd
    | ⟨1, _⟩ => rfl
    | ⟨2, _⟩ => rfl
  · rfl
  · rw [val_main_v27_apply, idx27_eq]

/-- Slab 2 of the stack is the second-order term. -/
private theorem v29_two (n : Fin 1024) (c : Fin 8192) :
    val_main_v29 (F := Ideal) x0 x1 x2 (ix3 (⟨2, by omega⟩ : Fin 3) n c) = val_main_v25 (F := Ideal) x0 x1 x2 (ix2 n c) := by
  unfold val_main_v29
  refine (concatenate_apply_piece _
    ([⟨S1x1024x8192, val_main_v26 (F := Ideal) x0 x1⟩, ⟨S1x1024x8192, val_main_v27 (F := Ideal) x0 x1 x2⟩, ⟨S1x1024x8192, val_main_v28 (F := Ideal) x0 x1 x2⟩] : List ((s : Shape) × (s.Idx → EReal)))
    concatenates_S1x1024x8192_S1x1024x8192_S1x1024x8192_S3x1024x8192_d0
    (ix3 (⟨2, by omega⟩ : Fin 3) n c) 2 (by show (2 : Nat) < 3; omega) S1x1024x8192 (val_main_v28 (F := Ideal) x0 x1 x2) rfl rfl 2 rfl
    (ix3 (⟨0, by omega⟩ : Fin 1) n c) ?_ ?_).trans ?_
  · intro d hd
    match d with
    | ⟨0, _⟩ => exact absurd rfl hd
    | ⟨1, _⟩ => rfl
    | ⟨2, _⟩ => rfl
  · rfl
  · rw [val_main_v28_apply, idx28_eq]

private theorem idx32_eq (b : Fin 64) (n : Fin 1024) (f' : Fin 128) (k : Fin 3) :
    idx_main_v32 (ix2 (rowR b n) (wrow f' k)) = ix4 b n f' k := funext fun a => Fin.ext (by
  have hb := b.isLt; have hn := n.isLt; have hf := f'.isLt; have hk := k.isLt
  match a with
  | ⟨0, _⟩ => show ((b.val * 1024 + n.val) * 384 + (f'.val * 3 + k.val)) / 393216 = b.val; omega
  | ⟨1, _⟩ => show ((b.val * 1024 + n.val) * 384 + (f'.val * 3 + k.val)) / 384 % 1024 = n.val; omega
  | ⟨2, _⟩ => show ((b.val * 1024 + n.val) * 384 + (f'.val * 3 + k.val)) / 3 % 128 = f'.val; omega
  | ⟨3, _⟩ => show ((b.val * 1024 + n.val) * 384 + (f'.val * 3 + k.val)) % 3 = k.val; omega)

private theorem idx31_eq (b : Fin 64) (n : Fin 1024) (f' : Fin 128) (k : Fin 3) :
    idx_main_v31 (ix4 b n f' k) = ix4 k n f' b := funext fun a => Fin.ext (by
  match a with
  | ⟨0, _⟩ => rfl
  | ⟨1, _⟩ => rfl
  | ⟨2, _⟩ => rfl
  | ⟨3, _⟩ => rfl)

private theorem idx30_eq (k : Fin 3) (n : Fin 1024) (f' : Fin 128) (b : Fin 64) :
    idx_main_v30 (ix4 k n f' b) = ix3 k n (colR f' b) := funext fun a => Fin.ext (by
  have hb := b.isLt; have hn := n.isLt; have hf := f'.isLt; have hk := k.isLt
  match a with
  | ⟨0, _⟩ => show (((k.val * 1024 + n.val) * 128 + f'.val) * 64 + b.val) / 8388608 = k.val; omega
  | ⟨1, _⟩ => show (((k.val * 1024 + n.val) * 128 + f'.val) * 64 + b.val) / 8192 % 1024 = n.val; omega
  | ⟨2, _⟩ => show (((k.val * 1024 + n.val) * 128 + f'.val) * 64 + b.val) % 8192 = f'.val * 64 + b.val; omega)

/-- The stacked diffusion orders laid out per (batch row, node): column f'·3 + k of row b·1024 + n. -/
theorem v32_apply (b : Fin 64) (n : Fin 1024) (f' : Fin 128) (k : Fin 3) :
    val_main_v32 (F := Ideal) x0 x1 x2 (ix2 (rowR b n) (wrow f' k))
      = Cert.Spec.D x2 (Cert.Spec.catv x0 (Cert.Spec.hin x1) b f') k n := by
  rw [val_main_v32_apply, val_main_v31_apply, val_main_v30_apply, idx32_eq, idx31_eq, idx30_eq]
  match k with
  | ⟨0, _⟩ => exact (v29_zero x0 x1 x2 n (colR f' b)).trans (v20_apply x0 x1 n f' b)
  | ⟨1, _⟩ => exact (v29_one x0 x1 x2 n (colR f' b)).trans (v21_apply x0 x1 x2 n f' b)
  | ⟨2, _⟩ => exact (v29_two x0 x1 x2 n (colR f' b)).trans (v25_apply x0 x1 x2 n f' b)

/-! ### The contraction with the weights -/

/-- The 384 weight rows are the pairs (feature, order). -/
private def wrowEquiv : Fin 128 × Fin 3 ≃ Fin 384 where
  toFun p := wrow p.1 p.2
  invFun j := (⟨j.val / 3, by have := j.isLt; omega⟩, ⟨j.val % 3, by omega⟩)
  left_inv p := by
    have h1 := p.1.isLt; have h2 := p.2.isLt
    refine Prod.ext (Fin.ext ?_) (Fin.ext ?_)
    · show (p.1.val * 3 + p.2.val) / 3 = p.1.val; omega
    · show (p.1.val * 3 + p.2.val) % 3 = p.2.val; omega
  right_inv j := Fin.ext (by show j.val / 3 * 3 + j.val % 3 = j.val; omega)

private theorem sum_wrow (g : Fin 384 → EReal) :
    ∑ j : Fin 384, g j = ∑ k : Fin 3, ∑ f' : Fin 128, g (wrow f' k) := by
  rw [← Equiv.sum_comp wrowEquiv g, Fintype.sum_prod_type, Finset.sum_comm]
  rfl

private theorem lidx33_eq (r : Fin 65536) (o : Fin 128) (j : Fin 384) :
    lidx_main_v33 (ix2 r o) j = ix2 r j := funext fun a => Fin.ext (by
  match a with
  | ⟨0, _⟩ => rfl
  | ⟨1, _⟩ => rfl)

private theorem ridx33_eq (r : Fin 65536) (o : Fin 128) (j : Fin 384) :
    ridx_main_v33 (ix2 r o) j = ix2 j o := funext fun a => Fin.ext (by
  match a with
  | ⟨0, _⟩ => rfl
  | ⟨1, _⟩ => rfl)

private theorem idx35_eq (r : Fin 65536) (o : Fin 128) :
    idx_main_v34 (idx_main_v35 (ix2 r o)) = ix1 o := funext fun a => Fin.ext (by
  match a with
  | ⟨0, _⟩ => rfl)

/-- The gates' pre-activation. -/
theorem v36_apply (b : Fin 64) (n : Fin 1024) (o : Fin 128) :
    val_main_v36 (F := Ideal) x0 x1 x2 x3 x4 (ix2 (rowR b n) o) = Cert.Spec.gconvF x0 x2 x3 x4 (Cert.Spec.hin x1) n b o := by
  rw [val_main_v36_apply, val_main_v33_apply, val_main_v35_apply, val_main_v34_apply, idx35_eq, Ideal.addf_def]
  unfold Cert.Spec.gconvF
  refine congrArg (· + x4 (ix1 o)) ?_
  rw [sum_wrow]
  refine Finset.sum_congr rfl fun k _ => Finset.sum_congr rfl fun f' _ => ?_
  rw [lidx33_eq, ridx33_eq, v32_apply]

end Cert.ReferenceIdeal.RPass1

end
-- ==== Proof.RGates.lean ====
import proofs.«118218_g51479478010102_cont_8to1_c_652_2_alg».proof.Proof.ReadP
import proofs.«118218_g51479478010102_cont_8to1_c_652_2_alg».proof.Proof.Spec
import proofs.«118218_g51479478010102_cont_8to1_c_652_2_alg».proof.Proof.RPass1
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RGates

open Idealize.ShloMosaic Idealize.ShloMosaic.ValueIdx
open Cert.ReferenceIdeal Cert.ReferenceIdeal.ReadP Cert.ReferenceIdeal.Facts₀ Cert.ReferenceIdeal.Facts
open Cert.Spec (pos wrow colR rowR lo hi)

variable (x0 x1 : (⟨S64x65536, .f32⟩ : BufTy).Contents (Elt Ideal)) (x2 : (⟨S1024x1024, .f32⟩ : BufTy).Contents (Elt Ideal))
  (x3 : (⟨S384x128, .f32⟩ : BufTy).Contents (Elt Ideal)) (x4 : (⟨S128, .f32⟩ : BufTy).Contents (Elt Ideal))
  (x5 : (⟨S384x64, .f32⟩ : BufTy).Contents (Elt Ideal)) (x6 : (⟨S64, .f32⟩ : BufTy).Contents (Elt Ideal))

open Cert.ReferenceIdeal.RPass1

/-! The gates: stages %37 … %49 (logistic as negate, exponential, add, divide; the two halves; r·h). -/

/-- Column of (node n, gate output o) in a row of 1024·128 entries: n·128 + o. -/
private def pos2 (n : Fin 1024) (o : Fin 128) : Fin 131072 :=
  ⟨n.val * 128 + o.val, by have := n.isLt; have := o.isLt; omega⟩

/-- Entry (b, n·128 + o) of the [64, 1024·128] view is entry (b·1024 + n, o) of the [64·1024, 128] one. -/
private theorem idx37_at (b : Fin 64) (n : Fin 1024) (o : Fin 128) :
    idx_main_v37 (ix2 b (pos2 n o)) = ix2 (rowR b n) o := by
  have hb := b.isLt; have hn := n.isLt; have ho := o.isLt
  funext a
  apply Fin.ext
  match a with
  | ⟨0, _⟩ => show (b.val * 131072 + (n.val * 128 + o.val)) / 128 = b.val * 1024 + n.val; omega
  | ⟨1, _⟩ => show (b.val * 131072 + (n.val * 128 + o.val)) % 128 = o.val; omega

/-- Entry (b, n, o) of the [64, 1024, 128] view is entry (b, n·128 + o) of the [64, 1024·128] one. -/
private theorem idx44_at (b : Fin 64) (n : Fin 1024) (o : Fin 128) :
    idx_main_v44 (ix3 b n o) = ix2 b (pos2 n o) := by
  have hb := b.isLt; have hn := n.isLt; have ho := o.isLt
  funext a
  apply Fin.ext
  match a with
  | ⟨0, _⟩ => show ((b.val * 1024 + n.val) * 128 + o.val) / 131072 = b.val; omega
  | ⟨1, _⟩ => show ((b.val * 1024 + n.val) * 128 + o.val) % 131072 = n.val * 128 + o.val; omega

/-- The lower half of the last axis: output f of the slice is output f of the whole. -/
private theorem idx45_at (b : Fin 64) (n : Fin 1024) (f : Fin 64) :
    idx_main_v45 (ix3 b n f) = ix3 b n (lo f) := by
  funext a
  apply Fin.ext
  match a with
  | ⟨0, _⟩ => rfl
  | ⟨1, _⟩ => rfl
  | ⟨2, _⟩ => rfl

/-- The upper half of the last axis: output f of the slice is output 64 + f of the whole. -/
private theorem idx47_at (b : Fin 64) (n : Fin 1024) (f : Fin 64) :
    idx_main_v47 (ix3 b n f) = ix3 b n (hi f) := by
  funext a
  apply Fin.ext
  match a with
  | ⟨0, _⟩ => rfl
  | ⟨1, _⟩ => rfl
  | ⟨2, _⟩ => rfl

/-- Entry (b, n·64 + f) of the [64, 1024·64] view is entry (b, n, f) of the [64, 1024, 64] one. -/
private theorem idx46_at (b : Fin 64) (n : Fin 1024) (f : Fin 64) :
    idx_main_v46 (ix2 b (pos n f)) = ix3 b n f := by
  have hb := b.isLt; have hn := n.isLt; have hf := f.isLt
  funext a
  apply Fin.ext
  match a with
  | ⟨0, _⟩ => show (b.val * 65536 + (n.val * 64 + f.val)) / 65536 = b.val; omega
  | ⟨1, _⟩ => show (b.val * 65536 + (n.val * 64 + f.val)) / 64 % 1024 = n.val; omega
  | ⟨2, _⟩ => show (b.val * 65536 + (n.val * 64 + f.val)) % 64 = f.val; omega

/-- The same reading for the second reshape. -/
private theorem idx48_at (b : Fin 64) (n : Fin 1024) (f : Fin 64) :
    idx_main_v48 (ix2 b (pos n f)) = ix3 b n f := by
  have hb := b.isLt; have hn := n.isLt; have hf := f.isLt
  funext a
  apply Fin.ext
  match a with
  | ⟨0, _⟩ => show (b.val * 65536 + (n.val * 64 + f.val)) / 65536 = b.val; omega
  | ⟨1, _⟩ => show (b.val * 65536 + (n.val * 64 + f.val)) / 64 % 1024 = n.val; omega
  | ⟨2, _⟩ => show (b.val * 65536 + (n.val * 64 + f.val)) % 64 = f.val; omega

/-- One over (one plus the exponential of the negation) is the logistic, by its definition. -/
private theorem logistic_chain (z : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) z)))
      = Ideal.logistic z := by
  simp only [Ideal.hostDivf_def, Ideal.hostUnary_exp_def, Ideal.hostNegf_def, Ideal.negf_def, Ideal.addf_def,
    Ideal.ofBits_def, Ideal.ofBits_one_f32]
  rfl

/-- Entry (b, n·128 + o) of the quotient is the logistic of the gates' pre-activation at node n, batch row b, output o. -/
private theorem v43_at (b : Fin 64) (n : Fin 1024) (o : Fin 128) :
    val_main_v43 (F := Ideal) x0 x1 x2 x3 x4 (ix2 b (pos2 n o))
      = Ideal.logistic (Cert.Spec.gconvF x0 x2 x3 x4 (Cert.Spec.hin x1) n b o) := by
  rw [val_main_v43_apply, val_main_v42_apply, val_main_cst_4_apply, val_main_v41_apply, val_main_v40_apply,
    val_main_cst_3_apply, val_main_v39_apply, val_main_v38_apply, val_main_v37_apply, idx37_at, v36_apply]
  exact logistic_chain _

/-- The same entry in the [64, 1024, 128] view. -/
private theorem v44_at (b : Fin 64) (n : Fin 1024) (o : Fin 128) :
    val_main_v44 (F := Ideal) x0 x1 x2 x3 x4 (ix3 b n o)
      = Ideal.logistic (Cert.Spec.gconvF x0 x2 x3 x4 (Cert.Spec.hin x1) n b o) := by
  rw [val_main_v44_apply, idx44_at, v43_at]

theorem v46_apply (b : Fin 64) (n : Fin 1024) (f : Fin 64) :
    val_main_v46 (F := Ideal) x0 x1 x2 x3 x4 (ix2 b (pos n f)) = Cert.Spec.rgate x0 x1 x2 x3 x4 n b f := by
  have h : val_main_v46 (F := Ideal) x0 x1 x2 x3 x4 (ix2 b (pos n f))
      = Ideal.logistic (Cert.Spec.gconvF x0 x2 x3 x4 (Cert.Spec.hin x1) n b (lo f)) := by
    rw [val_main_v46_apply, idx46_at, val_main_v45_apply, idx45_at, v44_at]
  exact h

theorem v48_apply (b : Fin 64) (n : Fin 1024) (f : Fin 64) :
    val_main_v48 (F := Ideal) x0 x1 x2 x3 x4 (ix2 b (pos n f)) = Cert.Spec.ugate x0 x1 x2 x3 x4 n b f := by
  have h : val_main_v48 (F := Ideal) x0 x1 x2 x3 x4 (ix2 b (pos n f))
      = Ideal.logistic (Cert.Spec.gconvF x0 x2 x3 x4 (Cert.Spec.hin x1) n b (hi f)) := by
    rw [val_main_v48_apply, idx48_at, val_main_v47_apply, idx47_at, v44_at]
  exact h

theorem v49_apply (b : Fin 64) (n : Fin 1024) (f : Fin 64) :
    val_main_v49 (F := Ideal) x0 x1 x2 x3 x4 (ix2 b (pos n f)) = Cert.Spec.sst x0 x1 x2 x3 x4 n b f := by
  have h : val_main_v49 (F := Ideal) x0 x1 x2 x3 x4 (ix2 b (pos n f))
      = Cert.Spec.rgate x0 x1 x2 x3 x4 n b f * x1 (ix2 b (pos n f)) := by
    rw [val_main_v49_apply, v46_apply, Ideal.mulf_def]
  exact h

end Cert.ReferenceIdeal.RGates

end
-- ==== Proof.RPass2.lean ====
import proofs.«118218_g51479478010102_cont_8to1_c_652_2_alg».proof.Proof.ReadP
import proofs.«118218_g51479478010102_cont_8to1_c_652_2_alg».proof.Proof.Spec
import proofs.«118218_g51479478010102_cont_8to1_c_652_2_alg».proof.Proof.RNorm
import proofs.«118218_g51479478010102_cont_8to1_c_652_2_alg».proof.Proof.RGates
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RPass2

open Idealize.ShloMosaic Idealize.ShloMosaic.ValueIdx
open Cert.ReferenceIdeal Cert.ReferenceIdeal.ReadP Cert.ReferenceIdeal.Facts₀ Cert.ReferenceIdeal.Facts
open Cert.Spec (pos wrow colR rowR lo hi)

variable (x0 x1 : (⟨S64x65536, .f32⟩ : BufTy).Contents (Elt Ideal)) (x2 : (⟨S1024x1024, .f32⟩ : BufTy).Contents (Elt Ideal))
  (x3 : (⟨S384x128, .f32⟩ : BufTy).Contents (Elt Ideal)) (x4 : (⟨S128, .f32⟩ : BufTy).Contents (Elt Ideal))
  (x5 : (⟨S384x64, .f32⟩ : BufTy).Contents (Elt Ideal)) (x6 : (⟨S64, .f32⟩ : BufTy).Contents (Elt Ideal))

open Cert.ReferenceIdeal.RNorm Cert.ReferenceIdeal.RGates

/-! The second graph convolution (the candidate's), at the state r·h: stages %50 … %70. -/

/-! ### Index arithmetic: each layout stage's source index at explicit coordinates -/

/-- Column f'·64 + b of row n of the [1024, 8192] matrix is entry (b, n, f') of the concatenation. -/
private theorem idx_53_54 (n : Fin 1024) (f' : Fin 128) (b : Fin 64) :
    idx_main_v53 (idx_main_v54 (ix2 n (colR f' b))) = ix3 b n f' :=
  funext fun a => Fin.ext (by
    have hn := n.isLt; have hf := f'.isLt; have hb := b.isLt
    match a with
    | ⟨0, _⟩ => show (n.val * 8192 + (f'.val * 64 + b.val)) % 64 = b.val; omega
    | ⟨1, _⟩ => show (n.val * 8192 + (f'.val * 64 + b.val)) / 8192 = n.val; omega
    | ⟨2, _⟩ => show (n.val * 8192 + (f'.val * 64 + b.val)) / 64 % 128 = f'.val; omega)

/-- Entry (b, n, g) of the [64, 1024, 64] view of a [64, 65536] array is its entry (b, n·64 + g). -/
private theorem idx_50 (b : Fin 64) (n : Fin 1024) (g : Fin 64) :
    idx_main_v50 (ix3 b n g) = ix2 b (pos n g) :=
  funext fun a => Fin.ext (by
    have hn := n.isLt; have hg := g.isLt; have hb := b.isLt
    match a with
    | ⟨0, _⟩ => show ((b.val * 1024 + n.val) * 64 + g.val) / 65536 = b.val; omega
    | ⟨1, _⟩ => show ((b.val * 1024 + n.val) * 64 + g.val) % 65536 = n.val * 64 + g.val; omega)

private theorem idx_51 (b : Fin 64) (n : Fin 1024) (g : Fin 64) :
    idx_main_v51 (ix3 b n g) = ix2 b (pos n g) :=
  funext fun a => Fin.ext (by
    have hn := n.isLt; have hg := g.isLt; have hb := b.isLt
    match a with
    | ⟨0, _⟩ => show ((b.val * 1024 + n.val) * 64 + g.val) / 65536 = b.val; omega
    | ⟨1, _⟩ => show ((b.val * 1024 + n.val) * 64 + g.val) % 65536 = n.val * 64 + g.val; omega)

/-- The concatenation [x, r·h] along the features, read at (b, n, f'). -/
private theorem v52_apply (b : Fin 64) (n : Fin 1024) (f' : Fin 128) :
    val_main_v52 (F := Ideal) x0 x1 x2 x3 x4 (ix3 b n f')
      = Cert.Spec.catv x0 (Cert.Spec.sst x0 x1 x2 x3 x4) b f' n := by
  unfold val_main_v52
  by_cases hf : f'.val < 64
  · refine (concatenate_pair_apply_left (t := S64x1024x128) (s₁ := S64x1024x64) (s₂ := S64x1024x64) 2
      (val_main_v50 (F := Ideal) x0) (val_main_v51 (F := Ideal) x0 x1 x2 x3 x4)
      concatenates_S64x1024x64_S64x1024x64_S64x1024x128_d2 (ix3 b n f') rfl (ix3 b n ⟨f'.val, hf⟩)
      (fun c => by match c with
        | ⟨0, _⟩ => rfl
        | ⟨1, _⟩ => rfl
        | ⟨2, _⟩ => rfl)).trans ?_
    rw [val_main_v50_apply, idx_50]
    unfold Cert.Spec.catv Cert.Spec.xin
    rw [dif_pos hf]
  · have hf' := f'.isLt
    refine (concatenate_pair_apply_right (t := S64x1024x128) (s₁ := S64x1024x64) (s₂ := S64x1024x64) 2
      (val_main_v50 (F := Ideal) x0) (val_main_v51 (F := Ideal) x0 x1 x2 x3 x4)
      concatenates_S64x1024x64_S64x1024x64_S64x1024x128_d2 (ix3 b n f') rfl rfl
      (ix3 b n ⟨f'.val - 64, by omega⟩)
      (fun c => by match c with
        | ⟨0, _⟩ => exact fun _ => rfl
        | ⟨1, _⟩ => exact fun _ => rfl
        | ⟨2, _⟩ => exact fun h => absurd rfl h)
      (by show (f'.val - 64) + 64 = f'.val; omega)).trans ?_
    rw [val_main_v51_apply, idx_51, v49_apply]
    unfold Cert.Spec.catv
    rw [dif_neg hf]

theorem v54_apply (n : Fin 1024) (f' : Fin 128) (b : Fin 64) :
    val_main_v54 (F := Ideal) x0 x1 x2 x3 x4 (ix2 n (colR f' b)) = Cert.Spec.catv x0 (Cert.Spec.sst x0 x1 x2 x3 x4) b f' n := by
  rw [val_main_v54_apply, val_main_v53_apply, idx_53_54]
  exact v52_apply x0 x1 x2 x3 x4 b n f'

/-! ### The two diffusion steps and the second-order term -/

private theorem v55_apply (n : Fin 1024) (f' : Fin 128) (b : Fin 64) :
    val_main_v55 (F := Ideal) x0 x1 x2 x3 x4 (ix2 n (colR f' b))
      = Cert.Spec.d1 x2 (Cert.Spec.catv x0 (Cert.Spec.sst x0 x1 x2 x3 x4) b f') n := by
  rw [val_main_v55_apply]
  unfold Cert.Spec.d1
  refine Finset.sum_congr rfl fun k _ => ?_
  have el : lidx_main_v55 (ix2 n (colR f' b)) k = ix2 n k :=
    funext fun a => Fin.ext (by match a with | ⟨0, _⟩ => rfl | ⟨1, _⟩ => rfl)
  have er : ridx_main_v55 (ix2 n (colR f' b)) k = ix2 k (colR f' b) :=
    funext fun a => Fin.ext (by match a with | ⟨0, _⟩ => rfl | ⟨1, _⟩ => rfl)
  rw [el, er, v15_apply, v54_apply]

private theorem v56_apply (n : Fin 1024) (f' : Fin 128) (b : Fin 64) :
    val_main_v56 (F := Ideal) x0 x1 x2 x3 x4 (ix2 n (colR f' b))
      = ∑ k : Fin 1024, Cert.Spec.A x2 n k
          * Cert.Spec.d1 x2 (Cert.Spec.catv x0 (Cert.Spec.sst x0 x1 x2 x3 x4) b f') k := by
  rw [val_main_v56_apply]
  refine Finset.sum_congr rfl fun k _ => ?_
  have el : lidx_main_v56 (ix2 n (colR f' b)) k = ix2 n k :=
    funext fun a => Fin.ext (by match a with | ⟨0, _⟩ => rfl | ⟨1, _⟩ => rfl)
  have er : ridx_main_v56 (ix2 n (colR f' b)) k = ix2 k (colR f' b) :=
    funext fun a => Fin.ext (by match a with | ⟨0, _⟩ => rfl | ⟨1, _⟩ => rfl)
  rw [el, er, v15_apply, v55_apply]

private theorem v59_apply (n : Fin 1024) (f' : Fin 128) (b : Fin 64) :
    val_main_v59 (F := Ideal) x0 x1 x2 x3 x4 (ix2 n (colR f' b))
      = Cert.Spec.d2 x2 (Cert.Spec.catv x0 (Cert.Spec.sst x0 x1 x2 x3 x4) b f') n := by
  rw [val_main_v59_apply, val_main_v58_apply, val_main_v57_apply, val_main_cst_5_apply, v56_apply, v54_apply]
  unfold Cert.Spec.d2 Cert.Spec.two
  simp only [Ideal.ofBits_def, Ideal.mulf_def, Ideal.subf_def]

/-! ### The three orders stacked, re-laid as rows b·1024 + n and columns f'·3 + k -/

private theorem idx_66 (b : Fin 64) (n : Fin 1024) (f' : Fin 128) (k : Fin 3) :
    idx_main_v66 (ix2 (rowR b n) (wrow f' k)) = ix4 b n f' k :=
  funext fun a => Fin.ext (by
    have hn := n.isLt; have hf := f'.isLt; have hb := b.isLt; have hk := k.isLt
    match a with
    | ⟨0, _⟩ => show ((b.val * 1024 + n.val) * 384 + (f'.val * 3 + k.val)) / 393216 = b.val; omega
    | ⟨1, _⟩ => show ((b.val * 1024 + n.val) * 384 + (f'.val * 3 + k.val)) / 384 % 1024 = n.val; omega
    | ⟨2, _⟩ => show ((b.val * 1024 + n.val) * 384 + (f'.val * 3 + k.val)) / 3 % 128 = f'.val; omega
    | ⟨3, _⟩ => show ((b.val * 1024 + n.val) * 384 + (f'.val * 3 + k.val)) % 3 = k.val; omega)

private theorem idx_65 (b : Fin 64) (n : Fin 1024) (f' : Fin 128) (k : Fin 3) :
    idx_main_v65 (ix4 b n f' k) = ix4 k n f' b :=
  funext fun a => Fin.ext (by
    match a with
    | ⟨0, _⟩ => rfl
    | ⟨1, _⟩ => rfl
    | ⟨2, _⟩ => rfl
    | ⟨3, _⟩ => rfl)

private theorem idx_64 (b : Fin 64) (n : Fin 1024) (f' : Fin 128) (k : Fin 3) :
    idx_main_v64 (ix4 k n f' b) = ix3 k n (colR f' b) :=
  funext fun a => Fin.ext (by
    have hn := n.isLt; have hf := f'.isLt; have hb := b.isLt; have hk := k.isLt
    match a with
    | ⟨0, _⟩ => show (((k.val * 1024 + n.val) * 128 + f'.val) * 64 + b.val) / 8388608 = k.val; omega
    | ⟨1, _⟩ => show (((k.val * 1024 + n.val) * 128 + f'.val) * 64 + b.val) / 8192 % 1024 = n.val; omega
    | ⟨2, _⟩ => show (((k.val * 1024 + n.val) * 128 + f'.val) * 64 + b.val) % 8192 = f'.val * 64 + b.val; omega)

private theorem idx_6x (c : Fin 8192) (n : Fin 1024) (z : Fin 1) :
    (idx_main_v60 (ix3 z n c) = ix2 n c) ∧ (idx_main_v61 (ix3 z n c) = ix2 n c) ∧ (idx_main_v62 (ix3 z n c) = ix2 n c) :=
  ⟨funext fun a => Fin.ext (by match a with | ⟨0, _⟩ => rfl | ⟨1, _⟩ => rfl),
   funext fun a => Fin.ext (by match a with | ⟨0, _⟩ => rfl | ⟨1, _⟩ => rfl),
   funext fun a => Fin.ext (by match a with | ⟨0, _⟩ => rfl | ⟨1, _⟩ => rfl)⟩

/-- The stack of the three orders, read at (k, n, f'·64 + b). -/
private theorem v63_apply (k : Fin 3) (n : Fin 1024) (f' : Fin 128) (b : Fin 64) :
    val_main_v63 (F := Ideal) x0 x1 x2 x3 x4 (ix3 k n (colR f' b))
      = Cert.Spec.D x2 (Cert.Spec.catv x0 (Cert.Spec.sst x0 x1 x2 x3 x4) b f') k n := by
  unfold val_main_v63
  have hi : ∀ (j : S3x1024x8192.Idx) (i : S1x1024x8192.Idx), (i 1).val = (j 1).val → (i 2).val = (j 2).val →
      ∀ c : Fin S1x1024x8192.rank, c.cast (rfl : S1x1024x8192.rank = S3x1024x8192.rank) ≠ (0 : Fin S3x1024x8192.rank) →
        (i c).val = (j (c.cast (rfl : S1x1024x8192.rank = S3x1024x8192.rank))).val := fun j i h1 h2 c => by
    match c with
    | ⟨0, _⟩ => exact fun h => absurd rfl h
    | ⟨1, _⟩ => exact fun _ => h1
    | ⟨2, _⟩ => exact fun _ => h2
  match k with
  | ⟨0, hk⟩ =>
    refine (concatenate_apply_piece (t := S3x1024x8192) 0
      [⟨S1x1024x8192, val_main_v60 (F := Ideal) x0 x1 x2 x3 x4⟩, ⟨S1x1024x8192, val_main_v61 (F := Ideal) x0 x1 x2 x3 x4⟩, ⟨S1x1024x8192, val_main_v62 (F := Ideal) x0 x1 x2 x3 x4⟩]
      concatenates_S1x1024x8192_S1x1024x8192_S1x1024x8192_S3x1024x8192_d0
      (ix3 ⟨0, hk⟩ n (colR f' b)) 0 (show (0 : Nat) < 3 by decide) S1x1024x8192 (val_main_v60 (F := Ideal) x0 x1 x2 x3 x4) rfl rfl 0 rfl
      (ix3 (0 : Fin 1) n (colR f' b)) (hi _ _ rfl rfl) rfl).trans ?_
    rw [val_main_v60_apply, (idx_6x (colR f' b) n 0).1, v54_apply]
    rfl
  | ⟨1, hk⟩ =>
    refine (concatenate_apply_piece (t := S3x1024x8192) 0
      [⟨S1x1024x8192, val_main_v60 (F := Ideal) x0 x1 x2 x3 x4⟩, ⟨S1x1024x8192, val_main_v61 (F := Ideal) x0 x1 x2 x3 x4⟩, ⟨S1x1024x8192, val_main_v62 (F := Ideal) x0 x1 x2 x3 x4⟩]
      concatenates_S1x1024x8192_S1x1024x8192_S1x1024x8192_S3x1024x8192_d0
      (ix3 ⟨1, hk⟩ n (colR f' b)) 1 (show (1 : Nat) < 3 by decide) S1x1024x8192 (val_main_v61 (F := Ideal) x0 x1 x2 x3 x4) rfl rfl 1 rfl
      (ix3 (0 : Fin 1) n (colR f' b)) (hi _ _ rfl rfl) rfl).trans ?_
    rw [val_main_v61_apply, (idx_6x (colR f' b) n 0).2.1, v55_apply]
    rfl
  | ⟨2, hk⟩ =>
    refine (concatenate_apply_piece (t := S3x1024x8192) 0
      [⟨S1x1024x8192, val_main_v60 (F := Ideal) x0 x1 x2 x3 x4⟩, ⟨S1x1024x8192, val_main_v61 (F := Ideal) x0 x1 x2 x3 x4⟩, ⟨S1x1024x8192, val_main_v62 (F := Ideal) x0 x1 x2 x3 x4⟩]
      concatenates_S1x1024x8192_S1x1024x8192_S1x1024x8192_S3x1024x8192_d0
      (ix3 ⟨2, hk⟩ n (colR f' b)) 2 (show (2 : Nat) < 3 by decide) S1x1024x8192 (val_main_v62 (F := Ideal) x0 x1 x2 x3 x4) rfl rfl 2 rfl
      (ix3 (0 : Fin 1) n (colR f' b)) (hi _ _ rfl rfl) rfl).trans ?_
    rw [val_main_v62_apply, (idx_6x (colR f' b) n 0).2.2, v59_apply]
    rfl

theorem v66_apply (b : Fin 64) (n : Fin 1024) (f' : Fin 128) (k : Fin 3) :
    val_main_v66 (F := Ideal) x0 x1 x2 x3 x4 (ix2 (rowR b n) (wrow f' k))
      = Cert.Spec.D x2 (Cert.Spec.catv x0 (Cert.Spec.sst x0 x1 x2 x3 x4) b f') k n := by
  rw [val_main_v66_apply, idx_66, val_main_v65_apply, idx_65, val_main_v64_apply, idx_64]
  exact v63_apply x0 x1 x2 x3 x4 k n f' b

/-! ### The contraction with the weights and the bias -/

/-- The weight rows f'·3 + k enumerate Fin 384 once each. -/
private def wrowEquiv : Fin 3 × Fin 128 ≃ Fin 384 where
  toFun p := wrow p.2 p.1
  invFun j := (⟨j.val % 3, Nat.mod_lt _ (by decide)⟩, ⟨j.val / 3, by have := j.isLt; omega⟩)
  left_inv p := by
    have h1 := p.1.isLt; have h2 := p.2.isLt
    exact Prod.ext (Fin.ext (by show (p.2.val * 3 + p.1.val) % 3 = p.1.val; omega))
      (Fin.ext (by show (p.2.val * 3 + p.1.val) / 3 = p.2.val; omega))
  right_inv j := Fin.ext (by show j.val / 3 * 3 + j.val % 3 = j.val; omega)

private theorem sum_wrow' (g : Fin 384 → EReal) :
    ∑ j : Fin 384, g j = ∑ k : Fin 3, ∑ f' : Fin 128, g (wrow f' k) := by
  rw [← Equiv.sum_comp wrowEquiv g, Fintype.sum_prod_type]
  rfl

/-- The candidate's pre-activation. -/
theorem v70_apply (b : Fin 64) (n : Fin 1024) (o : Fin 64) :
    val_main_v70 (F := Ideal) x0 x1 x2 x3 x4 x5 x6 (ix2 (rowR b n) o)
      = Cert.Spec.gconvG x0 x2 x5 x6 (Cert.Spec.sst x0 x1 x2 x3 x4) n b o := by
  rw [val_main_v70_apply, val_main_v67_apply, val_main_v69_apply, val_main_v68_apply]
  unfold Cert.Spec.gconvG
  have eb : idx_main_v68 (idx_main_v69 (ix2 (rowR b n) o)) = ix1 o :=
    funext fun a => Fin.ext (by match a with | ⟨0, _⟩ => rfl)
  rw [eb, Ideal.addf_def, sum_wrow']
  refine congrArg (· + x6 (ix1 o)) ?_
  refine Finset.sum_congr rfl fun k _ => Finset.sum_congr rfl fun f' _ => ?_
  have el : lidx_main_v67 (ix2 (rowR b n) o) (wrow f' k) = ix2 (rowR b n) (wrow f' k) :=
    funext fun a => Fin.ext (by match a with | ⟨0, _⟩ => rfl | ⟨1, _⟩ => rfl)
  have er : ridx_main_v67 (ix2 (rowR b n) o) (wrow f' k) = ix2 (wrow f' k) o :=
    funext fun a => Fin.ext (by match a with | ⟨0, _⟩ => rfl | ⟨1, _⟩ => rfl)
  rw [el, er, v66_apply]

end Cert.ReferenceIdeal.RPass2

end
-- ==== Proof.RFinal.lean ====
import proofs.«118218_g51479478010102_cont_8to1_c_652_2_alg».proof.Proof.ReadP
import proofs.«118218_g51479478010102_cont_8to1_c_652_2_alg».proof.Proof.Spec
import proofs.«118218_g51479478010102_cont_8to1_c_652_2_alg».proof.Proof.RGates
import proofs.«118218_g51479478010102_cont_8to1_c_652_2_alg».proof.Proof.RPass2
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RFinal

open Idealize.ShloMosaic Idealize.ShloMosaic.ValueIdx
open Cert.ReferenceIdeal Cert.ReferenceIdeal.ReadP Cert.ReferenceIdeal.Facts₀ Cert.ReferenceIdeal.Facts
open Cert.Spec (pos wrow colR rowR lo hi)

variable (x0 x1 : (⟨S64x65536, .f32⟩ : BufTy).Contents (Elt Ideal)) (x2 : (⟨S1024x1024, .f32⟩ : BufTy).Contents (Elt Ideal))
  (x3 : (⟨S384x128, .f32⟩ : BufTy).Contents (Elt Ideal)) (x4 : (⟨S128, .f32⟩ : BufTy).Contents (Elt Ideal))
  (x5 : (⟨S384x64, .f32⟩ : BufTy).Contents (Elt Ideal)) (x6 : (⟨S64, .f32⟩ : BufTy).Contents (Elt Ideal))

open Cert.ReferenceIdeal.RGates Cert.ReferenceIdeal.RPass2

/-! The new state: stages %71 … %77. -/

/-- Entry (b, n·64 + f) of the [64, 1024·64] view is entry (b·1024 + n, f) of the [64·1024, 64] one. -/
private theorem idx71_at (b : Fin 64) (n : Fin 1024) (f : Fin 64) :
    idx_main_v71 (ix2 b (pos n f)) = ix2 (rowR b n) f := by
  have hb := b.isLt; have hn := n.isLt; have hf := f.isLt
  funext a
  apply Fin.ext
  match a with
  | ⟨0, _⟩ => show (b.val * 65536 + (n.val * 64 + f.val)) / 64 = b.val * 1024 + n.val; omega
  | ⟨1, _⟩ => show (b.val * 65536 + (n.val * 64 + f.val)) % 64 = f.val; omega

/-- The candidate: the hyperbolic tangent of the second convolution, at entry (b, n·64 + f). -/
private theorem v72_at (b : Fin 64) (n : Fin 1024) (f : Fin 64) :
    val_main_v72 (F := Ideal) x0 x1 x2 x3 x4 x5 x6 (ix2 b (pos n f))
      = Ideal.tanh (Cert.Spec.gconvG x0 x2 x5 x6 (Cert.Spec.sst x0 x1 x2 x3 x4) n b f) := by
  rw [val_main_v72_apply, val_main_v71_apply, idx71_at, v70_apply, Ideal.hostUnary_tanh_def]

/-- One minus the update gate, at entry (b, n·64 + f). -/
private theorem v75_at (b : Fin 64) (n : Fin 1024) (f : Fin 64) :
    val_main_v75 (F := Ideal) x0 x1 x2 x3 x4 (ix2 b (pos n f))
      = 1 - Cert.Spec.ugate x0 x1 x2 x3 x4 n b f := by
  rw [val_main_v75_apply, val_main_v74_apply, val_main_cst_6_apply, v48_apply, Ideal.subf_def, Ideal.ofBits_def,
    Ideal.ofBits_one_f32]

/-- The reference's result, entry (b, n·64 + f), is the new state of node n, batch row b, feature f. -/
theorem v77_apply (b : Fin 64) (n : Fin 1024) (f : Fin 64) :
    val_main_v77 (F := Ideal) x0 x1 x2 x3 x4 x5 x6 (ix2 b (pos n f)) = Cert.Spec.out x0 x1 x2 x3 x4 x5 x6 n b f := by
  have h : val_main_v77 (F := Ideal) x0 x1 x2 x3 x4 x5 x6 (ix2 b (pos n f))
      = Cert.Spec.ugate x0 x1 x2 x3 x4 n b f * x1 (ix2 b (pos n f))
        + (1 - Cert.Spec.ugate x0 x1 x2 x3 x4 n b f)
          * Ideal.tanh (Cert.Spec.gconvG x0 x2 x5 x6 (Cert.Spec.sst x0 x1 x2 x3 x4) n b f) := by
    rw [val_main_v77_apply, val_main_v73_apply, val_main_v76_apply, v75_at, v72_at, v48_apply,
      Ideal.addf_def, Ideal.mulf_def, Ideal.mulf_def]
  exact h

end Cert.ReferenceIdeal.RFinal

end
-- ==== Proof.lean ====
/-
  One step of a diffusion-convolution GRU cell on 1024 nodes, 64 batch rows and 64 + 64 features.

  The kernel keeps the activations node-major, diffuses the input half once and reuses it for both graph
  convolutions, and contracts each diffusion order with its own re-ordered weight slice; the reference
  stacks the three orders, transposes, and contracts with the weights as given.  Over the extended reals
  both compute, for node n, batch row b and feature f, the same number `Cert.Spec.out … n b f`: the
  transition matrices agree entry by entry (a product commuted and a sum over the same terms), every
  diffusion is a column-wise matrix product with that matrix, the two gate contractions are one sum over
  (order, feature) pairs taken in two orders, and the logistic is the same function either as one operation
  or as negate, exponential, add and divide.  No law that needs finite inputs is used.

  The kernel's two frames are its launches' runs; the reference's frame is its run, proved one stretch of host
  operations at a time, with the result dropped; nothing was rewritten by the ideal pass, so the idealisation
  conjunct is trivial.
-/
import proofs.«118218_g51479478010102_cont_8to1_c_652_2_alg».proof.Defs
import proofs.«118218_g51479478010102_cont_8to1_c_652_2_alg».proof.Proof.Gen.Kernel
import proofs.«118218_g51479478010102_cont_8to1_c_652_2_alg».proof.Proof.Gen.Kernel.Frame
import proofs.«118218_g51479478010102_cont_8to1_c_652_2_alg».proof.Proof.Gen.KernelIdeal
import proofs.«118218_g51479478010102_cont_8to1_c_652_2_alg».proof.Proof.Gen.KernelIdeal.Frame
import proofs.«118218_g51479478010102_cont_8to1_c_652_2_alg».proof.Proof.Gen.ReferenceIdeal
import proofs.«118218_g51479478010102_cont_8to1_c_652_2_alg».proof.Proof.ReadP
import proofs.«118218_g51479478010102_cont_8to1_c_652_2_alg».proof.Proof.RefRun
import proofs.«118218_g51479478010102_cont_8to1_c_652_2_alg».proof.Proof.Gen.Pre_finite_inputs
import proofs.«118218_g51479478010102_cont_8to1_c_652_2_alg».proof.Proof.KRun
import proofs.«118218_g51479478010102_cont_8to1_c_652_2_alg».proof.Proof.KFold
import proofs.«118218_g51479478010102_cont_8to1_c_652_2_alg».proof.Proof.KBridgeB
import proofs.«118218_g51479478010102_cont_8to1_c_652_2_alg».proof.Proof.RFinal
import Idealize.ShloMosaic.Adequacy
import Idealize.ShloMosaic.Init

noncomputable section

namespace Cert.Proof

open Idealize.ShloMosaic Idealize.ShloMosaic.TcCoe Idealize.ShloMosaic.ValueIdx Idealize.SL.Sem

/-- Every column p < 1024·64 of a row is the column of one (node, feature) pair. -/
theorem pos_surj (p : Fin 65536) : ∃ (n : Fin 1024) (f : Fin 64), p = Cert.Spec.pos n f :=
  ⟨⟨p.val / 64, by have := p.isLt; omega⟩, ⟨p.val % 64, Nat.mod_lt _ (by decide)⟩, Fin.ext (by
    show p.val = p.val / 64 * 64 + p.val % 64
    omega)⟩

/-- The two programs' results are one array: entry (b, n·64 + f) of either is the new state of node n, batch row
    b, feature f. -/
theorem result_eq (x0 x1 : Cert.KernelIdeal.KSpec.A2 Cert.KernelIdeal.S64x65536) (x2 : Cert.KernelIdeal.KSpec.A2 Cert.KernelIdeal.S1024x1024)
    (x3 : Cert.KernelIdeal.KSpec.A2 Cert.KernelIdeal.S384x128) (x4 : Cert.KernelIdeal.KSpec.A2 Cert.KernelIdeal.S128)
    (x5 : Cert.KernelIdeal.KSpec.A2 Cert.KernelIdeal.S384x64) (x6 : Cert.KernelIdeal.KSpec.A2 Cert.KernelIdeal.S64) :
    Cert.ReferenceIdeal.ReadP.val_main_v77 (F := Ideal) x0 x1 x2 x3 x4 x5 x6 = Cert.KernelIdeal.KSpec.kRes x0 x1 x2 x3 x4 x5 x6 := by
  funext i
  obtain ⟨b, p, rfl⟩ : ∃ (b : Fin 64) (p : Fin 65536), i = ix2 b p := ⟨i 0, i 1, eq_ix2 i⟩
  obtain ⟨n, f, rfl⟩ := pos_surj p
  rw [Cert.ReferenceIdeal.RFinal.v77_apply, Cert.KernelIdeal.KBridgeB.kRes_apply]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealised programs, from memories agreeing on the arguments, end with the same result array. -/
theorem algebraic : Cert.algebraic_KernelIdeal_ReferenceIdeal := by
  intro m ρ m' ρ' _ hagree
  refine ⟨fun c => Cert.KernelIdeal.KSpec.kRes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KFold.value m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1,
      (hagree c).2.2.2.2.1, (hagree c).2.2.2.2.2.1, (hagree c).2.2.2.2.2.2]
    exact result_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
